-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel

variable [Facts]

def fn {F : FTy → Type} [FloatOps F] (main_arg0 : FVec F S1024x8192 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  main_v3
-- ==== Kernel.lean ====
abbrev S1024x512 : Shape := ⟨2, ![1024, 512]⟩
abbrev S16x2x1024 : Shape := ⟨3, ![16, 2, 1024]⟩
abbrev S16 : Shape := ⟨1, ![16]⟩
abbrev S_ : Shape := ⟨0, ![]⟩
abbrev S1024 : Shape := ⟨1, ![1024]⟩
abbrev S1024x1 : Shape := ⟨2, ![1024, 1]⟩
abbrev S1x1x1024 : Shape := ⟨3, ![1, 1, 1024]⟩
abbrev S1 : Shape := ⟨1, ![1]⟩
abbrev S1x2x1024 : Shape := ⟨3, ![1, 2, 1024]⟩
abbrev S2x1024 : Shape := ⟨2, ![2, 1024]⟩
abbrev S16x1x1024 : Shape := ⟨3, ![16, 1, 1024]⟩
abbrev S16x1024 : Shape := ⟨2, ![16, 1024]⟩
abbrev S1x1024 : Shape := ⟨2, ![1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S16x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v206 : Index := Scalar.indexCast v2
  let c0_136 : Index := 0#32
  let c0_137 : Index := 0#32
  ![v206.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v211 : Index := Scalar.indexCast v2
  let c1 : Index := 1#32
  let c0_139 : Index := 0#32
  ![v211.toNat, 1, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v215 : BitVec 32 := Scalar.addi v2 c1_i32_141
  let c16_i32_142 : BitVec 32 := 16#32
  let c0_i32_143 : BitVec 32 := 0#32
  let v216 : BitVec 1 := Scalar.cmpi .eq c16_i32_142 c0_i32_143
  let c1_i32_144 : BitVec 32 := 1#32
  let v217 : BitVec 32 := Scalar.select v216 c1_i32_144 c16_i32_142
  let v218 : BitVec 32 := Scalar.remsi v215 v217
  let c0_i32_146 : BitVec 32 := 0#32
  let v220 : BitVec 1 := Scalar.cmpi .slt v218 c0_i32_146
  let c0_i32_147 : BitVec 32 := 0#32
  let v221 : BitVec 1 := Scalar.cmpi .slt v217 c0_i32_147
  let v222 : BitVec 1 := Scalar.xori v220 v221
  let c0_i32_145 : BitVec 32 := 0#32
  let v219 : BitVec 1 := Scalar.cmpi .ne v218 c0_i32_145
  let v223 : BitVec 1 := Scalar.andi v222 v219
  let v224 : BitVec 32 := Scalar.addi v218 v217
  let v225 : BitVec 32 := Scalar.select v223 v224 v218
  let c1_i32_149 : BitVec 32 := 1#32
  let v226 : BitVec 32 := Scalar.muli v225 c1_i32_149
  let v227 : BitVec 32 := Scalar.addi c0_i32_150 v226
  v227.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_155 : BitVec 32 := 2#32
  let v236 : BitVec 32 := Scalar.addi v2 c2_i32_155
  let c16_i32_156 : BitVec 32 := 16#32
  let c0_i32_157 : BitVec 32 := 0#32
  let v237 : BitVec 1 := Scalar.cmpi .eq c16_i32_156 c0_i32_157
  let c1_i32_158 : BitVec 32 := 1#32
  let v238 : BitVec 32 := Scalar.select v237 c1_i32_158 c16_i32_156
  let v239 : BitVec 32 := Scalar.remsi v236 v238
  let c0_i32_160 : BitVec 32 := 0#32
  let v241 : BitVec 1 := Scalar.cmpi .slt v239 c0_i32_160
  let c0_i32_161 : BitVec 32 := 0#32
  let v242 : BitVec 1 := Scalar.cmpi .slt v238 c0_i32_161
  let v243 : BitVec 1 := Scalar.xori v241 v242
  let c0_i32_159 : BitVec 32 := 0#32
  let v240 : BitVec 1 := Scalar.cmpi .ne v239 c0_i32_159
  let v244 : BitVec 1 := Scalar.andi v243 v240
  let v245 : BitVec 32 := Scalar.addi v239 v238
  let v246 : BitVec 32 := Scalar.select v244 v245 v239
  let c1_i32_163 : BitVec 32 := 1#32
  let v247 : BitVec 32 := Scalar.muli v246 c1_i32_163
  let v248 : BitVec 32 := Scalar.addi c0_i32_164 v247
  v248.toNat
def k0_dev18 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_169 : BitVec 32 := 3#32
  let v257 : BitVec 32 := Scalar.addi v2 c3_i32_169
  let c16_i32_170 : BitVec 32 := 16#32
  let c0_i32_171 : BitVec 32 := 0#32
  let v258 : BitVec 1 := Scalar.cmpi .eq c16_i32_170 c0_i32_171
  let c1_i32_172 : BitVec 32 := 1#32
  let v259 : BitVec 32 := Scalar.select v258 c1_i32_172 c16_i32_170
  let v260 : BitVec 32 := Scalar.remsi v257 v259
  let c0_i32_174 : BitVec 32 := 0#32
  let v262 : BitVec 1 := Scalar.cmpi .slt v260 c0_i32_174
  let c0_i32_175 : BitVec 32 := 0#32
  let v263 : BitVec 1 := Scalar.cmpi .slt v259 c0_i32_175
  let v264 : BitVec 1 := Scalar.xori v262 v263
  let c0_i32_173 : BitVec 32 := 0#32
  let v261 : BitVec 1 := Scalar.cmpi .ne v260 c0_i32_173
  let v265 : BitVec 1 := Scalar.andi v264 v261
  let v266 : BitVec 32 := Scalar.addi v260 v259
  let v267 : BitVec 32 := Scalar.select v265 v266 v260
  let c1_i32_177 : BitVec 32 := 1#32
  let v268 : BitVec 32 := Scalar.muli v267 c1_i32_177
  let v269 : BitVec 32 := Scalar.addi c0_i32_178 v268
  v269.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v278 : BitVec 32 := Scalar.addi v2 c4_i32_183
  let c16_i32_184 : BitVec 32 := 16#32
  let c0_i32_185 : BitVec 32 := 0#32
  let v279 : BitVec 1 := Scalar.cmpi .eq c16_i32_184 c0_i32_185
  let c1_i32_186 : BitVec 32 := 1#32
  let v280 : BitVec 32 := Scalar.select v279 c1_i32_186 c16_i32_184
  let v281 : BitVec 32 := Scalar.remsi v278 v280
  let c0_i32_188 : BitVec 32 := 0#32
  let v283 : BitVec 1 := Scalar.cmpi .slt v281 c0_i32_188
  let c0_i32_189 : BitVec 32 := 0#32
  let v284 : BitVec 1 := Scalar.cmpi .slt v280 c0_i32_189
  let v285 : BitVec 1 := Scalar.xori v283 v284
  let c0_i32_187 : BitVec 32 := 0#32
  let v282 : BitVec 1 := Scalar.cmpi .ne v281 c0_i32_187
  let v286 : BitVec 1 := Scalar.andi v285 v282
  let v287 : BitVec 32 := Scalar.addi v281 v280
  let v288 : BitVec 32 := Scalar.select v286 v287 v281
  let c1_i32_191 : BitVec 32 := 1#32
  let v289 : BitVec 32 := Scalar.muli v288 c1_i32_191
  let v290 : BitVec 32 := Scalar.addi c0_i32_192 v289
  v290.toNat
def k0_dev20 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_197 : BitVec 32 := 5#32
  let v299 : BitVec 32 := Scalar.addi v2 c5_i32_197
  let c16_i32_198 : BitVec 32 := 16#32
  let c0_i32_199 : BitVec 32 := 0#32
  let v300 : BitVec 1 := Scalar.cmpi .eq c16_i32_198 c0_i32_199
  let c1_i32_200 : BitVec 32 := 1#32
  let v301 : BitVec 32 := Scalar.select v300 c1_i32_200 c16_i32_198
  let v302 : BitVec 32 := Scalar.remsi v299 v301
  let c0_i32_202 : BitVec 32 := 0#32
  let v304 : BitVec 1 := Scalar.cmpi .slt v302 c0_i32_202
  let c0_i32_203 : BitVec 32 := 0#32
  let v305 : BitVec 1 := Scalar.cmpi .slt v301 c0_i32_203
  let v306 : BitVec 1 := Scalar.xori v304 v305
  let c0_i32_201 : BitVec 32 := 0#32
  let v303 : BitVec 1 := Scalar.cmpi .ne v302 c0_i32_201
  let v307 : BitVec 1 := Scalar.andi v306 v303
  let v308 : BitVec 32 := Scalar.addi v302 v301
  let v309 : BitVec 32 := Scalar.select v307 v308 v302
  let c1_i32_205 : BitVec 32 := 1#32
  let v310 : BitVec 32 := Scalar.muli v309 c1_i32_205
  let v311 : BitVec 32 := Scalar.addi c0_i32_206 v310
  v311.toNat
def k0_dev21 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_211 : BitVec 32 := 6#32
  let v320 : BitVec 32 := Scalar.addi v2 c6_i32_211
  let c16_i32_212 : BitVec 32 := 16#32
  let c0_i32_213 : BitVec 32 := 0#32
  let v321 : BitVec 1 := Scalar.cmpi .eq c16_i32_212 c0_i32_213
  let c1_i32_214 : BitVec 32 := 1#32
  let v322 : BitVec 32 := Scalar.select v321 c1_i32_214 c16_i32_212
  let v323 : BitVec 32 := Scalar.remsi v320 v322
  let c0_i32_216 : BitVec 32 := 0#32
  let v325 : BitVec 1 := Scalar.cmpi .slt v323 c0_i32_216
  let c0_i32_217 : BitVec 32 := 0#32
  let v326 : BitVec 1 := Scalar.cmpi .slt v322 c0_i32_217
  let v327 : BitVec 1 := Scalar.xori v325 v326
  let c0_i32_215 : BitVec 32 := 0#32
  let v324 : BitVec 1 := Scalar.cmpi .ne v323 c0_i32_215
  let v328 : BitVec 1 := Scalar.andi v327 v324
  let v329 : BitVec 32 := Scalar.addi v323 v322
  let v330 : BitVec 32 := Scalar.select v328 v329 v323
  let c1_i32_219 : BitVec 32 := 1#32
  let v331 : BitVec 32 := Scalar.muli v330 c1_i32_219
  let v332 : BitVec 32 := Scalar.addi c0_i32_220 v331
  v332.toNat
def k0_dev22 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_225 : BitVec 32 := 7#32
  let v341 : BitVec 32 := Scalar.addi v2 c7_i32_225
  let c16_i32_226 : BitVec 32 := 16#32
  let c0_i32_227 : BitVec 32 := 0#32
  let v342 : BitVec 1 := Scalar.cmpi .eq c16_i32_226 c0_i32_227
  let c1_i32_228 : BitVec 32 := 1#32
  let v343 : BitVec 32 := Scalar.select v342 c1_i32_228 c16_i32_226
  let v344 : BitVec 32 := Scalar.remsi v341 v343
  let c0_i32_230 : BitVec 32 := 0#32
  let v346 : BitVec 1 := Scalar.cmpi .slt v344 c0_i32_230
  let c0_i32_231 : BitVec 32 := 0#32
  let v347 : BitVec 1 := Scalar.cmpi .slt v343 c0_i32_231
  let v348 : BitVec 1 := Scalar.xori v346 v347
  let c0_i32_229 : BitVec 32 := 0#32
  let v345 : BitVec 1 := Scalar.cmpi .ne v344 c0_i32_229
  let v349 : BitVec 1 := Scalar.andi v348 v345
  let v350 : BitVec 32 := Scalar.addi v344 v343
  let v351 : BitVec 32 := Scalar.select v349 v350 v344
  let c1_i32_233 : BitVec 32 := 1#32
  let v352 : BitVec 32 := Scalar.muli v351 c1_i32_233
  let v353 : BitVec 32 := Scalar.addi c0_i32_234 v352
  v353.toNat
def k0_dev23 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_239 : BitVec 32 := 8#32
  let v362 : BitVec 32 := Scalar.addi v2 c8_i32_239
  let c16_i32_240 : BitVec 32 := 16#32
  let c0_i32_241 : BitVec 32 := 0#32
  let v363 : BitVec 1 := Scalar.cmpi .eq c16_i32_240 c0_i32_241
  let c1_i32_242 : BitVec 32 := 1#32
  let v364 : BitVec 32 := Scalar.select v363 c1_i32_242 c16_i32_240
  let v365 : BitVec 32 := Scalar.remsi v362 v364
  let c0_i32_244 : BitVec 32 := 0#32
  let v367 : BitVec 1 := Scalar.cmpi .slt v365 c0_i32_244
  let c0_i32_245 : BitVec 32 := 0#32
  let v368 : BitVec 1 := Scalar.cmpi .slt v364 c0_i32_245
  let v369 : BitVec 1 := Scalar.xori v367 v368
  let c0_i32_243 : BitVec 32 := 0#32
  let v366 : BitVec 1 := Scalar.cmpi .ne v365 c0_i32_243
  let v370 : BitVec 1 := Scalar.andi v369 v366
  let v371 : BitVec 32 := Scalar.addi v365 v364
  let v372 : BitVec 32 := Scalar.select v370 v371 v365
  let c1_i32_247 : BitVec 32 := 1#32
  let v373 : BitVec 32 := Scalar.muli v372 c1_i32_247
  let v374 : BitVec 32 := Scalar.addi c0_i32_248 v373
  v374.toNat
def k0_dev24 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_253 : BitVec 32 := 9#32
  let v383 : BitVec 32 := Scalar.addi v2 c9_i32_253
  let c16_i32_254 : BitVec 32 := 16#32
  let c0_i32_255 : BitVec 32 := 0#32
  let v384 : BitVec 1 := Scalar.cmpi .eq c16_i32_254 c0_i32_255
  let c1_i32_256 : BitVec 32 := 1#32
  let v385 : BitVec 32 := Scalar.select v384 c1_i32_256 c16_i32_254
  let v386 : BitVec 32 := Scalar.remsi v383 v385
  let c0_i32_258 : BitVec 32 := 0#32
  let v388 : BitVec 1 := Scalar.cmpi .slt v386 c0_i32_258
  let c0_i32_259 : BitVec 32 := 0#32
  let v389 : BitVec 1 := Scalar.cmpi .slt v385 c0_i32_259
  let v390 : BitVec 1 := Scalar.xori v388 v389
  let c0_i32_257 : BitVec 32 := 0#32
  let v387 : BitVec 1 := Scalar.cmpi .ne v386 c0_i32_257
  let v391 : BitVec 1 := Scalar.andi v390 v387
  let v392 : BitVec 32 := Scalar.addi v386 v385
  let v393 : BitVec 32 := Scalar.select v391 v392 v386
  let c1_i32_261 : BitVec 32 := 1#32
  let v394 : BitVec 32 := Scalar.muli v393 c1_i32_261
  let v395 : BitVec 32 := Scalar.addi c0_i32_262 v394
  v395.toNat
def k0_dev25 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_267 : BitVec 32 := 10#32
  let v404 : BitVec 32 := Scalar.addi v2 c10_i32_267
  let c16_i32_268 : BitVec 32 := 16#32
  let c0_i32_269 : BitVec 32 := 0#32
  let v405 : BitVec 1 := Scalar.cmpi .eq c16_i32_268 c0_i32_269
  let c1_i32_270 : BitVec 32 := 1#32
  let v406 : BitVec 32 := Scalar.select v405 c1_i32_270 c16_i32_268
  let v407 : BitVec 32 := Scalar.remsi v404 v406
  let c0_i32_272 : BitVec 32 := 0#32
  let v409 : BitVec 1 := Scalar.cmpi .slt v407 c0_i32_272
  let c0_i32_273 : BitVec 32 := 0#32
  let v410 : BitVec 1 := Scalar.cmpi .slt v406 c0_i32_273
  let v411 : BitVec 1 := Scalar.xori v409 v410
  let c0_i32_271 : BitVec 32 := 0#32
  let v408 : BitVec 1 := Scalar.cmpi .ne v407 c0_i32_271
  let v412 : BitVec 1 := Scalar.andi v411 v408
  let v413 : BitVec 32 := Scalar.addi v407 v406
  let v414 : BitVec 32 := Scalar.select v412 v413 v407
  let c1_i32_275 : BitVec 32 := 1#32
  let v415 : BitVec 32 := Scalar.muli v414 c1_i32_275
  let v416 : BitVec 32 := Scalar.addi c0_i32_276 v415
  v416.toNat
def k0_dev26 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_281 : BitVec 32 := 11#32
  let v425 : BitVec 32 := Scalar.addi v2 c11_i32_281
  let c16_i32_282 : BitVec 32 := 16#32
  let c0_i32_283 : BitVec 32 := 0#32
  let v426 : BitVec 1 := Scalar.cmpi .eq c16_i32_282 c0_i32_283
  let c1_i32_284 : BitVec 32 := 1#32
  let v427 : BitVec 32 := Scalar.select v426 c1_i32_284 c16_i32_282
  let v428 : BitVec 32 := Scalar.remsi v425 v427
  let c0_i32_286 : BitVec 32 := 0#32
  let v430 : BitVec 1 := Scalar.cmpi .slt v428 c0_i32_286
  let c0_i32_287 : BitVec 32 := 0#32
  let v431 : BitVec 1 := Scalar.cmpi .slt v427 c0_i32_287
  let v432 : BitVec 1 := Scalar.xori v430 v431
  let c0_i32_285 : BitVec 32 := 0#32
  let v429 : BitVec 1 := Scalar.cmpi .ne v428 c0_i32_285
  let v433 : BitVec 1 := Scalar.andi v432 v429
  let v434 : BitVec 32 := Scalar.addi v428 v427
  let v435 : BitVec 32 := Scalar.select v433 v434 v428
  let c1_i32_289 : BitVec 32 := 1#32
  let v436 : BitVec 32 := Scalar.muli v435 c1_i32_289
  let v437 : BitVec 32 := Scalar.addi c0_i32_290 v436
  v437.toNat
def k0_dev27 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_295 : BitVec 32 := 12#32
  let v446 : BitVec 32 := Scalar.addi v2 c12_i32_295
  let c16_i32_296 : BitVec 32 := 16#32
  let c0_i32_297 : BitVec 32 := 0#32
  let v447 : BitVec 1 := Scalar.cmpi .eq c16_i32_296 c0_i32_297
  let c1_i32_298 : BitVec 32 := 1#32
  let v448 : BitVec 32 := Scalar.select v447 c1_i32_298 c16_i32_296
  let v449 : BitVec 32 := Scalar.remsi v446 v448
  let c0_i32_300 : BitVec 32 := 0#32
  let v451 : BitVec 1 := Scalar.cmpi .slt v449 c0_i32_300
  let c0_i32_301 : BitVec 32 := 0#32
  let v452 : BitVec 1 := Scalar.cmpi .slt v448 c0_i32_301
  let v453 : BitVec 1 := Scalar.xori v451 v452
  let c0_i32_299 : BitVec 32 := 0#32
  let v450 : BitVec 1 := Scalar.cmpi .ne v449 c0_i32_299
  let v454 : BitVec 1 := Scalar.andi v453 v450
  let v455 : BitVec 32 := Scalar.addi v449 v448
  let v456 : BitVec 32 := Scalar.select v454 v455 v449
  let c1_i32_303 : BitVec 32 := 1#32
  let v457 : BitVec 32 := Scalar.muli v456 c1_i32_303
  let v458 : BitVec 32 := Scalar.addi c0_i32_304 v457
  v458.toNat
def k0_dev28 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_309 : BitVec 32 := 13#32
  let v467 : BitVec 32 := Scalar.addi v2 c13_i32_309
  let c16_i32_310 : BitVec 32 := 16#32
  let c0_i32_311 : BitVec 32 := 0#32
  let v468 : BitVec 1 := Scalar.cmpi .eq c16_i32_310 c0_i32_311
  let c1_i32_312 : BitVec 32 := 1#32
  let v469 : BitVec 32 := Scalar.select v468 c1_i32_312 c16_i32_310
  let v470 : BitVec 32 := Scalar.remsi v467 v469
  let c0_i32_314 : BitVec 32 := 0#32
  let v472 : BitVec 1 := Scalar.cmpi .slt v470 c0_i32_314
  let c0_i32_315 : BitVec 32 := 0#32
  let v473 : BitVec 1 := Scalar.cmpi .slt v469 c0_i32_315
  let v474 : BitVec 1 := Scalar.xori v472 v473
  let c0_i32_313 : BitVec 32 := 0#32
  let v471 : BitVec 1 := Scalar.cmpi .ne v470 c0_i32_313
  let v475 : BitVec 1 := Scalar.andi v474 v471
  let v476 : BitVec 32 := Scalar.addi v470 v469
  let v477 : BitVec 32 := Scalar.select v475 v476 v470
  let c1_i32_317 : BitVec 32 := 1#32
  let v478 : BitVec 32 := Scalar.muli v477 c1_i32_317
  let v479 : BitVec 32 := Scalar.addi c0_i32_318 v478
  v479.toNat
def k0_dev29 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_323 : BitVec 32 := 14#32
  let v488 : BitVec 32 := Scalar.addi v2 c14_i32_323
  let c16_i32_324 : BitVec 32 := 16#32
  let c0_i32_325 : BitVec 32 := 0#32
  let v489 : BitVec 1 := Scalar.cmpi .eq c16_i32_324 c0_i32_325
  let c1_i32_326 : BitVec 32 := 1#32
  let v490 : BitVec 32 := Scalar.select v489 c1_i32_326 c16_i32_324
  let v491 : BitVec 32 := Scalar.remsi v488 v490
  let c0_i32_328 : BitVec 32 := 0#32
  let v493 : BitVec 1 := Scalar.cmpi .slt v491 c0_i32_328
  let c0_i32_329 : BitVec 32 := 0#32
  let v494 : BitVec 1 := Scalar.cmpi .slt v490 c0_i32_329
  let v495 : BitVec 1 := Scalar.xori v493 v494
  let c0_i32_327 : BitVec 32 := 0#32
  let v492 : BitVec 1 := Scalar.cmpi .ne v491 c0_i32_327
  let v496 : BitVec 1 := Scalar.andi v495 v492
  let v497 : BitVec 32 := Scalar.addi v491 v490
  let v498 : BitVec 32 := Scalar.select v496 v497 v491
  let c1_i32_331 : BitVec 32 := 1#32
  let v499 : BitVec 32 := Scalar.muli v498 c1_i32_331
  let v500 : BitVec 32 := Scalar.addi c0_i32_332 v499
  v500.toNat
def k0_dev30 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_337 : BitVec 32 := 15#32
  let v509 : BitVec 32 := Scalar.addi v2 c15_i32_337
  let c16_i32_338 : BitVec 32 := 16#32
  let c0_i32_339 : BitVec 32 := 0#32
  let v510 : BitVec 1 := Scalar.cmpi .eq c16_i32_338 c0_i32_339
  let c1_i32_340 : BitVec 32 := 1#32
  let v511 : BitVec 32 := Scalar.select v510 c1_i32_340 c16_i32_338
  let v512 : BitVec 32 := Scalar.remsi v509 v511
  let c0_i32_342 : BitVec 32 := 0#32
  let v514 : BitVec 1 := Scalar.cmpi .slt v512 c0_i32_342
  let c0_i32_343 : BitVec 32 := 0#32
  let v515 : BitVec 1 := Scalar.cmpi .slt v511 c0_i32_343
  let v516 : BitVec 1 := Scalar.xori v514 v515
  let c0_i32_341 : BitVec 32 := 0#32
  let v513 : BitVec 1 := Scalar.cmpi .ne v512 c0_i32_341
  let v517 : BitVec 1 := Scalar.andi v516 v513
  let v518 : BitVec 32 := Scalar.addi v512 v511
  let v519 : BitVec 32 := Scalar.select v517 v518 v512
  let c1_i32_345 : BitVec 32 := 1#32
  let v520 : BitVec 32 := Scalar.muli v519 c1_i32_345
  let v521 : BitVec 32 := Scalar.addi c0_i32_346 v520
  v521.toNat
def k0_off5 (d0 : Dev nD) (c1_i32_353 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v531 : BitVec 32 := Scalar.subi v2 c1_i32_353
  let c16_i32_354 : BitVec 32 := 16#32
  let c0_i32_355 : BitVec 32 := 0#32
  let v532 : BitVec 1 := Scalar.cmpi .eq c16_i32_354 c0_i32_355
  let c1_i32_356 : BitVec 32 := 1#32
  let v533 : BitVec 32 := Scalar.select v532 c1_i32_356 c16_i32_354
  let v534 : BitVec 32 := Scalar.remsi v531 v533
  let c0_i32_358 : BitVec 32 := 0#32
  let v536 : BitVec 1 := Scalar.cmpi .slt v534 c0_i32_358
  let c0_i32_359 : BitVec 32 := 0#32
  let v537 : BitVec 1 := Scalar.cmpi .slt v533 c0_i32_359
  let v538 : BitVec 1 := Scalar.xori v536 v537
  let c0_i32_357 : BitVec 32 := 0#32
  let v535 : BitVec 1 := Scalar.cmpi .ne v534 c0_i32_357
  let v539 : BitVec 1 := Scalar.andi v538 v535
  let v540 : BitVec 32 := Scalar.addi v534 v533
  let v541 : BitVec 32 := Scalar.select v539 v540 v534
  ![v541.toNat]
def k0_off6 (d0 : Dev nD) (c1_i32_353 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v531 : BitVec 32 := Scalar.subi v2 c1_i32_353
  let c16_i32_354 : BitVec 32 := 16#32
  let c0_i32_355 : BitVec 32 := 0#32
  let v532 : BitVec 1 := Scalar.cmpi .eq c16_i32_354 c0_i32_355
  let c1_i32_356 : BitVec 32 := 1#32
  let v533 : BitVec 32 := Scalar.select v532 c1_i32_356 c16_i32_354
  let v534 : BitVec 32 := Scalar.remsi v531 v533
  let c0_i32_358 : BitVec 32 := 0#32
  let v536 : BitVec 1 := Scalar.cmpi .slt v534 c0_i32_358
  let c0_i32_359 : BitVec 32 := 0#32
  let v537 : BitVec 1 := Scalar.cmpi .slt v533 c0_i32_359
  let v538 : BitVec 1 := Scalar.xori v536 v537
  let c0_i32_357 : BitVec 32 := 0#32
  let v535 : BitVec 1 := Scalar.cmpi .ne v534 c0_i32_357
  let v539 : BitVec 1 := Scalar.andi v538 v535
  let v540 : BitVec 32 := Scalar.addi v534 v533
  let v541 : BitVec 32 := Scalar.select v539 v540 v534
  let c0_i32_363 : BitVec 32 := 0#32
  let c0_i32_364 : BitVec 32 := 0#32
  ![v541.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  h_S1x1x1024 : 0 < S1x1x1024.numel
  shapeCasts_S1x1x1024_S1024 : S1x1x1024.ShapeCasts S1024
  shapeCasts_S1024_S1x1x1024 : S1024.ShapeCasts S1x1x1024
  hamt_15 : (15#32 : BitVec 32).msb = false
  inb_S16_S1_1 : ∀ a, (![1] : Fin 1 → Nat) a + S1.size a ≤ S16.size a
  squeezes_S1_S_ : S1.Squeezes S_
  squeezes_S1x2x1024_S2x1024 : S1x2x1024.Squeezes S2x1024
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x2x1024_S16x2x1024_0_0_0 : ∀ a, (![0, 0, 0] : Fin 3 → Nat) a + S16x2x1024.size a ≤ S16x2x1024.size a
  h_S16x2x1024 : 0 < S16x2x1024.numel
  slices_S16x2x1024_o0_0_0_S16x1x1024 : S16x2x1024.Slices ![0, 0, 0] S16x1x1024
  shapeCasts_S16x1x1024_S16x1024 : S16x1x1024.ShapeCasts S16x1024
  slices_S16x2x1024_o0_1_0_S16x1x1024 : S16x2x1024.Slices ![0, 1, 0] S16x1x1024
  reduces_S16x1024_S1024 : S16x1024.Reduces [0] S1024
  shapeCasts_S1024_S1x1024 : S1024.ShapeCasts S1x1024
  broadcasts_S1x1024_S16x1024 : S1x1024.Broadcasts S16x1024
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x1x1024.size a ≤ S16x2x1024.size a
  k0_off2_inb : ∀ d0 : Dev nD, ∀ a, (k0_off2 d0) a + S1x1x1024.size a ≤ S16x2x1024.size a
  k0_off3_inb : ∀ d0 : Dev nD, ∀ a, (k0_off3 d0) a + S1.size a ≤ S16.size a
  k0_off4_inb : ∀ d0 : Dev nD, ∀ a, (k0_off4 d0) a + S1x2x1024.size a ≤ S16x2x1024.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off5_inb : ∀ d0 : Dev nD, ∀ (r : Fin 15), ∀ a, (k0_off5 d0 (BitVec.ofNat 32 (1 + r.val))) a + S1.size a ≤ S16.size a
  k0_off6_inb : ∀ d0 : Dev nD, ∀ (r : Fin 15), ∀ a, (k0_off6 d0 (BitVec.ofNat 32 (1 + r.val))) a + S1x2x1024.size a ≤ S16x2x1024.size a
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x8192, .f32⟩
  | .hbm, ⟨11, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x8192_S1024_d1 : S1024x8192.ReducesTo [1] S1024
  h_S_ : 0 < S_.numel
  bcast_S1024_S1024x1_0 : S1024.BroadcastsInDim S1024x1 (![0] : Fin 1 → Fin S1024x1.rank)
  bcast_S1024x1_S1024x8192_0_1 : S1024x1.BroadcastsInDim S1024x8192 (![0, 1] : Fin 2 → Fin S1024x8192.rank)

variable [Facts₀]

class Facts : Prop extends Facts₀ where

variable [Facts]
-- ==== Proof.KernelMesh.lean ====
/-
  The ring of sixteen devices: the device `k` places after `c`, and the closed forms of the
  kernel's device-id chains, of its row offsets into the gather buffer and of the semaphores it
  slices out of its two semaphore arrays.  The fifteen signals and the fifteen transfers of
  device `c` go to `shift c 1 … shift c 15`; the fifteen receive waits read rows
  `shift c 15 … shift c 1` (row `(c - k) mod 16` at step `k`).
-/
import proofs.«901056_g7700000000001057_dist_softmax_colshard_i_m1024_n512_v7x_i16_f32_1_alg».proof.Proof.Gen.Kernel
import Idealize.ShloMosaic.Lib.Decide

set_option synthInstance.maxSize 4096
set_option Elab.async false

namespace Cert.KernelProof

open Idealize.ShloMosaic Cert.Kernel Cert.Kernel.Gen

/-- The device `k` places after `c` around the ring. -/
def shift (c : Dev nD) (k : ℕ) : Dev nD := ⟨(c.val + k) % 16, Nat.mod_lt _ (by decide)⟩

theorem shift_val (c : Dev nD) (k : ℕ) : (shift c k).val = (c.val + k) % 16 := rfl

theorem shift_shift_back (c : Dev nD) (k : ℕ) (hk : k ≤ 16) : shift (shift c k) (16 - k) = c := by
  apply Fin.ext; show ((c.val + k) % 16 + (16 - k)) % 16 = c.val
  have := c.isLt; change c.val < 16 at this; omega

theorem shift_ne (c : Dev nD) (k : ℕ) (h1 : 1 ≤ k) (h2 : k ≤ 15) : shift c k ≠ c := by
  intro h; have := congrArg Fin.val h; rw [shift_val] at this
  have hc := c.isLt; change c.val < 16 at hc; omega

theorem shift_inj (c : Dev nD) {k k' : ℕ} (hk : k < 16) (hk' : k' < 16) (h : shift c k = shift c k') : k = k' := by
  have := congrArg Fin.val h; rw [shift_val, shift_val] at this
  have hc := c.isLt; change c.val < 16 at hc; omega

/-- Every device other than `c` is `shift c k` for exactly one `k` in `1 … 15`. -/
theorem exists_shift (c p : Dev nD) (h : p ≠ c) : ∃ k, 1 ≤ k ∧ k ≤ 15 ∧ shift c k = p := by
  have hc := c.isLt; have hp := p.isLt; change c.val < 16 at hc; change p.val < 16 at hp
  refine ⟨(p.val + 16 - c.val) % 16, ?_, ?_, ?_⟩
  · have : p.val ≠ c.val := fun e => h (Fin.ext e); omega
  · omega
  · apply Fin.ext; rw [shift_val]; omega

/-! ## The device-id chains -/
theorem k0_dev1_val : ∀ c : Dev nD, k0_dev1 c = (c.val + 1) % 16 := by decide +kernel
theorem dev1_eq (c : Dev nD) : (⟨k0_dev1 c, k0_dev1_lt c⟩ : Dev nD) = shift c 1 := Fin.ext (k0_dev1_val c)
theorem k0_dev2_val : ∀ c : Dev nD, k0_dev2 c = (c.val + 2) % 16 := by decide +kernel
theorem dev2_eq (c : Dev nD) : (⟨k0_dev2 c, k0_dev2_lt c⟩ : Dev nD) = shift c 2 := Fin.ext (k0_dev2_val c)
theorem k0_dev3_val : ∀ c : Dev nD, k0_dev3 c = (c.val + 3) % 16 := by decide +kernel
theorem dev3_eq (c : Dev nD) : (⟨k0_dev3 c, k0_dev3_lt c⟩ : Dev nD) = shift c 3 := Fin.ext (k0_dev3_val c)
theorem k0_dev4_val : ∀ c : Dev nD, k0_dev4 c = (c.val + 4) % 16 := by decide +kernel
theorem dev4_eq (c : Dev nD) : (⟨k0_dev4 c, k0_dev4_lt c⟩ : Dev nD) = shift c 4 := Fin.ext (k0_dev4_val c)
theorem k0_dev5_val : ∀ c : Dev nD, k0_dev5 c = (c.val + 5) % 16 := by decide +kernel
theorem dev5_eq (c : Dev nD) : (⟨k0_dev5 c, k0_dev5_lt c⟩ : Dev nD) = shift c 5 := Fin.ext (k0_dev5_val c)
theorem k0_dev6_val : ∀ c : Dev nD, k0_dev6 c = (c.val + 6) % 16 := by decide +kernel
theorem dev6_eq (c : Dev nD) : (⟨k0_dev6 c, k0_dev6_lt c⟩ : Dev nD) = shift c 6 := Fin.ext (k0_dev6_val c)
theorem k0_dev7_val : ∀ c : Dev nD, k0_dev7 c = (c.val + 7) % 16 := by decide +kernel
theorem dev7_eq (c : Dev nD) : (⟨k0_dev7 c, k0_dev7_lt c⟩ : Dev nD) = shift c 7 := Fin.ext (k0_dev7_val c)
theorem k0_dev8_val : ∀ c : Dev nD, k0_dev8 c = (c.val + 8) % 16 := by decide +kernel
theorem dev8_eq (c : Dev nD) : (⟨k0_dev8 c, k0_dev8_lt c⟩ : Dev nD) = shift c 8 := Fin.ext (k0_dev8_val c)
theorem k0_dev9_val : ∀ c : Dev nD, k0_dev9 c = (c.val + 9) % 16 := by decide +kernel
theorem dev9_eq (c : Dev nD) : (⟨k0_dev9 c, k0_dev9_lt c⟩ : Dev nD) = shift c 9 := Fin.ext (k0_dev9_val c)
theorem k0_dev10_val : ∀ c : Dev nD, k0_dev10 c = (c.val + 10) % 16 := by decide +kernel
theorem dev10_eq (c : Dev nD) : (⟨k0_dev10 c, k0_dev10_lt c⟩ : Dev nD) = shift c 10 := Fin.ext (k0_dev10_val c)
theorem k0_dev11_val : ∀ c : Dev nD, k0_dev11 c = (c.val + 11) % 16 := by decide +kernel
theorem dev11_eq (c : Dev nD) : (⟨k0_dev11 c, k0_dev11_lt c⟩ : Dev nD) = shift c 11 := Fin.ext (k0_dev11_val c)
theorem k0_dev12_val : ∀ c : Dev nD, k0_dev12 c = (c.val + 12) % 16 := by decide +kernel
theorem dev12_eq (c : Dev nD) : (⟨k0_dev12 c, k0_dev12_lt c⟩ : Dev nD) = shift c 12 := Fin.ext (k0_dev12_val c)
theorem k0_dev13_val : ∀ c : Dev nD, k0_dev13 c = (c.val + 13) % 16 := by decide +kernel
theorem dev13_eq (c : Dev nD) : (⟨k0_dev13 c, k0_dev13_lt c⟩ : Dev nD) = shift c 13 := Fin.ext (k0_dev13_val c)
theorem k0_dev14_val : ∀ c : Dev nD, k0_dev14 c = (c.val + 14) % 16 := by decide +kernel
theorem dev14_eq (c : Dev nD) : (⟨k0_dev14 c, k0_dev14_lt c⟩ : Dev nD) = shift c 14 := Fin.ext (k0_dev14_val c)
theorem k0_dev15_val : ∀ c : Dev nD, k0_dev15 c = (c.val + 15) % 16 := by decide +kernel
theorem dev15_eq (c : Dev nD) : (⟨k0_dev15 c, k0_dev15_lt c⟩ : Dev nD) = shift c 15 := Fin.ext (k0_dev15_val c)
theorem k0_dev16_val : ∀ c : Dev nD, k0_dev16 c = (c.val + 1) % 16 := by decide +kernel
theorem dev16_eq (c : Dev nD) : (⟨k0_dev16 c, k0_dev16_lt c⟩ : Dev nD) = shift c 1 := Fin.ext (k0_dev16_val c)
theorem k0_dev17_val : ∀ c : Dev nD, k0_dev17 c = (c.val + 2) % 16 := by decide +kernel
theorem dev17_eq (c : Dev nD) : (⟨k0_dev17 c, k0_dev17_lt c⟩ : Dev nD) = shift c 2 := Fin.ext (k0_dev17_val c)
theorem k0_dev18_val : ∀ c : Dev nD, k0_dev18 c = (c.val + 3) % 16 := by decide +kernel
theorem dev18_eq (c : Dev nD) : (⟨k0_dev18 c, k0_dev18_lt c⟩ : Dev nD) = shift c 3 := Fin.ext (k0_dev18_val c)
theorem k0_dev19_val : ∀ c : Dev nD, k0_dev19 c = (c.val + 4) % 16 := by decide +kernel
theorem dev19_eq (c : Dev nD) : (⟨k0_dev19 c, k0_dev19_lt c⟩ : Dev nD) = shift c 4 := Fin.ext (k0_dev19_val c)
theorem k0_dev20_val : ∀ c : Dev nD, k0_dev20 c = (c.val + 5) % 16 := by decide +kernel
theorem dev20_eq (c : Dev nD) : (⟨k0_dev20 c, k0_dev20_lt c⟩ : Dev nD) = shift c 5 := Fin.ext (k0_dev20_val c)
theorem k0_dev21_val : ∀ c : Dev nD, k0_dev21 c = (c.val + 6) % 16 := by decide +kernel
theorem dev21_eq (c : Dev nD) : (⟨k0_dev21 c, k0_dev21_lt c⟩ : Dev nD) = shift c 6 := Fin.ext (k0_dev21_val c)
theorem k0_dev22_val : ∀ c : Dev nD, k0_dev22 c = (c.val + 7) % 16 := by decide +kernel
theorem dev22_eq (c : Dev nD) : (⟨k0_dev22 c, k0_dev22_lt c⟩ : Dev nD) = shift c 7 := Fin.ext (k0_dev22_val c)
theorem k0_dev23_val : ∀ c : Dev nD, k0_dev23 c = (c.val + 8) % 16 := by decide +kernel
theorem dev23_eq (c : Dev nD) : (⟨k0_dev23 c, k0_dev23_lt c⟩ : Dev nD) = shift c 8 := Fin.ext (k0_dev23_val c)
theorem k0_dev24_val : ∀ c : Dev nD, k0_dev24 c = (c.val + 9) % 16 := by decide +kernel
theorem dev24_eq (c : Dev nD) : (⟨k0_dev24 c, k0_dev24_lt c⟩ : Dev nD) = shift c 9 := Fin.ext (k0_dev24_val c)
theorem k0_dev25_val : ∀ c : Dev nD, k0_dev25 c = (c.val + 10) % 16 := by decide +kernel
theorem dev25_eq (c : Dev nD) : (⟨k0_dev25 c, k0_dev25_lt c⟩ : Dev nD) = shift c 10 := Fin.ext (k0_dev25_val c)
theorem k0_dev26_val : ∀ c : Dev nD, k0_dev26 c = (c.val + 11) % 16 := by decide +kernel
theorem dev26_eq (c : Dev nD) : (⟨k0_dev26 c, k0_dev26_lt c⟩ : Dev nD) = shift c 11 := Fin.ext (k0_dev26_val c)
theorem k0_dev27_val : ∀ c : Dev nD, k0_dev27 c = (c.val + 12) % 16 := by decide +kernel
theorem dev27_eq (c : Dev nD) : (⟨k0_dev27 c, k0_dev27_lt c⟩ : Dev nD) = shift c 12 := Fin.ext (k0_dev27_val c)
theorem k0_dev28_val : ∀ c : Dev nD, k0_dev28 c = (c.val + 13) % 16 := by decide +kernel
theorem dev28_eq (c : Dev nD) : (⟨k0_dev28 c, k0_dev28_lt c⟩ : Dev nD) = shift c 13 := Fin.ext (k0_dev28_val c)
theorem k0_dev29_val : ∀ c : Dev nD, k0_dev29 c = (c.val + 14) % 16 := by decide +kernel
theorem dev29_eq (c : Dev nD) : (⟨k0_dev29 c, k0_dev29_lt c⟩ : Dev nD) = shift c 14 := Fin.ext (k0_dev29_val c)
theorem k0_dev30_val : ∀ c : Dev nD, k0_dev30 c = (c.val + 15) % 16 := by decide +kernel
theorem dev30_eq (c : Dev nD) : (⟨k0_dev30 c, k0_dev30_lt c⟩ : Dev nD) = shift c 15 := Fin.ext (k0_dev30_val c)

/-! ## The semaphores

  The send semaphores are DMA semaphores `2 … 17` of the core (index `k` for the transfer to
  `shift c k`), the receive semaphores `18 … 33` (index `j` for the row device `j` sends). -/

def sendSem (k : ℕ) : DmaSem sig := ⟨2 + k % 16, by have := Nat.mod_lt k (show 0 < 16 by decide); show 2 + k % 16 < 34; omega⟩
def recvSem (j : ℕ) : DmaSem sig := ⟨18 + j % 16, by have := Nat.mod_lt j (show 0 < 16 by decide); show 18 + j % 16 < 34; omega⟩

theorem sendSem_val (k : ℕ) : (sendSem k).val = 2 + k % 16 := rfl
theorem recvSem_val (j : ℕ) : (recvSem j).val = 18 + j % 16 := rfl

theorem sendSem_at1 : ((cc0_scratch1.slice (Rect.unit (s := S16) ![1] S1.size inb_S16_S1_1)).squeeze S_ squeezes_S1_S_).sem = sendSem 1 := by decide +kernel
theorem sendSem_at2 : ((cc0_scratch1.slice (Rect.unit (s := S16) ![2] S1.size inb_S16_S1_2)).squeeze S_ squeezes_S1_S_).sem = sendSem 2 := by decide +kernel
theorem sendSem_at3 : ((cc0_scratch1.slice (Rect.unit (s := S16) ![3] S1.size inb_S16_S1_3)).squeeze S_ squeezes_S1_S_).sem = sendSem 3 := by decide +kernel
theorem sendSem_at4 : ((cc0_scratch1.slice (Rect.unit (s := S16) ![4] S1.size inb_S16_S1_4)).squeeze S_ squeezes_S1_S_).sem = sendSem 4 := by decide +kernel
theorem sendSem_at5 : ((cc0_scratch1.slice (Rect.unit (s := S16) ![5] S1.size inb_S16_S1_5)).squeeze S_ squeezes_S1_S_).sem = sendSem 5 := by decide +kernel
theorem sendSem_at6 : ((cc0_scratch1.slice (Rect.unit (s := S16) ![6] S1.size inb_S16_S1_6)).squeeze S_ squeezes_S1_S_).sem = sendSem 6 := by decide +kernel
theorem sendSem_at7 : ((cc0_scratch1.slice (Rect.unit (s := S16) ![7] S1.size inb_S16_S1_7)).squeeze S_ squeezes_S1_S_).sem = sendSem 7 := by decide +kernel
theorem sendSem_at8 : ((cc0_scratch1.slice (Rect.unit (s := S16) ![8] S1.size inb_S16_S1_8)).squeeze S_ squeezes_S1_S_).sem = sendSem 8 := by decide +kernel
theorem sendSem_at9 : ((cc0_scratch1.slice (Rect.unit (s := S16) ![9] S1.size inb_S16_S1_9)).squeeze S_ squeezes_S1_S_).sem = sendSem 9 := by decide +kernel
theorem sendSem_at10 : ((cc0_scratch1.slice (Rect.unit (s := S16) ![10] S1.size inb_S16_S1_10)).squeeze S_ squeezes_S1_S_).sem = sendSem 10 := by decide +kernel
theorem sendSem_at11 : ((cc0_scratch1.slice (Rect.unit (s := S16) ![11] S1.size inb_S16_S1_11)).squeeze S_ squeezes_S1_S_).sem = sendSem 11 := by decide +kernel
theorem sendSem_at12 : ((cc0_scratch1.slice (Rect.unit (s := S16) ![12] S1.size inb_S16_S1_12)).squeeze S_ squeezes_S1_S_).sem = sendSem 12 := by decide +kernel
theorem sendSem_at13 : ((cc0_scratch1.slice (Rect.unit (s := S16) ![13] S1.size inb_S16_S1_13)).squeeze S_ squeezes_S1_S_).sem = sendSem 13 := by decide +kernel
theorem sendSem_at14 : ((cc0_scratch1.slice (Rect.unit (s := S16) ![14] S1.size inb_S16_S1_14)).squeeze S_ squeezes_S1_S_).sem = sendSem 14 := by decide +kernel
theorem sendSem_at15 : ((cc0_scratch1.slice (Rect.unit (s := S16) ![15] S1.size inb_S16_S1_15)).squeeze S_ squeezes_S1_S_).sem = sendSem 15 := by decide +kernel

/-- The receive semaphore a device names in its own transfers: the one at its own position. -/
theorem recvSem_own : ∀ c : Dev nD, ((cc0_scratch2.slice (Rect.unit (s := S16) (k0_off3 c) S1.size (k0_off3_inb c))).squeeze S_ squeezes_S1_S_).sem = recvSem c.val := by decide +kernel

theorem recvSem_from1 : ∀ c : Dev nD, ((cc0_scratch2.slice (Rect.unit (s := S16) (k0_off5 c 1#32) S1.size (k0_off5_inb c 0))).squeeze S_ squeezes_S1_S_).sem = recvSem (shift c 15).val := by decide +kernel
theorem recvSem_from2 : ∀ c : Dev nD, ((cc0_scratch2.slice (Rect.unit (s := S16) (k0_off5 c 2#32) S1.size (k0_off5_inb c 1))).squeeze S_ squeezes_S1_S_).sem = recvSem (shift c 14).val := by decide +kernel
theorem recvSem_from3 : ∀ c : Dev nD, ((cc0_scratch2.slice (Rect.unit (s := S16) (k0_off5 c 3#32) S1.size (k0_off5_inb c 2))).squeeze S_ squeezes_S1_S_).sem = recvSem (shift c 13).val := by decide +kernel
theorem recvSem_from4 : ∀ c : Dev nD, ((cc0_scratch2.slice (Rect.unit (s := S16) (k0_off5 c 4#32) S1.size (k0_off5_inb c 3))).squeeze S_ squeezes_S1_S_).sem = recvSem (shift c 12).val := by decide +kernel
theorem recvSem_from5 : ∀ c : Dev nD, ((cc0_scratch2.slice (Rect.unit (s := S16) (k0_off5 c 5#32) S1.size (k0_off5_inb c 4))).squeeze S_ squeezes_S1_S_).sem = recvSem (shift c 11).val := by decide +kernel
theorem recvSem_from6 : ∀ c : Dev nD, ((cc0_scratch2.slice (Rect.unit (s := S16) (k0_off5 c 6#32) S1.size (k0_off5_inb c 5))).squeeze S_ squeezes_S1_S_).sem = recvSem (shift c 10).val := by decide +kernel
theorem recvSem_from7 : ∀ c : Dev nD, ((cc0_scratch2.slice (Rect.unit (s := S16) (k0_off5 c 7#32) S1.size (k0_off5_inb c 6))).squeeze S_ squeezes_S1_S_).sem = recvSem (shift c 9).val := by decide +kernel
theorem recvSem_from8 : ∀ c : Dev nD, ((cc0_scratch2.slice (Rect.unit (s := S16) (k0_off5 c 8#32) S1.size (k0_off5_inb c 7))).squeeze S_ squeezes_S1_S_).sem = recvSem (shift c 8).val := by decide +kernel
theorem recvSem_from9 : ∀ c : Dev nD, ((cc0_scratch2.slice (Rect.unit (s := S16) (k0_off5 c 9#32) S1.size (k0_off5_inb c 8))).squeeze S_ squeezes_S1_S_).sem = recvSem (shift c 7).val := by decide +kernel
theorem recvSem_from10 : ∀ c : Dev nD, ((cc0_scratch2.slice (Rect.unit (s := S16) (k0_off5 c 10#32) S1.size (k0_off5_inb c 9))).squeeze S_ squeezes_S1_S_).sem = recvSem (shift c 6).val := by decide +kernel
theorem recvSem_from11 : ∀ c : Dev nD, ((cc0_scratch2.slice (Rect.unit (s := S16) (k0_off5 c 11#32) S1.size (k0_off5_inb c 10))).squeeze S_ squeezes_S1_S_).sem = recvSem (shift c 5).val := by decide +kernel
theorem recvSem_from12 : ∀ c : Dev nD, ((cc0_scratch2.slice (Rect.unit (s := S16) (k0_off5 c 12#32) S1.size (k0_off5_inb c 11))).squeeze S_ squeezes_S1_S_).sem = recvSem (shift c 4).val := by decide +kernel
theorem recvSem_from13 : ∀ c : Dev nD, ((cc0_scratch2.slice (Rect.unit (s := S16) (k0_off5 c 13#32) S1.size (k0_off5_inb c 12))).squeeze S_ squeezes_S1_S_).sem = recvSem (shift c 3).val := by decide +kernel
theorem recvSem_from14 : ∀ c : Dev nD, ((cc0_scratch2.slice (Rect.unit (s := S16) (k0_off5 c 14#32) S1.size (k0_off5_inb c 13))).squeeze S_ squeezes_S1_S_).sem = recvSem (shift c 2).val := by decide +kernel
theorem recvSem_from15 : ∀ c : Dev nD, ((cc0_scratch2.slice (Rect.unit (s := S16) (k0_off5 c 15#32) S1.size (k0_off5_inb c 14))).squeeze S_ squeezes_S1_S_).sem = recvSem (shift c 1).val := by decide +kernel

/-! ## The rows of the gather buffer -/

theorem off6_at1 : ∀ c : Dev nD, k0_off6 c 1#32 = ![(shift c 15).val, 0, 0] := by decide +kernel
theorem off6_at2 : ∀ c : Dev nD, k0_off6 c 2#32 = ![(shift c 14).val, 0, 0] := by decide +kernel
theorem off6_at3 : ∀ c : Dev nD, k0_off6 c 3#32 = ![(shift c 13).val, 0, 0] := by decide +kernel
theorem off6_at4 : ∀ c : Dev nD, k0_off6 c 4#32 = ![(shift c 12).val, 0, 0] := by decide +kernel
theorem off6_at5 : ∀ c : Dev nD, k0_off6 c 5#32 = ![(shift c 11).val, 0, 0] := by decide +kernel
theorem off6_at6 : ∀ c : Dev nD, k0_off6 c 6#32 = ![(shift c 10).val, 0, 0] := by decide +kernel
theorem off6_at7 : ∀ c : Dev nD, k0_off6 c 7#32 = ![(shift c 9).val, 0, 0] := by decide +kernel
theorem off6_at8 : ∀ c : Dev nD, k0_off6 c 8#32 = ![(shift c 8).val, 0, 0] := by decide +kernel
theorem off6_at9 : ∀ c : Dev nD, k0_off6 c 9#32 = ![(shift c 7).val, 0, 0] := by decide +kernel
theorem off6_at10 : ∀ c : Dev nD, k0_off6 c 10#32 = ![(shift c 6).val, 0, 0] := by decide +kernel
theorem off6_at11 : ∀ c : Dev nD, k0_off6 c 11#32 = ![(shift c 5).val, 0, 0] := by decide +kernel
theorem off6_at12 : ∀ c : Dev nD, k0_off6 c 12#32 = ![(shift c 4).val, 0, 0] := by decide +kernel
theorem off6_at13 : ∀ c : Dev nD, k0_off6 c 13#32 = ![(shift c 3).val, 0, 0] := by decide +kernel
theorem off6_at14 : ∀ c : Dev nD, k0_off6 c 14#32 = ![(shift c 2).val, 0, 0] := by decide +kernel
theorem off6_at15 : ∀ c : Dev nD, k0_off6 c 15#32 = ![(shift c 1).val, 0, 0] := by decide +kernel

end Cert.KernelProof
-- ==== Proof.KernelSpec.lean ====
/-
  The values the kernel computes, as pure functions of the devices' blocks of the input.

  Device `j` holds a block `x j` of 1024 rows by 512 columns.  Its two rows of statistics are
  the row maxima `m_j` of its block and the row sums `s_j` of `exp (x j - m_j)`.  Once every
  device's pair of rows has reached every other device, the gather buffer holds the same
  contents `gath x` on all of them: row `j` is `(m_j, s_j)`.  From it each device forms the
  global maximum `M = max_j m_j`, the global sum `S = Σ_j s_j · exp (m_j - M)`, and rescales its
  own exponentials by `exp (m_c - M) / S`.
-/
import proofs.«901056_g7700000000001057_dist_softmax_colshard_i_m1024_n512_v7x_i16_f32_1_alg».proof.Proof.Gen.Kernel.Skeleton
import Idealize.ShloMosaic.Lib.ValueIdx

noncomputable section

namespace Cert.KernelProof

open Idealize.ShloMosaic Idealize.ShloMosaic.ValueIdx Cert.Kernel Cert.Kernel.Gen

variable {F : FTy → Type} [FloatOps F]

/-- The gather buffer with every row in place: entry `(j, 0, r)` is the maximum of row `r` of device
    `j`'s block, entry `(j, 1, r)` the sum over that row of the exponentials shifted by that maximum. -/
def gath (x : Dev nD → Vec F S1024x512 .f32) : Vec F S16x2x1024 .f32 := fun i =>
  if (i 1).val = 0 then k0_pay4 (x ⟨(i 0).val, (i 0).isLt⟩) (ix3 (0 : Fin 1) (0 : Fin 1) (⟨(i 2).val, (i 2).isLt⟩ : Fin 1024))
  else k0_pay5 (x ⟨(i 0).val, (i 0).isLt⟩) (ix3 (0 : Fin 1) (0 : Fin 1) (⟨(i 2).val, (i 2).isLt⟩ : Fin 1024))

/-- What device `c` leaves in its block of the result: its shifted exponentials, rescaled by the
    statistics of all sixteen devices. -/
def outAt (x : Dev nD → Vec F S1024x512 .f32) (c : Dev nD) : FVec F S1024x512 .f32 :=
  k0_pay6 (k0_pay2 (x c)) (gath x) (k0_pay3 (x c))

end Cert.KernelProof

end
-- ==== Proof.KernelSched.lean ====
/-
  The cross-device protocol of the sixteen-device softmax, under the rounds discipline.

  Cells of device `c`: its barrier cell, fifteen send cells (index `k`, the transfer to `shift c k`)
  and fifteen receive cells (index `j ≠ c`, the row device `j` sends); one round each.
  * The barrier cell has fifteen duties of one unit, named `1 … 15`: duty `k` is paid by device
    `shift c k` and hands `c` that device's row `c` of the gather buffer (where `c`'s transfer to it
    will land) together with the fact that its receive cell for `c` is at round 0.
  * A send cell has one duty: the transfer's source share of row `c`, back at the contents `gbuf`.
  * A receive cell has one duty: row `j` of the gather buffer, holding device `j`'s statistics.
  Every row of the gather buffer ends at the same contents `gbuf` on every device.
-/
import proofs.«901056_g7700000000001057_dist_softmax_colshard_i_m1024_n512_v7x_i16_f32_1_alg».proof.Proof.KernelMesh
import proofs.«901056_g7700000000001057_dist_softmax_colshard_i_m1024_n512_v7x_i16_f32_1_alg».proof.Proof.KernelSpec
import proofs.«901056_g7700000000001057_dist_softmax_colshard_i_m1024_n512_v7x_i16_f32_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by numbers) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the input, as the region finds it staged. -/
def xblk (c : Dev nD) : Vec F S1024x512 .f32 :=
  (win0_0.blk (0 : Fin 1)).view.read (Elt F) (m ((c : Thread nD τ).loc main_arg0))

/-- The gather buffer with every row landed: the same on every device. -/
def gbuf : Vec F S16x2x1024 .f32 := gath (xblk m)

/-! ## The rows of the gather buffer -/

abbrev gM : Memref sig .tc .vmem S16x2x1024 .f32 := Memref.whole cc0_scratch0

def rowOff (j : Dev nD) : Fin 3 → ℕ := ![j.val, 0, 0]
theorem rowOff_inb : ∀ (j : Dev nD) (a : Fin 3), rowOff j a + S1x2x1024.size a ≤ S16x2x1024.size a := by decide

/-- Row `j` (both statistics of device `j`), as the kernel slices it out of the buffer. -/
def row (j : Dev nD) : Memref sig .tc .vmem S2x1024 .f32 :=
  (gM.slice (Rect.unit (s := S16x2x1024) (rowOff j) S1x2x1024.size (rowOff_inb j)) (fun _ => rfl)).squeeze S2x1024 squeezes_S1x2x1024_S2x1024

/-- The gathered contents, typed as the contents of device `d`'s buffer seen through row `j`. -/
def gbufAt (d j : Dev nD) : Buf (Elt F) ((row j).view.loc (d : Thread nD τ)) := gbuf m

/-- Row `j` of device `d`'s gather buffer held at share `q` with contents `f`. -/
def rowPts (d j : Dev nD) (q : PosShare TreeShare) (f : Buf (Elt F) ((row j).view.loc (d : Thread nD τ))) : sProp 𝕄 :=
  (row j).view.loc (d : Thread nD τ) ↦[(row j).view.set]{q} f

/-- The credit of one row's transfer. -/
abbrev N : ℕ := (row (0 : Dev nD)).view.dmaCredit
theorem N_pos : 0 < N := View.dmaCredit_pos _ (by decide)
theorem row_credit (j : Dev nD) : (row j).view.dmaCredit = N := rfl

/-! ## Shares of a device's own row: the left half is kept, the right half lent out in fifteen pieces -/

def rest : ℕ → PosShare TreeShare
  | 0 => fullShare.right
  | n + 1 => (rest n).right

/-- The share the transfer with offset `k ≥ 1` reads its source at. -/
def lend (k : ℕ) : PosShare TreeShare := (rest (k - 1)).left

/-! ## The cells -/

abbrev barS : Sem sig := (SemArray.scalar (sig.barrier 0 rfl) : Sems sig S_).sem

abbrev barCell (c : Dev nD) : GSem nD τ sig := ((c : Thread nD τ), .reg barS)
abbrev sendCell (c : Dev nD) (k : ℕ) : GSem nD τ sig := ((c : Thread nD τ), .dma (sendSem k))
abbrev recvCell (c j : Dev nD) : GSem nD τ sig := ((c : Thread nD τ), .dma (recvSem j.val))

def devOf (n : ℕ) : Dev nD := ⟨n % 16, Nat.mod_lt _ (by decide)⟩
theorem devOf_val (j : Dev nD) : devOf j.val = j := Fin.ext (Nat.mod_eq_of_lt j.isLt)

/-! ## The payloads -/

/-- Duty `k` of `c`'s barrier cell: row `c` on device `shift c k`, at any contents, and that device's receive
    cell for `c` at round 0. -/
def barPay (c : Dev nD) (k : ℕ) : sProp 𝕄 :=
  iprop((∃ f, rowPts (F := F) (shift c k) c fullShare f) ∗ reached ER (recvCell (shift c k) c) 0)
/-- The send cell `k` of `c`: the lent share of its own row, at the gathered contents. -/
def sendPay (c : Dev nD) (k : ℕ) : sProp 𝕄 := rowPts c c (lend k) (gbufAt m c c)
/-- The receive cell `j` of `c`: row `j`, holding device `j`'s statistics. -/
def recvPay (c j : Dev nD) : sProp 𝕄 := rowPts c j fullShare (gbufAt m c j)

/-! ## The schedule: one round -/

def Rd : Rounds.Schedule (GSem nD τ sig) ℕ 𝕄 where
  duties g r :=
    if r = 0 ∧ g.1.2 = .tc then
      match g.2 with
      | .reg s => if s = barS then Finset.Ico 1 16 else ∅
      | .dma q => if 3 ≤ q.val ∧ q.val ≤ 17 then {0} else if 18 ≤ q.val ∧ q.val - 18 ≠ g.1.1.val then {0} else ∅
    else ∅
  unitless _ := False
  amount g _ _ := match g.2 with | .reg _ => 1 | .dma _ => N
  payload g _ d := match g.2 with
    | .reg _ => barPay g.1.1 d
    | .dma q => if q.val ≤ 17 then sendPay m g.1.1 (q.val - 2) else recvPay m g.1.1 (devOf (q.val - 18))
  amount_pos g _ _ _ := by
    cases g.2 with
    | reg _ => exact Nat.one_pos
    | dma _ => exact N_pos

instance Rd_payload_storable (g : GSem nD τ sig) (r : ℕ) (d : ℕ) :
    BI.Storable (upEmb : UEmb _ 𝕄) ((Rd (F := F) m).payload g r d) := by
  show BI.Storable upEmb (match g.2 with
    | .reg _ => barPay g.1.1 d
    | .dma q => if q.val ≤ 17 then sendPay m g.1.1 (q.val - 2) else recvPay m g.1.1 (devOf (q.val - 18)))
  unfold barPay sendPay recvPay rowPts
  (repeat' split) <;> infer_instance

section Sched
variable (c : Dev nD)

theorem duties_bar : (Rd (F := F) m).duties (barCell c) 0 = Finset.Ico 1 16 := by
  dsimp only [Rd]; rw [if_pos ⟨rfl, rfl⟩, if_pos rfl]

theorem duties_send (k : ℕ) (h1 : 1 ≤ k) (h2 : k ≤ 15) : (Rd (F := F) m).duties (sendCell c k) 0 = {0} := by
  dsimp only [Rd]; rw [if_pos ⟨rfl, rfl⟩]
  have hv : (sendSem k).val = 2 + k := by rw [sendSem_val, Nat.mod_eq_of_lt (by omega)]
  rw [if_pos ⟨by omega, by omega⟩]

theorem duties_recv (j : Dev nD) (h : j ≠ c) : (Rd (F := F) m).duties (recvCell c j) 0 = {0} := by
  dsimp only [Rd]; rw [if_pos ⟨rfl, rfl⟩]
  have hj := j.isLt; change j.val < 16 at hj
  have hv : (recvSem j.val).val = 18 + j.val := by rw [recvSem_val, Nat.mod_eq_of_lt hj]
  rw [if_neg (by omega), if_pos ⟨by omega, by rw [hv]; intro e; exact h (Fin.ext (by omega))⟩]

theorem duties_send_zero (r : ℕ) : (Rd (F := F) m).duties (sendCell c 0) r = ∅ := by
  dsimp only [Rd]; split
  · have hv : (sendSem 0).val = 2 := rfl
    rw [if_neg (by omega), if_neg (by omega)]
  · rfl

theorem duties_recv_own (r : ℕ) : (Rd (F := F) m).duties (recvCell c c) r = ∅ := by
  dsimp only [Rd]; split
  · have hc := c.isLt; change c.val < 16 at hc
    have hv : (recvSem c.val).val = 18 + c.val := by rw [recvSem_val, Nat.mod_eq_of_lt hc]
    rw [if_neg (by omega), if_neg (by rw [hv]; omega)]
  · rfl

theorem duties_later (g : GSem nD τ sig) : ∀ r, 1 ≤ r → (Rd (F := F) m).duties g r = ∅ :=
  fun r hr => by dsimp only [Rd]; rw [if_neg fun h => by omega]

theorem amount_bar (d : ℕ) : (Rd (F := F) m).amount (barCell c) 0 d = 1 := rfl
theorem amount_send (k d : ℕ) : (Rd (F := F) m).amount (sendCell c k) 0 d = N := rfl
theorem amount_recv (j : Dev nD) (d : ℕ) : (Rd (F := F) m).amount (recvCell c j) 0 d = N := rfl

theorem expect_bar : (Rd (F := F) m).expect (barCell c) 0 = 15 := by
  unfold Schedule.expect Schedule.amountOf
  rw [duties_bar, Finset.sum_congr rfl fun d _ => amount_bar m c d, Finset.sum_const, Nat.card_Ico, smul_eq_mul]
theorem expect_send (k : ℕ) (h1 : 1 ≤ k) (h2 : k ≤ 15) : (Rd (F := F) m).expect (sendCell c k) 0 = N := by
  unfold Schedule.expect Schedule.amountOf; rw [duties_send m c k h1 h2, Finset.sum_singleton, amount_send]
theorem expect_recv (j : Dev nD) (h : j ≠ c) : (Rd (F := F) m).expect (recvCell c j) 0 = N := by
  unfold Schedule.expect Schedule.amountOf; rw [duties_recv m c j h, Finset.sum_singleton, amount_recv]

theorem payload_bar (k : ℕ) : (Rd (F := F) m).payload (barCell c) 0 k = barPay c k := rfl
theorem payload_send (k : ℕ) (h1 : 1 ≤ k) (h2 : k ≤ 15) (d : ℕ) : (Rd (F := F) m).payload (sendCell c k) 0 d = sendPay m c k := by
  dsimp only [Rd]
  have hv : (sendSem k).val = 2 + k := by rw [sendSem_val, Nat.mod_eq_of_lt (by omega)]
  rw [if_pos (by omega), hv, Nat.add_sub_cancel_left]
theorem payload_recv (j : Dev nD) (d : ℕ) : (Rd (F := F) m).payload (recvCell c j) 0 d = recvPay m c j := by
  dsimp only [Rd]
  have hj := j.isLt; change j.val < 16 at hj
  have hv : (recvSem j.val).val = 18 + j.val := by rw [recvSem_val, Nat.mod_eq_of_lt hj]
  rw [if_neg (by omega), hv, Nat.add_sub_cancel_left, devOf_val]

/-- The whole of the barrier cell's round: every peer's row `c`. -/
theorem rest_bar : bigSep ((Rd (F := F) m).duties (barCell c) 0 \ ∅) (fun d => (Rd (F := F) m).payload (barCell c) 0 d)
    = bigSep (Finset.Ico 1 16) (fun k => barPay (F := F) c k) := by
  rw [Finset.sdiff_empty, duties_bar]; rfl
theorem rest_send (k : ℕ) (h1 : 1 ≤ k) (h2 : k ≤ 15) :
    bigSep ((Rd (F := F) m).duties (sendCell c k) 0 \ ∅) (fun d => (Rd (F := F) m).payload (sendCell c k) 0 d) = sendPay m c k := by
  rw [Finset.sdiff_empty, duties_send m c k h1 h2, bigSep_singleton, payload_send m c k h1 h2]
theorem rest_recv (j : Dev nD) (h : j ≠ c) :
    bigSep ((Rd (F := F) m).duties (recvCell c j) 0 \ ∅) (fun d => (Rd (F := F) m).payload (recvCell c j) 0 d) = recvPay m c j := by
  rw [Finset.sdiff_empty, duties_recv m c j h, bigSep_singleton, payload_recv]

end Sched

/-! ## What each device owes at launch; the levels -/

/-- The receive credits still owed when `n` transfers remain (the next one goes to `shift c (16 - n)`). -/
def OwR (c : Dev nD) : ℕ → CellTallies nD τ sig Unit
  | 0 => 0
  | n + 1 => OwR c n + tallyAt (recvCell (shift c (15 - n)) c) () N
/-- What is owed when `n` barrier signals remain: those, and all fifteen receive credits. -/
def OwS (c : Dev nD) : ℕ → CellTallies nD τ sig Unit
  | 0 => OwR c 15
  | n + 1 => OwS c n + tallyAt (barCell (shift c (15 - n))) () 1
def O₀ (c : Dev nD) : CellTallies nD τ sig Unit := OwS c 15

def L (g : GSem nD τ sig) : Finset Unit := if g.1.2 = .tc then {()} else ∅
/-- Barrier cells at level 1, receive cells at 2, everything else (staging, send) at 0. -/
def lv (g : GSem nD τ sig) (_ : Unit) : ℕ :=
  match g.2 with
  | .reg s => if s = barS then 1 else 0
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelProof

end
-- ==== Proof.KernelData.lean ====
/-
  What each device's body starts from and what it gives back: the names the cells' invariants
  were allocated at, the persistent records (every cell's invariant, and that round 0 of every cell
  is reached), the device's own positions and the tokens of the duties it pays, its launch credit,
  and the pipeline's proof data around them.

  The linear resources are indexed the way the body consumes them: offsets `k = 1 … 15` in program
  order.  Signal and transfer `k` go to `shift c k`; receive wait `k` is for the row of
  `shift c (16 - k)`; send wait `k` is on send cell `k`.
-/
import proofs.«901056_g7700000000001057_dist_softmax_colshard_i_m1024_n512_v7x_i16_f32_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The names of the cells' invariants: barrier cell of each device, send cell `k`, receive cell `j`. -/
structure Names where
  bar : Dev nD → ℕ
  send : Dev nD → ℕ → ℕ
  recv : Dev nD → Dev nD → ℕ

/-- Every cell's invariant at its name, and that round 0 of every cell is reached. -/
def records (K : Names) : sProp 𝕄 :=
  iprop((bigSep Finset.univ fun d : Dev nD => iprop(cellInv ER (Rd m) (K.bar d) (barCell d) ∗ reached ER (barCell d) 0))
    ∗ (bigSep Finset.univ fun d : Dev nD => bigSep (Finset.range 16) fun k =>
        iprop(cellInv ER (Rd m) (K.send d k) (sendCell d k) ∗ reached ER (sendCell d k) 0))
    ∗ (bigSep Finset.univ fun d : Dev nD => bigSep Finset.univ fun j : Dev nD =>
        iprop(cellInv ER (Rd m) (K.recv d j) (recvCell d j) ∗ reached ER (recvCell d j) 0)))

instance records_persistent (K : Names) : BI.Persistent (records m K) := by unfold records; infer_instance

theorem records_bar (K : Names) (d : Dev nD) :
    records m K ⊢ iprop(cellInv ER (Rd m) (K.bar d) (barCell d) ∗ reached ER (barCell d) 0) := by
  unfold records
  have h : (bigSep Finset.univ (fun d : Dev nD => iprop(cellInv ER (Rd m) (K.bar d) (barCell d) ∗ reached ER (barCell d) 0)) : sProp 𝕄)
      ⊢ iprop(cellInv ER (Rd m) (K.bar d) (barCell d) ∗ reached ER (barCell d) 0) := bigSep_elim (Finset.mem_univ d)
  iintro ⟨H, -, -⟩
  iapply h; iexact H

theorem records_send (K : Names) (d : Dev nD) (k : ℕ) (hk : k < 16) :
    records m K ⊢ iprop(cellInv ER (Rd m) (K.send d k) (sendCell d k) ∗ reached ER (sendCell d k) 0) := by
  unfold records
  have h1 : (bigSep (Finset.range 16) (fun k : ℕ => iprop(cellInv ER (Rd m) (K.send d k) (sendCell d k) ∗ reached ER (sendCell d k) 0)) : sProp 𝕄)
      ⊢ iprop(cellInv ER (Rd m) (K.send d k) (sendCell d k) ∗ reached ER (sendCell d k) 0) := bigSep_elim (Finset.mem_range.mpr hk)
  have h2 : (bigSep Finset.univ (fun d : Dev nD => bigSep (Finset.range 16) fun k : ℕ => iprop(cellInv ER (Rd m) (K.send d k) (sendCell d k) ∗ reached ER (sendCell d k) 0)) : sProp 𝕄)
      ⊢ bigSep (Finset.range 16) (fun k : ℕ => iprop(cellInv ER (Rd m) (K.send d k) (sendCell d k) ∗ reached ER (sendCell d k) 0)) := bigSep_elim (Finset.mem_univ d)
  iintro ⟨-, H, -⟩
  iapply h1; iapply h2; iexact H

theorem records_recv (K : Names) (d j : Dev nD) :
    records m K ⊢ iprop(cellInv ER (Rd m) (K.recv d j) (recvCell d j) ∗ reached ER (recvCell d j) 0) := by
  unfold records
  have h1 : (bigSep Finset.univ (fun j : Dev nD => iprop(cellInv ER (Rd m) (K.recv d j) (recvCell d j) ∗ reached ER (recvCell d j) 0)) : sProp 𝕄)
      ⊢ iprop(cellInv ER (Rd m) (K.recv d j) (recvCell d j) ∗ reached ER (recvCell d j) 0) := bigSep_elim (Finset.mem_univ j)
  have h2 : (bigSep Finset.univ (fun d : Dev nD => bigSep Finset.univ fun j : Dev nD => iprop(cellInv ER (Rd m) (K.recv d j) (recvCell d j) ∗ reached ER (recvCell d j) 0)) : sProp 𝕄)
      ⊢ bigSep Finset.univ (fun j : Dev nD => iprop(cellInv ER (Rd m) (K.recv d j) (recvCell d j) ∗ reached ER (recvCell d j) 0)) := bigSep_elim (Finset.mem_univ d)
  iintro ⟨-, -, H⟩
  iapply h1; iapply h2; iexact H

/-- Device `c`'s positions at round 0 of its cells (the two it never uses apart), and the tokens of the duties
    it pays: duty `16 - k` of `shift c k`'s barrier cell, the duty of `shift c k`'s receive cell for `c`, the duty
    of its own send cell `k`. -/
def linear (c : Dev nD) : sProp 𝕄 :=
  iprop(atPos ER (barCell c) 0 ∅ 0
    ∗ (bigSep (Finset.Ico 1 16) fun k => atPos ER (sendCell c k) 0 ∅ 0) ∗ atPos ER (sendCell c 0) 0 ∅ 0
    ∗ (bigSep (Finset.Ico 1 16) fun k => atPos ER (recvCell c (shift c (16 - k))) 0 ∅ 0) ∗ atPos ER (recvCell c c) 0 ∅ 0
    ∗ (bigSep (Finset.Ico 1 16) fun k => dutyTok ER (barCell (shift c k)) 0 (16 - k))
    ∗ (bigSep (Finset.Ico 1 16) fun k => dutyTok ER (recvCell (shift c k) c) 0 0)
    ∗ (bigSep (Finset.Ico 1 16) fun k => dutyTok ER (sendCell c k) 0 0))

def ghost (K : Names) (c : Dev nD) : sProp 𝕄 := iprop(records m K ∗ linear (F := F) c)

/-- What device `c`'s body starts from: the ghost state at some names, the credit tokens for what the others owe
    its barrier cell (fifteen units) and each of its receive cells (one row's credit), and the level facts. -/
def start (c : Dev nD) : sProp 𝕄 :=
  iprop((∃ K, ghost m K c) ∗ cred (tallyAt (barCell c) () 15)
    ∗ (bigSep (Finset.Ico 1 16) fun k => cred (tallyAt (recvCell c (shift c (16 - k))) () N))
    ∗ levAts L lv)

/-- Before the point: that, and the gather buffer whole at any contents. -/
def Φ₀ (c : Dev nD) : sProp 𝕄 :=
  iprop(start m c ∗ ∃ f : Buf (Elt F) ((c : Thread nD τ).loc cc0_scratch0), ((c : Thread nD τ).loc cc0_scratch0) ↦{fullShare} f)
/-- After the point: the gather buffer whole again, and the thirty-two own semaphores at zero, their cells closed. -/
def Φ₁ (c : Dev nD) : sProp 𝕄 :=
  iprop((∃ f : Buf (Elt F) ((c : Thread nD τ).loc cc0_scratch0), ((c : Thread nD τ).loc cc0_scratch0) ↦{fullShare} f)
    ∗ (bigSep (Finset.range 16) fun k => semVal (sendCell c k) 0)
    ∗ (bigSep Finset.univ fun j : Dev nD => semVal (recvCell c j) 0))

/-- The pipeline's proof data: the input block stays, the result block ends at `outAt`. -/
def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt (xblk m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelProof

end
-- ==== Proof.KernelRows.lean ====
/-
  Plumbing for the gather buffer, part 1: reindexing a separating conjunction over the sixteen
  devices by offsets around the ring from a device `c` (forwards `shift c k`, backwards
  `shift c (16 - k)`, `k = 1 … 15`), peeling such a conjunction at either end, and the shares of
  one row: the full share is its left half and its right half; the right half is cut again and
  again, the transfer with offset `k` reading its source at the left part `lend k` of what was
  left, `rest (k - 1)`; all fifteen lent parts and what remains make up the right half again.
-/
import proofs.«901056_g7700000000001057_dist_softmax_colshard_i_m1024_n512_v7x_i16_f32_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reindexing a separating conjunction over the devices by offsets around the ring -/

/-- All devices: `c` itself, and the fifteen devices `1 … 15` places after it. -/
theorem bigSep_dev_shift (c : Dev nD) (Φ : Dev nD → sProp 𝕄) :
    bigSep Finset.univ Φ = iprop(Φ c ∗ bigSep (Finset.Ico 1 16) (fun k => Φ (shift c k))) := by
  classical
  rw [bigSep_univ_split c]
  have h : (Finset.univ.erase c : Finset (Dev nD)) = (Finset.Ico 1 16).image (shift c) := by
    ext p
    simp only [Finset.mem_erase, Finset.mem_univ, and_true, Finset.mem_image, Finset.mem_Ico]
    constructor
    · intro hp
      obtain ⟨k, h1, h2, e⟩ := exists_shift c p hp
      exact ⟨k, ⟨h1, by omega⟩, e⟩
    · rintro ⟨k, ⟨h1, h2⟩, rfl⟩
      exact shift_ne c k h1 (by omega)
  rw [h]
  have e : bigSep ((Finset.Ico 1 16).image (shift c)) Φ = bigSep (Finset.Ico 1 16) (fun k => Φ (shift c k)) :=
    Finset.fold_image fun x hx y hy e =>
      shift_inj c (Finset.mem_Ico.mp hx).2 (Finset.mem_Ico.mp hy).2 e
  rw [e]; rfl

/-- The offsets `1 … 15` read backwards: `k ↦ 16 - k` permutes them. -/
theorem bigSep_Ico_flip (Ψ : ℕ → sProp 𝕄) :
    bigSep (Finset.Ico 1 16) Ψ = bigSep (Finset.Ico 1 16) (fun k => Ψ (16 - k)) := by
  have h : (Finset.Ico 1 16).image (fun k => 16 - k) = Finset.Ico 1 16 := by
    ext p
    simp only [Finset.mem_image, Finset.mem_Ico]
    constructor
    · rintro ⟨k, ⟨h1, h2⟩, rfl⟩; omega
    · intro hp; exact ⟨16 - p, by omega, by omega⟩
  have e : bigSep ((Finset.Ico 1 16).image (fun k => 16 - k)) Ψ = bigSep (Finset.Ico 1 16) (fun k => Ψ (16 - k)) :=
    Finset.fold_image fun x hx y hy e => by
      have := (Finset.mem_Ico.mp hx).2; have := (Finset.mem_Ico.mp hy).2
      have e' : 16 - x = 16 - y := e
      omega
  rw [← e, h]

theorem bigSep_dev_back (c : Dev nD) (Φ : Dev nD → sProp 𝕄) :
    bigSep Finset.univ Φ = iprop(Φ c ∗ bigSep (Finset.Ico 1 16) (fun k => Φ (shift c (16 - k)))) := by
  rw [bigSep_dev_shift c Φ, bigSep_Ico_flip (fun k => Φ (shift c k))]

theorem bigSep_Ico_peel (a : ℕ) (h : a < 16) (Ψ : ℕ → sProp 𝕄) :
    bigSep (Finset.Ico a 16) Ψ = iprop(Ψ a ∗ bigSep (Finset.Ico (a + 1) 16) Ψ) := by
  have e : Finset.Ico a 16 = insert a (Finset.Ico (a + 1) 16) := by
    ext p; simp only [Finset.mem_insert, Finset.mem_Ico]; omega
  rw [e, bigSep_insert (by simp only [Finset.mem_Ico]; omega)]; rfl

theorem bigSep_Ico_snoc (a : ℕ) (h : 1 ≤ a) (Ψ : ℕ → sProp 𝕄) :
    bigSep (Finset.Ico 1 (a + 1)) Ψ = iprop(bigSep (Finset.Ico 1 a) Ψ ∗ Ψ a) := by
  have e : Finset.Ico 1 (a + 1) = insert a (Finset.Ico 1 a) := by
    ext p; simp only [Finset.mem_insert, Finset.mem_Ico]; omega
  rw [e, bigSep_insert (by simp only [Finset.mem_Ico]; omega)]
  exact equiv_iff.mp ⟨Idealize.SL.BI.sep_comm, Idealize.SL.BI.sep_comm⟩

/-! ## Shares of a row -/

section Shares

theorem rowPts_halves (d j : Dev nD) (f : Buf (Elt F) ((row j).view.loc (d : Thread nD τ))) :
    rowPts (F := F) d j fullShare f ⊣⊢ iprop(rowPts d j fullShare.left f ∗ rowPts d j fullShare.right f) :=
  pointsTo_share (PosShare.mem_left_op_right fullShare)

theorem rowPts_lend (d j : Dev nD) (f : Buf (Elt F) ((row j).view.loc (d : Thread nD τ))) (k : ℕ) (hk : 1 ≤ k) :
    rowPts (F := F) d j (rest (k - 1)) f ⊣⊢ iprop(rowPts d j (lend k) f ∗ rowPts d j (rest k) f) := by
  obtain ⟨n, rfl⟩ : ∃ n, k = n + 1 := ⟨k - 1, by omega⟩
  show rowPts (F := F) d j (rest n) f ⊣⊢ iprop(rowPts d j (rest n).left f ∗ rowPts d j (rest n).right f)
  exact pointsTo_share (PosShare.mem_left_op_right (rest n))

theorem rowPts_unlend (d j : Dev nD) (f : Buf (Elt F) ((row j).view.loc (d : Thread nD τ))) (n : ℕ) :
    iprop(rowPts (F := F) d j (rest n) f ∗ bigSep (Finset.Ico 1 (n + 1)) (fun k => rowPts d j (lend k) f))
      ⊢ rowPts d j fullShare.right f := by
  induction n with
  | zero =>
    rw [show Finset.Ico 1 (0 + 1) = (∅ : Finset ℕ) from rfl, bigSep_empty]
    exact Laws.sep_emp.1
  | succ n ih =>
    rw [bigSep_Ico_snoc (n + 1) (by omega)]
    iintro ⟨Hr, Hs, Hl⟩
    iapply ih
    isplitl [Hr Hl]
    · iapply (rowPts_lend d j f (n + 1) (by omega)).2
      isplitl [Hl]
      · iexact Hl
      · iexact Hr
    · iexact Hs

end Shares

/-- info: 'Cert.KernelProof.rowPts_unlend' depends on axioms: [propext, Classical.choice, Quot.sound] -/
#guard_msgs in #print axioms rowPts_unlend

end Cert.KernelProof

end
-- ==== Proof.KernelSteps.lean ====
/-
  One rule per kind of cross-device step of a device's body, each at a symbolic offset `a` in
  `1 … 15`, over the rounds discipline: the signal to `shift c a`'s barrier cell, the barrier wait,
  the transfer of row `c` to `shift c a`, the wait for the row of `shift c (16 - a)`, the wait for
  transfer `a`'s source.  The body applies each fifteen times.
-/
import proofs.«901056_g7700000000001057_dist_softmax_colshard_i_m1024_n512_v7x_i16_f32_1_alg».proof.Proof.KernelData
import proofs.«901056_g7700000000001057_dist_softmax_colshard_i_m1024_n512_v7x_i16_f32_1_alg».proof.Proof.KernelRows

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device owes `O`, whatever pairs its waits have recorded. -/
def owesE (c : Dev nD) (O : CellTallies nD τ sig Unit) : sProp 𝕄 := iprop(∃ W, owes (c : Thread nD τ) O W)

/-! ## What is owed, one summand at a time -/

theorem OwS_peel (c : Dev nD) (a : ℕ) (h1 : 1 ≤ a) (h2 : a ≤ 15) :
    OwS c (16 - a) = OwS c (15 - a) + tallyAt (barCell (shift c a)) () 1 := by
  have e : 16 - a = (15 - a) + 1 := by omega
  rw [e]; show OwS c (15 - a) + tallyAt (barCell (shift c (15 - (15 - a)))) () 1 = _
  rw [show 15 - (15 - a) = a by omega]

theorem OwR_peel (c : Dev nD) (a : ℕ) (h1 : 1 ≤ a) (h2 : a ≤ 15) :
    OwR c (16 - a) = OwR c (15 - a) + tallyAt (recvCell (shift c a) c) () N := by
  have e : 16 - a = (15 - a) + 1 := by omega
  rw [e]; show OwR c (15 - a) + tallyAt (recvCell (shift c (15 - (15 - a))) c) () N = _
  rw [show 15 - (15 - a) = a by omega]

theorem OwS_zero (c : Dev nD) : OwS c 0 = OwR c 15 := rfl
theorem OwR_zero (c : Dev nD) : OwR c 0 = 0 := rfl

/-- Only receive cells are owed once the signals are out. -/
theorem OwR_pos (c : Dev nD) : ∀ (n : ℕ) {g : GSem nD τ sig} {u : Unit}, 0 < OwR c n g u → ∃ p : Dev nD, g = recvCell p c
  | 0, g, u, h => absurd h (by simp [OwR])
  | n + 1, g, u, h => by
    have h' : 0 < OwR c n g u + tallyAt (recvCell (shift c (15 - n)) c) () N g u := h
    by_cases hg : 0 < OwR c n g u
    · exact OwR_pos c n hg
    · have : 0 < tallyAt (recvCell (shift c (15 - n)) c) () N g u := by omega
      rw [tallyAt_apply] at this
      by_cases hc : g = recvCell (shift c (15 - n)) c ∧ u = ()
      · exact ⟨_, hc.1⟩
      · rw [if_neg hc] at this; exact absurd this (Nat.lt_irrefl 0)

/-- At its barrier wait a device owes receive credits only: receive cells lie above barrier cells. -/
theorem mayWait_bar (c : Dev nD) :
    (levAts L lv : sProp 𝕄) ⊢ MayWait (c : Thread nD τ) (.reg barS) () (OwR c 15) :=
  MayOwe.of_cut (L := L) (lev := lv) 1 (fun p hp => by rw [Finset.mem_singleton.mp hp, L_tc]; exact Finset.mem_singleton_self _)
    (fun g u hg => by obtain ⟨p, rfl⟩ := OwR_pos c 15 hg; rw [L_tc]; exact Finset.mem_singleton_self _)
    (fun p hp => by rw [Finset.mem_singleton.mp hp]; dsimp only [lv]; rw [if_pos rfl])
    (fun g u hg => by
      obtain ⟨p, rfl⟩ := OwR_pos c 15 hg
      dsimp only [lv]
      have : 18 ≤ (recvSem c.val).val := by rw [recvSem_val]; omega
      rw [if_pos this]; decide)

/-! ## The barrier payload at its payer -/

/-- Duty `16 - a` of `shift c a`'s barrier cell is paid by `c`: its own row `shift c a`, and that its receive cell for
    `shift c a` is at round 0. -/
theorem barPay_at (c : Dev nD) (a : ℕ) (h2 : a ≤ 16) :
    barPay (F := F) (shift c a) (16 - a)
      = iprop((∃ f, rowPts (F := F) c (shift c a) fullShare f) ∗ reached ER (recvCell c (shift c a)) 0) := by
  unfold barPay; rw [shift_shift_back c a h2]

/-! ## The steps -/

/-- The signal to `shift c a`'s barrier cell: it hands over this device's row `shift c a`. -/
theorem sig_step (K : Names) (c : Dev nD) (a : ℕ) (h1 : 1 ≤ a) (h2 : a ≤ 15) (n : Dev nD) (hn : n = shift c a) {k' : ℕ} (hk' : 1 = k')
    {α : Type} {Q : α → sProp 𝕄} {k : PUnit → Prog (TpuEff nD τ sig (Elt F) Λ₀ .tc) α} :
    iprop(records m K ∗ owesE (F := F) c (OwS c (16 - a))
        ∗ dutyTok ER (barCell (shift c a)) 0 (16 - a) ∗ (∃ f, rowPts (F := F) c (shift c a) fullShare f))
      ⊢ iprop((owesE (F := F) c (OwS c (15 - a)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  subst hn; subst hk'
  unfold owesE
  iintro ⟨#HR, ⟨%W, HO⟩, Htok, Hrow⟩ Hk
  ihave #Hb := (records_bar m K (shift c a)) $$ HR
  ihave #Hv := (records_recv m K c (shift c a)) $$ HR
  icases Hb with ⟨#HI, #HrB⟩
  icases Hv with ⟨-, #HrV⟩
  iapply (Rounds.wp_signal 𝒱₀ ER (Rd m) (c : Thread nD τ) none (dst := ((shift c a : Dev nD) : Thread nD τ)) (κ := K.bar (shift c a))
      (d := 16 - a) (by rw [duties_bar]; exact Finset.mem_Ico.mpr ⟨by omega, by omega⟩) (amount_bar m (shift c a) (16 - a)) () (OwS c (15 - a)) (OwS_peel c a h1 h2))
    $$ [HO Htok Hrow] [Hk]
  · isplitr; · iexact HI
    isplitl [HO]; · iexact HO
    isplitl [Htok]; · iexact Htok
    isplitl [Hrow]
    · rw [payload_bar, barPay_at c a (by omega)]
      isplitl [Hrow]; · iexact Hrow
      iexact HrV
    · iexact HrB
  · iintro HO; iapply Hk; iexists W; iexact HO

/-- The barrier wait: all fifteen peers' rows `c` come with it. -/
theorem bar_wait (K : Names) (c : Dev nD) {k' : ℕ} (hk' : 15 = k')
    {α : Type} {Q : α → sProp 𝕄} {k : PUnit → Prog (TpuEff nD τ sig (Elt F) Λ₀ .tc) α} :
    iprop(records m K ∗ cred (tallyAt (barCell c) () 15) ∗ owesE (F := F) c (OwR c 15) ∗ levAts L lv ∗ atPos ER (barCell c) 0 ∅ 0)
      ⊢ iprop(((owesE (F := F) c (OwR c 15) ∗ bigSep (Finset.Ico 1 16) (fun a => barPay (F := F) c a))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesE
  iintro ⟨#HR, Hc, ⟨%W, HO⟩, #Hlev, Hat⟩ Hk
  ihave #Hb := (records_bar m K c) $$ HR
  icases Hb with ⟨#HI, -⟩
  iapply (Rounds.wp_wait_rest_token 𝒱₀ ER (Rd m) (c : Thread nD τ) none (κ := K.bar c)
      (wpE_semWait_eq 𝒱₀ (c : Thread nD τ) none Set.univ) (Set.mem_univ _) () (O := OwR c 15) (W := W) (R := 0) (m := 0) (T := ∅)
      (by rw [expect_bar])) $$ [Hc HO Hat] [Hk]
  · isplitr; · iexact HI
    isplitl [Hc]; · iexact Hc
    isplitl [HO]; · iexact HO
    isplitr; · iapply (mayWait_bar c); iexact Hlev
    iexact Hat
  · iintro ⟨HO, -, -, Hpay⟩
    iapply Hk
    isplitl [HO]; · iexists _; iexact HO
    iapply (Entails.of_eq (rest_bar m c)); iexact Hpay

/-- The transfer of row `c` to `shift c a`: its source read at the lent share, its destination the row the peer handed over at
    the barrier; what lands there is the gathered contents (`hland`). -/
theorem enq_step (K : Names) (c : Dev nD) (a : ℕ) (h1 : 1 ≤ a) (h2 : a ≤ 15)
    (src dst : Memref sig .tc .vmem S2x1024 .f32) (hs : src = row c) (hd : dst = row c)
    (n : Dev nD) (hn : n = shift c a) (sS sR : DmaSem sig) (hsS : sS = sendSem a) (hsR : sR = recvSem c.val)
    (hland : ∀ fd : Buf (Elt F) ((row c).view.loc ((shift c a : Dev nD) : Thread nD τ)),
      ((((row c).view.loc ((shift c a : Dev nD) : Thread nD τ)) ↦[(row c).view.set]{fullShare}
          ((row c).view.write (Elt F) fd ((row c).view.read (Elt F) (gbufAt m c c)) Finset.univ) : sProp 𝕄))
        = rowPts (shift c a) c fullShare (gbufAt m (shift c a) c))
    {hsc : (dst : Memref sig (Dev.tc n : Thread nD τ).2.kind .vmem S2x1024 .f32).view.ref.isScScratch = false}
    {hsrc : (src : Memref sig .tc .vmem S2x1024 .f32).view.WordExact} {hdst : (dst : Memref sig .tc .vmem S2x1024 .f32).view.WordExact}
    {hsem : DmaTarget.Typed .vmem (.dma sR) (.remote (Dev.tc n : Thread nD τ) (dst : Memref sig .tc .vmem S2x1024 .f32) (.dma sS) hsc)}
    {α : Type} {Q : α → sProp 𝕄} {k : PUnit → Prog (TpuEff nD τ sig (Elt F) Λ₀ .tc) α} :
    iprop(records m K ∗ owesE (F := F) c (OwR c (16 - a)) ∗ rowPts c c (rest (a - 1)) (gbufAt m c c) ∗ barPay (F := F) c a
        ∗ dutyTok ER (recvCell (shift c a) c) 0 0 ∗ dutyTok ER (sendCell c a) 0 0)
      ⊢ iprop(((cred (tallyAt (sendCell c a) () N) ∗ owesE (F := F) c (OwR c (15 - a)) ∗ rowPts c c (rest a) (gbufAt m c c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hs; subst hd; subst hn; subst hsS; subst hsR
  unfold owesE barPay
  iintro ⟨#HR, ⟨%W, HO⟩, Hrow, ⟨⟨%fd, Hdst⟩, -⟩, HtV, HtS⟩ Hk
  ihave #Hs := (records_send m K c a (by omega)) $$ HR
  ihave #Hv := (records_recv m K (shift c a) c) $$ HR
  icases Hs with ⟨#HIs, #Hrs⟩
  icases Hv with ⟨#HIv, #Hrv⟩
  ihave Hsp := (rowPts_lend (F := F) c c (gbufAt m c c) a h1).1 $$ Hrow
  icases Hsp with ⟨Hlend, Hrest⟩
  unfold rowPts
  iapply (Rounds.wp_send_pointsTo 𝒱₀ ER (Rd m) (c : Thread nD τ) none (κ₁ := K.send c a) (κ₂ := K.recv (shift c a) c)
      (r₁ := 0) (r₂ := 0) (d₁ := 0) (d₂ := 0) (fd := fd)
      (by rw [duties_send m c a h1 h2]; exact Finset.mem_singleton_self _)
      (by rw [duties_recv m (shift c a) c (shift_ne c a h1 h2).symm]; exact Finset.mem_singleton_self _)
      () () N rfl (amount_send m c a 0) (amount_recv m (shift c a) c 0) (OwR c (15 - a)) (OwR_peel c a h1 h2) (W := W)
      (by rw [payload_send m c a h1 h2]; exact BI.Entails.refl _)
      (by rw [payload_recv, hland fd]; exact BI.Entails.refl _)) $$ [Hlend Hdst HO HtS HtV] [Hk Hrest]
  · isplitr; · iexact HIs
    isplitr; · iexact HIv
    isplitl [Hlend]; · iexact Hlend
    isplitl [Hdst]; · iexact Hdst
    isplitl [HO]; · iexact HO
    isplitl [HtS]; · iexact HtS
    isplitr; · iexact Hrs
    isplitl [HtV]; · iexact HtV
    iexact Hrv
  · iintro ⟨Hc, HO⟩
    iapply Hk
    isplitl [Hc]; · iexact Hc
    isplitl [HO]; · iexists W; iexact HO
    iexact Hrest

/-- The wait for the row of `shift c (16 - a)`: it is there, holding that device's statistics. -/
theorem rwait_step (K : Names) (c : Dev nD) (a : ℕ) (h1 : 1 ≤ a) (h2 : a ≤ 15)
    (sR : DmaSem sig) (hsR : sR = recvSem (shift c (16 - a)).val)
    (src dst : Memref sig .tc .vmem S2x1024 .f32) (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ cred (tallyAt (recvCell c (shift c (16 - a))) () N) ∗ owesE (F := F) c 0
        ∗ atPos ER (recvCell c (shift c (16 - a))) 0 ∅ 0)
      ⊢ iprop(((owesE (F := F) c 0 ∗ atPos ER (recvCell c (shift c (16 - a))) 1 ∅ 0
              ∗ rowPts c (shift c (16 - a)) fullShare (gbufAt m c (shift c (16 - a))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  unfold owesE
  iintro ⟨#HR, Hc, ⟨%W, HO⟩, Hat⟩ Hk
  ihave #Hv := (records_recv m K c (shift c (16 - a))) $$ HR
  icases Hv with ⟨#HI, -⟩
  have hne : shift c (16 - a) ≠ c := shift_ne c (16 - a) (by omega) (by omega)
  iapply (Rounds.wp_wait_rest_token 𝒱₀ ER (Rd m) (c : Thread nD τ) none (κ := K.recv c (shift c (16 - a)))
      (wpE_waitDma2_eq 𝒱₀ (c : Thread nD τ) none Set.univ) (Set.mem_univ _) () (O := 0) (W := W) (R := 0) (m := 0) (T := ∅)
      (by rw [Nat.zero_add, hN, expect_recv m c _ hne])) $$ [Hc HO Hat] [Hk]
  · isplitr; · iexact HI
    isplitl [Hc]; · rw [hN]; iexact Hc
    isplitl [HO]; · iexact HO
    isplitr; · rw [MayWait_zero]; iempintro
    iexact Hat
  · iintro ⟨HO, Hat, -, Hpay⟩
    iapply Hk
    isplitl [HO]; · iexists _; iexact HO
    isplitl [Hat]; · iexact Hat
    ihave Hp := (Entails.of_eq (rest_recv m c _ hne)) $$ Hpay
    unfold recvPay; iexact Hp

/-- The wait for transfer `a`'s source: the lent share of the own row comes back. -/
theorem swait_step (K : Names) (c : Dev nD) (a : ℕ) (h1 : 1 ≤ a) (h2 : a ≤ 15)
    (sS : DmaSem sig) (hsS : sS = sendSem a)
    (src dst : Memref sig .tc .vmem S2x1024 .f32) (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ cred (tallyAt (sendCell c a) () N) ∗ owesE (F := F) c 0 ∗ atPos ER (sendCell c a) 0 ∅ 0)
      ⊢ iprop(((owesE (F := F) c 0 ∗ atPos ER (sendCell c a) 1 ∅ 0 ∗ rowPts c c (lend a) (gbufAt m c c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold owesE
  iintro ⟨#HR, Hc, ⟨%W, HO⟩, Hat⟩ Hk
  ihave #Hs := (records_send m K c a (by omega)) $$ HR
  icases Hs with ⟨#HI, -⟩
  iapply (Rounds.wp_wait_rest_token 𝒱₀ ER (Rd m) (c : Thread nD τ) none (κ := K.send c a)
      (wpE_waitDma2_eq 𝒱₀ (c : Thread nD τ) none Set.univ) (Set.mem_univ _) () (O := 0) (W := W) (R := 0) (m := 0) (T := ∅)
      (by rw [Nat.zero_add, hN, expect_send m c a h1 h2])) $$ [Hc HO Hat] [Hk]
  · isplitr; · iexact HI
    isplitl [Hc]; · rw [hN]; iexact Hc
    isplitl [HO]; · iexact HO
    isplitr; · rw [MayWait_zero]; iempintro
    iexact Hat
  · iintro ⟨HO, Hat, -, Hpay⟩
    iapply Hk
    isplitl [HO]; · iexists _; iexact HO
    isplitl [Hat]; · iexact Hat
    ihave Hp := (Entails.of_eq (rest_send m c a h1 h2)) $$ Hpay
    unfold sendPay; iexact Hp

end Cert.KernelProof

end
-- ==== Proof.KernelRowVals.lean ====
/-
  Plumbing for the gather buffer, part 2: element sets and values.

  The sixteen rows partition the buffer: row `j` is the set of entries whose first coordinate is `j`, so
  a device's whole buffer is the separating conjunction of its rows.  The two stores of device `c` go
  through the rectangles `(c, 0, ·)` and `(c, 1, ·)`, both inside row `c`; after them row `c` agrees
  with the gathered contents.  A copy of row `c` read off the gathered contents and written through the
  same row of another device leaves the gathered contents there.  A load of the whole buffer through the
  rectangle at zero offsets reads its contents.
-/
import proofs.«901056_g7700000000001057_dist_softmax_colshard_i_m1024_n512_v7x_i16_f32_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows partition the gather buffer -/

/-- The elements of row `j`, as indices of the gather buffer. -/
def rowSet (j : Dev nD) : Finset S16x2x1024.Idx :=
  (Rect.unit (s := S16x2x1024) (rowOff j) S1x2x1024.size (rowOff_inb j)).set

theorem row_set (j : Dev nD) : (row j).view.set = rowSet j := by
  show ((gM.view.slice (Rect.unit (s := S16x2x1024) (rowOff j) S1x2x1024.size (rowOff_inb j))).reshape S2x1024 _).set = _
  rw [View.set_reshape]
  exact View.set_slice_whole cc0_scratch0 _

/-- The elements of row `j` are those with first coordinate `j`. -/
theorem mem_rowSet (j : Dev nD) (i : S16x2x1024.Idx) : i ∈ rowSet j ↔ (i 0).val = j.val := by
  unfold rowSet
  rw [Rect.mem_set_unit]
  have h1 : (i 1).val < 2 := (i 1).isLt
  have h2 : (i 2).val < 1024 := (i 2).isLt
  constructor
  · intro h
    have h0 : j.val ≤ (i 0).val ∧ (i 0).val < j.val + 1 := h 0
    omega
  · intro h a
    fin_cases a
    · show j.val ≤ (i 0).val ∧ (i 0).val < j.val + 1; omega
    · show 0 ≤ (i 1).val ∧ (i 1).val < 0 + 2; omega
    · show 0 ≤ (i 2).val ∧ (i 2).val < 0 + 1024; omega

theorem mem_row_set (j : Dev nD) (i : S16x2x1024.Idx) : i ∈ (row j).view.set ↔ (i 0).val = j.val :=
  (Finset.ext_iff.mp (row_set j) i).trans (mem_rowSet j i)

theorem rowSet_disjoint (j j' : Dev nD) (h : j ≠ j') : Disjoint (rowSet j) (rowSet j') := by
  rw [Finset.disjoint_left]
  intro i hi hi'
  rw [mem_rowSet] at hi hi'
  exact h (Fin.ext (hi.symm.trans hi'))

theorem biUnion_rowSet : (Finset.univ : Finset (Dev nD)).biUnion rowSet = Finset.univ := by
  ext i
  simp only [Finset.mem_biUnion, Finset.mem_univ, true_and, iff_true]
  exact ⟨⟨(i 0).val, (i 0).isLt⟩, (mem_rowSet _ i).mpr rfl⟩

/-- The whole gather buffer of a device is its sixteen rows. -/
theorem whole_rows (d : Dev nD) (q : PosShare TreeShare) (f : Buf (Elt F) ((d : Thread nD τ).loc cc0_scratch0)) :
    ((((d : Thread nD τ).loc cc0_scratch0) ↦{q} f : sProp 𝕄))
      = bigSep Finset.univ (fun j : Dev nD => rowPts (F := F) d j q f) := by
  have h := pointsTo_biUnion (nD := nD) (τ := τ) (sig := sig) (Ix := Unit) (Val := Elt F) (Name := ℕ) (U := UU) (Lvl := ℕ)
    (ℓ := (d : Thread nD τ).loc cc0_scratch0) (q := q) (f := f)
    (Finset.univ : Finset (Dev nD)) rowSet
    (fun t _ t' _ hne => rowSet_disjoint t t' hne)
  rw [biUnion_rowSet] at h
  refine h.trans (bigSep_congr fun j _ => ?_)
  exact congrArg (fun I : Finset S16x2x1024.Idx => (((d : Thread nD τ).loc cc0_scratch0) ↦[I]{q} f : sProp 𝕄)) (row_set j).symm

/-! ## Values: the two stores into a device's own row, a landed row, the whole buffer read back -/

/-- The rectangles of the two stores of device `c`: entries `(c, 0, ·)` and `(c, 1, ·)`. -/
abbrev r1 (c : Dev nD) : Rect S16x2x1024 := Rect.unit (s := S16x2x1024) (k0_off1 c) S1x1x1024.size (k0_off1_inb c)
abbrev r2 (c : Dev nD) : Rect S16x2x1024 := Rect.unit (s := S16x2x1024) (k0_off2 c) S1x1x1024.size (k0_off2_inb c)

theorem mem_r1 (c : Dev nD) (i : S16x2x1024.Idx) : i ∈ (r1 c).set ↔ (i 0).val = c.val ∧ (i 1).val = 0 := by
  rw [Rect.mem_set_unit]
  have h1 : (i 1).val < 2 := (i 1).isLt
  have h2 : (i 2).val < 1024 := (i 2).isLt
  simp only [Gen.k0_off1_eq]
  constructor
  · intro h
    have h0 : c.val ≤ (i 0).val ∧ (i 0).val < c.val + 1 := h 0
    have h1' : 0 ≤ (i 1).val ∧ (i 1).val < 0 + 1 := h 1
    omega
  · intro h a
    fin_cases a
    · show c.val ≤ (i 0).val ∧ (i 0).val < c.val + 1; omega
    · show 0 ≤ (i 1).val ∧ (i 1).val < 0 + 1; omega
    · show 0 ≤ (i 2).val ∧ (i 2).val < 0 + 1024; omega

theorem mem_r2 (c : Dev nD) (i : S16x2x1024.Idx) : i ∈ (r2 c).set ↔ (i 0).val = c.val ∧ (i 1).val = 1 := by
  rw [Rect.mem_set_unit]
  have h1 : (i 1).val < 2 := (i 1).isLt
  have h2 : (i 2).val < 1024 := (i 2).isLt
  simp only [Gen.k0_off2_eq]
  constructor
  · intro h
    have h0 : c.val ≤ (i 0).val ∧ (i 0).val < c.val + 1 := h 0
    have h1' : 1 ≤ (i 1).val ∧ (i 1).val < 1 + 1 := h 1
    omega
  · intro h a
    fin_cases a
    · show c.val ≤ (i 0).val ∧ (i 0).val < c.val + 1; omega
    · show 1 ≤ (i 1).val ∧ (i 1).val < 1 + 1; omega
    · show 0 ≤ (i 2).val ∧ (i 2).val < 0 + 1024; omega

/-- Both stores go into the device's own row. -/
theorem acc1_sub (c : Dev nD) : ((gM.access (r1 c)) : View sig .tc _ _ _).setOn Finset.univ ⊆ (row c).view.set := by
  intro i hi
  have hi' : i ∈ (r1 c).set := (Finset.ext_iff.mp (View.set_slice_whole cc0_scratch0 (r1 c)) i).mp hi
  exact (mem_row_set c i).mpr ((mem_r1 c i).mp hi').1

theorem acc2_sub (c : Dev nD) : ((gM.access (r2 c)) : View sig .tc _ _ _).setOn Finset.univ ⊆ (row c).view.set := by
  intro i hi
  have hi' : i ∈ (r2 c).set := (Finset.ext_iff.mp (View.set_slice_whole cc0_scratch0 (r2 c)) i).mp hi
  exact (mem_row_set c i).mpr ((mem_r2 c i).mp hi').1

/-- The same for the loads at the two rectangles. -/
theorem acc1_sub_load (c : Dev nD) : gM.view.setOn (r1 c).toLoadRect.set ⊆ (row c).view.set := by
  intro i hi
  have hi' : i ∈ (r1 c).set := by
    obtain ⟨y, hy, rfl⟩ := Finset.mem_map.mp hi; exact hy
  exact (mem_row_set c i).mpr ((mem_r1 c i).mp hi').1

theorem acc2_sub_load (c : Dev nD) : gM.view.setOn (r2 c).toLoadRect.set ⊆ (row c).view.set := by
  intro i hi
  have hi' : i ∈ (r2 c).set := by
    obtain ⟨y, hy, rfl⟩ := Finset.mem_map.mp hi; exact hy
  exact (mem_row_set c i).mpr ((mem_r2 c i).mp hi').1

/-- Two stores through the rectangles `(c, 0, ·)` and `(c, 1, ·)` leave, at an entry `(c, b, r)` of row `c`, the first payload
    at `(0, 0, r)` if `b = 0` and the second at `(0, 0, r)` otherwise. -/
theorem write2_val (c : Dev nD) (f0 : S16x2x1024.Idx → Elt F .f32) (w1 w2 : S1x1x1024.Idx → Elt F .f32)
    (i : S16x2x1024.Idx) (hi : (i 0).val = c.val) :
    (((gM.access (r2 c)) : View sig .tc _ _ _).write (Elt F)
      (((gM.access (r1 c)) : View sig .tc _ _ _).write (Elt F) f0 w1 Finset.univ) w2 Finset.univ) i
      = if (i 1).val = 0 then w1 (ValueIdx.ix3 (0 : Fin 1) (0 : Fin 1) (⟨(i 2).val, (i 2).isLt⟩ : Fin 1024))
        else w2 (ValueIdx.ix3 (0 : Fin 1) (0 : Fin 1) (⟨(i 2).val, (i 2).isLt⟩ : Fin 1024)) := by
  have h1 : (i 1).val < 2 := (i 1).isLt
  by_cases hz : (i 1).val = 0
  · rw [if_pos hz]
    have hy : (r1 c).emb (ValueIdx.ix3 (0 : Fin 1) (0 : Fin 1) (⟨(i 2).val, (i 2).isLt⟩ : Fin 1024)) = i := by
      funext a; apply Fin.ext
      have e1 : (r1 c).off a = (![c.val, 0, 0] : Fin 3 → ℕ) a := congrFun (Gen.k0_off1_eq c) a
      rw [Rect.emb_apply, e1]
      fin_cases a
      · show c.val + 1 * 0 = (i 0).val; omega
      · show 0 + 1 * 0 = (i 1).val; omega
      · show 0 + 1 * (i 2).val = (i 2).val; omega
    have hn : i ∉ ((gM.access (r2 c)) : View sig .tc _ _ _).setOn Finset.univ := fun hm => by
      have hm' : i ∈ (r2 c).set := (Finset.ext_iff.mp (View.set_slice_whole cc0_scratch0 (r2 c)) i).mp hm
      have := ((mem_r2 c i).mp hm').2
      omega
    refine (View.write_of_not_mem _ _ _ hn).trans ?_
    have hw := View.write_emb_of_mem (v := ((gM.access (r1 c)) : View sig .tc _ _ _)) (Val := Elt F) f0 w1
      (M := Finset.univ) (x := ValueIdx.ix3 (0 : Fin 1) (0 : Fin 1) (⟨(i 2).val, (i 2).isLt⟩ : Fin 1024)) (Finset.mem_univ _)
    exact (congrArg _ hy.symm).trans (hw.trans (cast_eq _ _))
  · rw [if_neg hz]
    have hy : (r2 c).emb (ValueIdx.ix3 (0 : Fin 1) (0 : Fin 1) (⟨(i 2).val, (i 2).isLt⟩ : Fin 1024)) = i := by
      funext a; apply Fin.ext
      have e1 : (r2 c).off a = (![c.val, 1, 0] : Fin 3 → ℕ) a := congrFun (Gen.k0_off2_eq c) a
      rw [Rect.emb_apply, e1]
      fin_cases a
      · show c.val + 1 * 0 = (i 0).val; omega
      · show 1 + 1 * 0 = (i 1).val; omega
      · show 0 + 1 * (i 2).val = (i 2).val; omega
    have hw := View.write_emb_of_mem (v := ((gM.access (r2 c)) : View sig .tc _ _ _)) (Val := Elt F)
      (((gM.access (r1 c)) : View sig .tc _ _ _).write (Elt F) f0 w1 Finset.univ) w2
      (M := Finset.univ) (x := ValueIdx.ix3 (0 : Fin 1) (0 : Fin 1) (⟨(i 2).val, (i 2).isLt⟩ : Fin 1024)) (Finset.mem_univ _)
    exact (congrArg _ hy.symm).trans (hw.trans (cast_eq _ _))

/-- After its two stores, device `c`'s own row holds its two rows of statistics: entry `(c, 0, r)` the maximum of
    row `r` of its block, entry `(c, 1, r)` the sum of that row's shifted exponentials. -/
theorem stored_val (c : Dev nD) (f0 : S16x2x1024.Idx → Elt F .f32) (i : S16x2x1024.Idx) (hi : (i 0).val = c.val) :
    (((gM.access (r2 c)) : View sig .tc _ _ _).write (Elt F)
      (((gM.access (r1 c)) : View sig .tc _ _ _).write (Elt F) f0 (k0_pay4 (xblk m c)) Finset.univ)
      (k0_pay5 (xblk m c)) Finset.univ) i = gath (xblk m) i := by
  have hc : (⟨(i 0).val, (i 0).isLt⟩ : Dev nD) = c := Fin.ext hi
  refine (write2_val c f0 (k0_pay4 (xblk m c)) (k0_pay5 (xblk m c)) i hi).trans ?_
  unfold gath
  rw [hc]

theorem stored_row (c : Dev nD) (f0 : Buf (Elt F) ((c : Thread nD τ).loc cc0_scratch0)) :
    rowPts (F := F) c c fullShare
      (((gM.access (r2 c)) : View sig .tc _ _ _).write (Elt F)
        (((gM.access (r1 c)) : View sig .tc _ _ _).write (Elt F) f0 (k0_pay4 (xblk m c)) Finset.univ)
        (k0_pay5 (xblk m c)) Finset.univ)
      = rowPts c c fullShare (gbufAt m c c) :=
  pointsTo_congr fun i hi => stored_val m c f0 i ((mem_row_set c i).mp hi)

/-- A copy of row `c` at the gathered contents, landed on device `d`, leaves row `c` there at the gathered contents. -/
theorem landed_row (c d : Dev nD) (fd : Buf (Elt F) ((row c).view.loc (d : Thread nD τ))) :
    (((row c).view.loc (d : Thread nD τ)) ↦[(row c).view.set]{fullShare}
        ((row c).view.write (Elt F) fd ((row c).view.read (Elt F) (gbufAt m c c)) Finset.univ) : sProp 𝕄)
      = rowPts d c fullShare (gbufAt m d c) := by
  unfold rowPts
  refine pointsTo_congr fun i hi => ?_
  have hi' : i ∈ (row c).view.setOn Finset.univ := hi
  rw [View.write_read_eq_piecewise, Finset.piecewise_eq_of_mem _ _ _ hi']
  rfl

/-- A load of the whole gather buffer reads its contents. -/
theorem read_whole_gbuf :
    gM.view.readAt (Elt F) (Rect.unit (s := S16x2x1024) ![0, 0, 0] S16x2x1024.size inb_S16x2x1024_S16x2x1024_0_0_0).toLoadRect (gbuf m)
      = gbuf m :=
  Memref.readAt_unit_zero (Elt F) cc0_scratch0 (off := ![0, 0, 0]) (by funext a; fin_cases a <;> rfl) _ (gbuf m)

/-- info: 'Cert.KernelProof.whole_rows' depends on axioms: [propext, Classical.choice, Quot.sound] -/
#guard_msgs in #print axioms whole_rows

/-- info: 'Cert.KernelProof.stored_row' depends on axioms: [propext, Classical.choice, Quot.sound] -/
#guard_msgs in #print axioms stored_row

/-- info: 'Cert.KernelProof.landed_row' depends on axioms: [propext, Classical.choice, Quot.sound] -/
#guard_msgs in #print axioms landed_row

/-- info: 'Cert.KernelProof.read_whole_gbuf' depends on axioms: [propext, Classical.choice, Quot.sound] -/
#guard_msgs in #print axioms read_whole_gbuf

/-- info: 'Cert.KernelProof.acc1_sub' depends on axioms: [propext, Classical.choice, Quot.sound] -/
#guard_msgs in #print axioms acc1_sub

end Cert.KernelProof

end
-- ==== Proof.KernelClose.lean ====
/-
  The end of a device's body: its own thirty-two transfer cells are closed, their semaphores at zero.

  Each of the fifteen send cells and fifteen receive cells the device used stands at round 1, and no
  cell has a duty from round 1 on; the send cell of offset 0 and the receive cell for the device's own
  row were never used, stand at round 0, and have no duty at any round. A cell whose owner stands at a
  round from which no round has a duty, having taken nothing of it, closes with its counter at zero.
-/
import proofs.«901056_g7700000000001057_dist_softmax_colshard_i_m1024_n512_v7x_i16_f32_1_alg».proof.Proof.KernelData
import proofs.«901056_g7700000000001057_dist_softmax_colshard_i_m1024_n512_v7x_i16_f32_1_alg».proof.Proof.KernelRows

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- One cell: with the records, the owner's position at a round from which the cell has no duty, nothing
    taken, closes the cell and leaves its semaphore at zero. -/
theorem close_cell (K : Names) (κ : ℕ) (g : GSem nD τ sig) (R : ℕ)
    (hrec : records m K ⊢ iprop(cellInv ER (Rd m) κ g ∗ reached ER g 0))
    (hR : ∀ r, R ≤ r → (Rd (F := F) m).duties g r = ∅) :
    iprop(records m K ∗ atPos ER g R ∅ 0) ⊢ (|={Set.univ}=> semVal g 0 : sProp 𝕄) := by
  iintro ⟨Hrec, Hat⟩
  ihave H := hrec $$ Hrec
  icases H with ⟨Hinv, -⟩
  iapply (Rounds.cell_close ER (Rd m) (Set.mem_univ κ) (fun h => h) hR)
  isplitl [Hinv]
  · iexact Hinv
  · iexact Hat

/-- The records are there for every term of a separating conjunction. -/
theorem bigSep_with_records {I : Type} [DecidableEq I] (K : Names) (S : Finset I) (Φ Ψ : I → sProp 𝕄)
    (h : ∀ i ∈ S, iprop(records m K ∗ Φ i) ⊢ Ψ i) : iprop(records m K ∗ bigSep S Φ) ⊢ bigSep S Ψ := by
  refine (sep_mono_left (bigSep_of_persistent S (records m K))).trans ?_
  rw [← bigSep_sep']
  exact bigSep_mono h

/-- The sixteen send cells of device `c`: offsets `1 … 15` at round 1, offset `0` at round 0. -/
theorem close_sends (K : Names) (c : Dev nD) :
    iprop(records m K ∗ (bigSep (Finset.Ico 1 16) fun k => atPos ER (sendCell c k) 1 ∅ 0) ∗ atPos ER (sendCell c 0) 0 ∅ 0)
      ⊢ (|={Set.univ}=> bigSep (Finset.range 16) fun k => semVal (sendCell c k) 0 : sProp 𝕄) := by
  have e : Finset.range 16 = insert 0 (Finset.Ico 1 16) := by
    ext p; simp only [Finset.mem_range, Finset.mem_insert, Finset.mem_Ico]; omega
  have hused : iprop(records m K ∗ bigSep (Finset.Ico 1 16) fun k => atPos ER (sendCell c k) 1 ∅ 0)
      ⊢ (|={Set.univ}=> bigSep (Finset.Ico 1 16) fun k => semVal (sendCell c k) 0 : sProp 𝕄) :=
    (bigSep_with_records m K _ _ _ fun k hk =>
      close_cell m K (K.send c k) (sendCell c k) 1 (records_send m K c k (Finset.mem_Ico.mp hk).2)
        (duties_later m (sendCell c k))).trans (bigSep_fupd _ _)
  have hzero : iprop(records m K ∗ atPos ER (sendCell c 0) 0 ∅ 0) ⊢ (|={Set.univ}=> semVal (sendCell c 0) 0 : sProp 𝕄) :=
    close_cell m K (K.send c 0) (sendCell c 0) 0 (records_send m K c 0 (by decide)) (fun r _ => duties_send_zero m c r)
  rw [e, bigSep_insert (by simp only [Finset.mem_Ico]; omega)]
  iintro ⟨#Hrec, Hs, H0⟩
  iapply fupd_sep
  isplitl [H0]
  · iapply hzero
    isplitr
    · iexact Hrec
    · iexact H0
  · iapply hused
    isplitr
    · iexact Hrec
    · iexact Hs

/-- The sixteen receive cells of device `c`: the fifteen rows of the other devices at round 1, its own at round 0. -/
theorem close_recvs (K : Names) (c : Dev nD) :
    iprop(records m K ∗ (bigSep (Finset.Ico 1 16) fun k => atPos ER (recvCell c (shift c (16 - k))) 1 ∅ 0) ∗ atPos ER (recvCell c c) 0 ∅ 0)
      ⊢ (|={Set.univ}=> bigSep Finset.univ fun j : Dev nD => semVal (recvCell c j) 0 : sProp 𝕄) := by
  have hused : iprop(records m K ∗ bigSep (Finset.Ico 1 16) fun k => atPos ER (recvCell c (shift c (16 - k))) 1 ∅ 0)
      ⊢ (|={Set.univ}=> bigSep (Finset.Ico 1 16) fun k => semVal (recvCell c (shift c (16 - k))) 0 : sProp 𝕄) :=
    (bigSep_with_records m K _ _ _ fun k _ =>
      close_cell m K (K.recv c (shift c (16 - k))) (recvCell c (shift c (16 - k))) 1 (records_recv m K c (shift c (16 - k)))
        (duties_later m (recvCell c (shift c (16 - k))))).trans (bigSep_fupd _ _)
  have hzero : iprop(records m K ∗ atPos ER (recvCell c c) 0 ∅ 0) ⊢ (|={Set.univ}=> semVal (recvCell c c) 0 : sProp 𝕄) :=
    close_cell m K (K.recv c c) (recvCell c c) 0 (records_recv m K c c) (fun r _ => duties_recv_own m c r)
  rw [bigSep_dev_back c (fun j : Dev nD => (semVal (recvCell c j) 0 : sProp 𝕄))]
  iintro ⟨#Hrec, Hs, H0⟩
  iapply fupd_sep
  isplitl [H0]
  · iapply hzero
    isplitr
    · iexact Hrec
    · iexact H0
  · iapply hused
    isplitr
    · iexact Hrec
    · iexact Hs

end Cert.KernelProof

end
-- ==== Proof.KernelBody.lean ====
/-
  One device's body, stepped from what the launch deals it to what it gives back.

  In program order: fifteen signals (each handing a peer the row that peer will write), the two rows of statistics
  stored into the device's own row, the barrier wait (every peer's row `c` arrives), fifteen transfers of the own row
  (each reading it at a lent share), the exponentials stored, fifteen receive waits (every row now holds its device's
  statistics), the whole buffer loaded at the left half-share, the result stored, fifteen send waits (the lent shares
  come back), the shares rejoined and the thirty-two cells closed.
-/
import proofs.«901056_g7700000000001057_dist_softmax_colshard_i_m1024_n512_v7x_i16_f32_1_alg».proof.Proof.KernelSteps
import proofs.«901056_g7700000000001057_dist_softmax_colshard_i_m1024_n512_v7x_i16_f32_1_alg».proof.Proof.KernelRowVals
import proofs.«901056_g7700000000001057_dist_softmax_colshard_i_m1024_n512_v7x_i16_f32_1_alg».proof.Proof.KernelClose
import proofs.«901056_g7700000000001057_dist_softmax_colshard_i_m1024_n512_v7x_i16_f32_1_alg».proof.Proof.Gen.Kernel.Skeleton
import proofs.«901056_g7700000000001057_dist_softmax_colshard_i_m1024_n512_v7x_i16_f32_1_alg».proof.Proof.Gen.Kernel.Points

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem hz2 : (![0, 0] : Fin 2 → Nat) = fun _ => 0 := funext fun a => by fin_cases a <;> rfl

abbrev xM : Memref sig .tc .vmem S1024x512 .f32 := Memref.whole cc0_stg0_0
abbrev oM : Memref sig .tc .vmem S1024x512 .f32 := Memref.whole cc0_stg1_0
abbrev r0 : Rect S1024x512 := Rect.unit (s := S1024x512) ![0, 0] S1024x512.size inb_S1024x512_S1024x512_0_0

omit [FloatOps F] in
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz2 _ f
omit [FloatOps F] in
theorem read_o (f : (cc0_stg1_0 : Ref sig .tc).ty.Contents (Elt F)) : (oM : Memref sig .tc .vmem S1024x512 .f32).view.readAt (Elt F) r0.toLoadRect f = f :=
  Memref.readAt_unit_zero (Elt F) cc0_stg1_0 hz2 _ f
omit [FloatOps F] in
theorem write_o (f w : (cc0_stg1_0 : Ref sig .tc).ty.Contents (Elt F)) :
    ((oM : Memref sig .tc .vmem S1024x512 .f32).access r0 : View sig .tc _ _ _).write (Elt F) f w Finset.univ = w :=
  Memref.write_access_unit_zero_univ (Elt F) cc0_stg1_0 hz2 _ f w

/-- The row the kernel slices at its own position is `row c`. -/
theorem row_own (c : Dev nD) :
    ((Memref.whole cc0_scratch0 : Memref sig .tc .vmem S16x2x1024 .f32).slice (Rect.unit (s := S16x2x1024) (k0_off4 c) S1x2x1024.size (k0_off4_inb c)) (fun _ => rfl)).squeeze S2x1024 squeezes_S1x2x1024_S2x1024 = row c := by
  unfold row rowOff
  exact congrArg (fun x : Memref sig .tc .vmem S1x2x1024 .f32 => x.squeeze S2x1024 squeezes_S1x2x1024_S2x1024)
    (Memref.slice_unit_congr _ (k0_off4_eq c) (k0_off4_inb c) (rowOff_inb c) (fun _ => rfl) (fun _ => rfl))

/-- A row held at the full share is held at both halves. -/
theorem rowPts_halves_eq (d j : Dev nD) (f : Buf (Elt F) ((row j).view.loc (d : Thread nD τ))) :
    (rowPts (F := F) d j fullShare f : sProp 𝕄) = iprop(rowPts d j fullShare.left f ∗ rowPts d j fullShare.right f) :=
  BI.equiv_iff.mp ⟨(rowPts_halves (F := F) d j f).1, (rowPts_halves (F := F) d j f).2⟩

/-- The fifteen received rows, each at both halves. -/
theorem got_halves (c : Dev nD) :
    (bigSep (Finset.Ico 1 16) (fun k => rowPts (F := F) c (shift c (16 - k)) fullShare (gbufAt m c (shift c (16 - k)))) : sProp 𝕄)
      = iprop((bigSep (Finset.Ico 1 16) fun k => rowPts (F := F) c (shift c (16 - k)) fullShare.left (gbufAt m c (shift c (16 - k))))
          ∗ bigSep (Finset.Ico 1 16) fun k => rowPts (F := F) c (shift c (16 - k)) fullShare.right (gbufAt m c (shift c (16 - k)))) := by
  rw [← bigSep_sep']
  exact bigSep_congr fun k _ => rowPts_halves_eq c (shift c (16 - k)) _

/-- All sixteen rows at one share and the gathered contents are the whole buffer at that share. -/
theorem whole_of_rows (c : Dev nD) (q : PosShare TreeShare) :
    (iprop(rowPts (F := F) c c q (gbufAt m c c) ∗ bigSep (Finset.Ico 1 16) (fun k => rowPts (F := F) c (shift c (16 - k)) q (gbufAt m c (shift c (16 - k))))) : sProp 𝕄)
      = (((c : Thread nD τ).loc cc0_scratch0) ↦{q} (gbuf m : Buf (Elt F) ((c : Thread nD τ).loc cc0_scratch0)) : sProp 𝕄) := by
  rw [whole_rows (F := F) c q (gbuf m : Buf (Elt F) ((c : Thread nD τ).loc cc0_scratch0)),
    bigSep_dev_back c (fun j => rowPts (F := F) c j q (gbuf m : Buf (Elt F) ((c : Thread nD τ).loc cc0_scratch0)))]
  rfl

/-- A row's points-to, over the buffer's own location. -/
theorem rowPts_loc (d j : Dev nD) (q : PosShare TreeShare) (f : Buf (Elt F) ((d : Thread nD τ).loc cc0_scratch0)) :
    (rowPts (F := F) d j q f : sProp 𝕄) = ((((d : Thread nD τ).loc cc0_scratch0) ↦[(row j).view.set]{q} f) : sProp 𝕄) := rfl

/-- The own row after the two stores holds the gathered contents. -/
theorem stored_loc (c : Dev nD) (f0 : Buf (Elt F) ((c : Thread nD τ).loc cc0_scratch0)) :
    ((((c : Thread nD τ).loc cc0_scratch0) ↦[(row c).view.set]{fullShare}
        (((gM.access (r2 c)) : View sig .tc _ _ _).write (Elt F) (((gM.access (r1 c)) : View sig .tc _ _ _).write (Elt F) f0 (k0_pay4 (xblk m c)) Finset.univ) (k0_pay5 (xblk m c)) Finset.univ)) : sProp 𝕄)
      = rowPts c c fullShare (gbufAt m c c) := stored_row m c f0

section Body

variable (K : Names)

def bodyPre (c : Dev nD) : sProp 𝕄 :=
  iprop((ghost m K c ∗ cred (tallyAt (barCell c) () 15)
      ∗ (bigSep (Finset.Ico 1 16) fun k => cred (tallyAt (recvCell c (shift c (16 - k))) () N))
      ∗ levAts L lv ∗ ∃ f : Buf (Elt F) ((c : Thread nD τ).loc cc0_scratch0), ((c : Thread nD τ).loc cc0_scratch0) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xblk m c) ∗ stg c cc0_stg1_0 (outAt (xblk m) c))

set_option hygiene false in
/-- Signal `a`: one token and one row off their families, through the signal rule. -/
local macro "sig_at " a:num e:ident : tactic => `(tactic| (
  ihave Hp := (Entails.of_eq (bigSep_Ico_peel $a (by decide) _)) $$ HtB
  icases Hp with ⟨Htok, HtB⟩
  ihave Hp := (Entails.of_eq (bigSep_Ico_peel $a (by decide) _)) $$ Hrows
  icases Hp with ⟨Hrow, Hrows⟩
  iapply (sig_step m K c $a (by decide) (by decide) _ ($e c) (by decide)) $$ [HO Htok Hrow]
  · isplitr; · iexact HR
    isplitl [HO]; · iexact HO
    isplitl [Htok]; · iexact Htok
    iexists f0; iexact Hrow
  iintro HO))

set_option hygiene false in
/-- Transfer `a`: the peer's row, the two tokens, a lent share of the own row; the send credit joins those already held. -/
local macro "enq_at " a:num e:ident s:ident : tactic => `(tactic| (
  ihave Hp := (Entails.of_eq (bigSep_Ico_peel $a (by decide) _)) $$ Hbar
  icases Hp with ⟨Hb, Hbar⟩
  ihave Hp := (Entails.of_eq (bigSep_Ico_peel $a (by decide) _)) $$ HtV
  icases Hp with ⟨Htv, HtV⟩
  ihave Hp := (Entails.of_eq (bigSep_Ico_peel $a (by decide) _)) $$ HtS
  icases Hp with ⟨Hts, HtS⟩
  iapply (enq_step m K c $a (by decide) (by decide) _ _ (row_own c) (row_own c) _ ($e c) _ _ $s (recvSem_own c) (landed_row m c (shift c $a))) $$ [HO Hlendable Hb Htv Hts]
  · isplitr; · iexact HR
    isplitl [HO]; · iexact HO
    isplitl [Hlendable]; · iexact Hlendable
    isplitl [Hb]; · iexact Hb
    isplitl [Htv]; · iexact Htv
    iexact Hts
  iintro ⟨Hc, HO, Hlendable⟩
  ihave Hcs := (Entails.of_eq (bigSep_Ico_snoc $a (by decide) (fun k => cred (tallyAt (sendCell c k) () N))).symm) $$ [Hcs Hc]
  · isplitl [Hcs]; · iexact Hcs
    iexact Hc))

set_option hygiene false in
/-- Receive wait `a`: the row of `shift c (16 - a)` joins the rows already received. -/
local macro "rw_at " a:num s:ident : tactic => `(tactic| (
  ihave Hp := (Entails.of_eq (bigSep_Ico_peel $a (by decide) _)) $$ HcV
  icases Hp with ⟨Hc, HcV⟩
  ihave Hp := (Entails.of_eq (bigSep_Ico_peel $a (by decide) _)) $$ HatV
  icases Hp with ⟨Hat, HatV⟩
  iapply (rwait_step m K c $a (by decide) (by decide) _ ($s c) _ _ (by rfl)) $$ [HO Hc Hat]
  · isplitr; · iexact HR
    isplitl [Hc]; · iexact Hc
    isplitl [HO]; · iexact HO
    iexact Hat
  iintro ⟨HO, Hat, Hrow⟩
  ihave HatV1 := (Entails.of_eq (bigSep_Ico_snoc $a (by decide) (fun k => atPos ER (recvCell c (shift c (16 - k))) 1 ∅ 0)).symm) $$ [HatV1 Hat]
  · isplitl [HatV1]; · iexact HatV1
    iexact Hat
  ihave Hgot := (Entails.of_eq (bigSep_Ico_snoc $a (by decide) (fun k => rowPts (F := F) c (shift c (16 - k)) fullShare (gbufAt m c (shift c (16 - k))))).symm) $$ [Hgot Hrow]
  · isplitl [Hgot]; · iexact Hgot
    iexact Hrow))

set_option hygiene false in
/-- Send wait `a`: the share lent to transfer `a` joins those already back. -/
local macro "sw_at " a:num s:ident : tactic => `(tactic| (
  ihave Hp := (Entails.of_eq (bigSep_Ico_peel $a (by decide) _)) $$ Hcs
  icases Hp with ⟨Hc, Hcs⟩
  ihave Hp := (Entails.of_eq (bigSep_Ico_peel $a (by decide) _)) $$ HatS
  icases Hp with ⟨Hat, HatS⟩
  iapply (swait_step m K c $a (by decide) (by decide) _ $s _ _ (by rfl)) $$ [HO Hc Hat]
  · isplitr; · iexact HR
    isplitl [Hc]; · iexact Hc
    isplitl [HO]; · iexact HO
    iexact Hat
  iintro ⟨HO, Hat, Hrow⟩
  ihave HatS1 := (Entails.of_eq (bigSep_Ico_snoc $a (by decide) (fun k => atPos ER (sendCell c k) 1 ∅ 0)).symm) $$ [HatS1 Hat]
  · isplitl [HatS1]; · iexact HatS1
    iexact Hat
  ihave Hback := (Entails.of_eq (bigSep_Ico_snoc $a (by decide) (fun k => rowPts (F := F) c c (lend k) (gbufAt m c c))).symm) $$ [Hback Hrow]
  · isplitl [Hback]; · iexact Hback
    iexact Hrow))

omit [FloatOps F] in
theorem bigSep_Ico_nil (Ψ : ℕ → sProp 𝕄) : (bigSep (Finset.Ico 1 1) Ψ : sProp 𝕄) = iprop(emp) := by
  rw [Finset.Ico_self]; exact bigSep_empty

set_option maxHeartbeats 16000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  unfold cc0_body_skel
  simp only [k0_part28_eq_skeleton]
  unfold k0_part28_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId]
  unfold bodyPre ghost linear
  iintro ⟨⟨⟨⟨#HR, HatB, HatS, HatS0, HatV, HatVc, HtB, HtV, HtS⟩, HcB, HcV, #Hlev, ⟨%f0, Hscr⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = OwS c 15 from rfl]
  ihave HO : owesE (F := F) c (OwS c 15) $$ [HO]
  · unfold owesE; iexists W; iexact HO
  -- the gather buffer by rows: the own row, and the fifteen others by offset
  ihave Hrows := (Entails.of_eq (whole_rows (F := F) c fullShare f0)) $$ Hscr
  ihave Hrows := (Entails.of_eq (bigSep_dev_shift c (fun j => rowPts (F := F) c j fullShare f0))) $$ Hrows
  icases Hrows with ⟨Hrowc, Hrows⟩
  -- the fifteen signals
  sig_at 1 dev1_eq
  sig_at 2 dev2_eq
  sig_at 3 dev3_eq
  sig_at 4 dev4_eq
  sig_at 5 dev5_eq
  sig_at 6 dev6_eq
  sig_at 7 dev7_eq
  sig_at 8 dev8_eq
  sig_at 9 dev9_eq
  sig_at 10 dev10_eq
  sig_at 11 dev11_eq
  sig_at 12 dev12_eq
  sig_at 13 dev13_eq
  sig_at 14 dev14_eq
  sig_at 15 dev15_eq
  -- the input block, and the two rows of statistics stored into the own row
  iapply (wp_load 𝒱₀ (c : Thread nD τ) none Set.univ (m := xM) (Finset.subset_univ _)) $$ Hx; iintro Hx
  rw [read_x]
  ihave Hrowc := (Entails.of_eq (rowPts_loc (F := F) c c fullShare f0)) $$ Hrowc
  iapply (wp_load 𝒱₀ (c : Thread nD τ) none Set.univ (m := gM) (acc1_sub_load c)) $$ Hrowc; iintro Hrowc
  iapply (wp_store 𝒱₀ (c : Thread nD τ) none Set.univ (m := gM) (r := r1 c) (Mk := Finset.univ) (acc1_sub c)) $$ Hrowc; iintro Hrowc
  iapply (wp_load 𝒱₀ (c : Thread nD τ) none Set.univ (m := gM) (acc2_sub_load c)) $$ Hrowc; iintro Hrowc
  iapply (wp_store 𝒱₀ (c : Thread nD τ) none Set.univ (m := gM) (r := r2 c) (Mk := Finset.univ) (acc2_sub c)) $$ Hrowc; iintro Hrowc
  ihave Hrowc := (Entails.of_eq (stored_loc m c f0)) $$ Hrowc
  -- the barrier wait
  iapply (bar_wait m K c (by decide)) $$ [HcB HO HatB]
  · isplitr; · iexact HR
    isplitl [HcB]; · iexact HcB
    isplitl [HO]; · iexact HO
    isplitr; · iexact Hlev
    iexact HatB
  iintro ⟨HO, Hbar⟩
  -- the own row: the left half kept, the right half lent out piece by piece
  ihave Hh := (Entails.of_eq (rowPts_halves_eq (F := F) c c (gbufAt m c c))) $$ Hrowc
  icases Hh with ⟨Hkeep, Hlendable⟩
  ihave Hcs : (bigSep (Finset.Ico 1 1) (fun k => cred (tallyAt (sendCell c k) () N)) : sProp 𝕄) $$ []
  · rw [bigSep_Ico_nil]; iempintro
  -- the fifteen transfers
  enq_at 1 dev16_eq sendSem_at1
  enq_at 2 dev17_eq sendSem_at2
  enq_at 3 dev18_eq sendSem_at3
  enq_at 4 dev19_eq sendSem_at4
  enq_at 5 dev20_eq sendSem_at5
  enq_at 6 dev21_eq sendSem_at6
  enq_at 7 dev22_eq sendSem_at7
  enq_at 8 dev23_eq sendSem_at8
  enq_at 9 dev24_eq sendSem_at9
  enq_at 10 dev25_eq sendSem_at10
  enq_at 11 dev26_eq sendSem_at11
  enq_at 12 dev27_eq sendSem_at12
  enq_at 13 dev28_eq sendSem_at13
  enq_at 14 dev29_eq sendSem_at14
  enq_at 15 dev30_eq sendSem_at15
  -- the shifted exponentials into the result block
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  -- the fifteen receive waits
  ihave HatV1 : (bigSep (Finset.Ico 1 1) (fun k => atPos ER (recvCell c (shift c (16 - k))) 1 ∅ 0) : sProp 𝕄) $$ []
  · rw [bigSep_Ico_nil]; iempintro
  ihave Hgot : (bigSep (Finset.Ico 1 1) (fun k => rowPts (F := F) c (shift c (16 - k)) fullShare (gbufAt m c (shift c (16 - k)))) : sProp 𝕄) $$ []
  · rw [bigSep_Ico_nil]; iempintro
  rw_at 1 recvSem_from1
  rw_at 2 recvSem_from2
  rw_at 3 recvSem_from3
  rw_at 4 recvSem_from4
  rw_at 5 recvSem_from5
  rw_at 6 recvSem_from6
  rw_at 7 recvSem_from7
  rw_at 8 recvSem_from8
  rw_at 9 recvSem_from9
  rw_at 10 recvSem_from10
  rw_at 11 recvSem_from11
  rw_at 12 recvSem_from12
  rw_at 13 recvSem_from13
  rw_at 14 recvSem_from14
  rw_at 15 recvSem_from15
  -- every row at the left half-share: the whole buffer, loaded
  ihave Hg := (Entails.of_eq (got_halves m c)) $$ Hgot
  icases Hg with ⟨HgotL, HgotR⟩
  ihave Hwhole := (Entails.of_eq (whole_of_rows m c fullShare.left)) $$ [Hkeep HgotL]
  · isplitl [Hkeep]; · iexact Hkeep
    iexact HgotL
  iapply (wp_load 𝒱₀ (c : Thread nD τ) none Set.univ (m := gM) (Finset.subset_univ _)) $$ Hwhole; iintro Hwhole
  rw [read_whole_gbuf]
  -- the result
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  -- the fifteen send waits
  ihave HatS1 : (bigSep (Finset.Ico 1 1) (fun k => atPos ER (sendCell c k) 1 ∅ 0) : sProp 𝕄) $$ []
  · rw [bigSep_Ico_nil]; iempintro
  ihave Hback : (bigSep (Finset.Ico 1 1) (fun k => rowPts (F := F) c c (lend k) (gbufAt m c c)) : sProp 𝕄) $$ []
  · rw [bigSep_Ico_nil]; iempintro
  sw_at 1 sendSem_at1
  sw_at 2 sendSem_at2
  sw_at 3 sendSem_at3
  sw_at 4 sendSem_at4
  sw_at 5 sendSem_at5
  sw_at 6 sendSem_at6
  sw_at 7 sendSem_at7
  sw_at 8 sendSem_at8
  sw_at 9 sendSem_at9
  sw_at 10 sendSem_at10
  sw_at 11 sendSem_at11
  sw_at 12 sendSem_at12
  sw_at 13 sendSem_at13
  sw_at 14 sendSem_at14
  sw_at 15 sendSem_at15
  -- the shares rejoined: the own row's right half, then the whole buffer's, then the whole buffer
  ihave Hright := (rowPts_unlend (F := F) c c (gbufAt m c c) 15) $$ [Hlendable Hback]
  · isplitl [Hlendable]; · iexact Hlendable
    iexact Hback
  ihave HwR := (Entails.of_eq (whole_of_rows m c fullShare.right)) $$ [Hright HgotR]
  · isplitl [Hright]; · iexact Hright
    iexact HgotR
  ihave Hscr := (pointsTo_share (PosShare.mem_left_op_right fullShare)).2 $$ [Hwhole HwR]
  · isplitl [Hwhole]; · iexact Hwhole
    iexact HwR
  -- the thirty-two own cells closed
  imod (close_sends m K c) $$ [HatS1 HatS0] with HzS
  · isplitr; · iexact HR
    isplitl [HatS1]; · iexact HatS1
    iexact HatS0
  imod (close_recvs m K c) $$ [HatV1 HatVc] with HzV
  · isplitr; · iexact HR
    isplitl [HatV1]; · iexact HatV1
    iexact HatVc
  rw [wp_ret]; imodintro
  iapply Hk
  unfold bodyPost Φ₁ Dat.owesAt Pipeline.owesWithin
  rw [show (dats m 0 c).owed t₀.succ = 0 from rfl]
  isplitl [Hscr HzS HzV]
  · isplitl [Hscr]; · iexists _; iexact Hscr
    isplitl [HzS]; · iexact HzS
    iexact HzV
  isplitl [HO]
  · unfold owesE; icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

end Body

/-- The obligation's precondition at the one point: the invariant before it, what the device owes, the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof

end
-- ==== Proof.KernelFund.lean ====
/-
  The launch's ghost state: the cells of the protocol and the duty tokens the launch element
  mints, what that element deals each device, and the global step that turns every device's
  semaphores at zero into the cells' invariants and hands each device the tokens of the duties
  it pays.

  Each device has thirty-three cells: its barrier cell, sixteen send cells (offset 0 unused)
  and sixteen receive cells (its own position unused).  The tokens are minted per owner and
  dealt all-to-all: duty `d` of `p`'s barrier cell goes to `shift p d`, the duty of `p`'s receive
  cell for `j` goes to `j`, the duty of a send cell stays with its owner.
-/
import proofs.«901056_g7700000000001057_dist_softmax_colshard_i_m1024_n512_v7x_i16_f32_1_alg».proof.Proof.KernelData
import proofs.«901056_g7700000000001057_dist_softmax_colshard_i_m1024_n512_v7x_i16_f32_1_alg».proof.Proof.KernelRows

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

abbrev osem : Fin 32 → SemLoc sig := fun i => .dma ⟨i.val + 2, by have := i.isLt; show i.val + 2 < 34; omega⟩

theorem ownSemFacts : Pipeline.OwnSemFacts cfg0.spec osem := by decide

/-! ## The cells and the tokens -/

theorem sendSem_inj {k k' : ℕ} (hk : k < 16) (hk' : k' < 16) (h : sendSem k = sendSem k') : k = k' := by
  have := congrArg Fin.val h; rw [sendSem_val, sendSem_val] at this; omega
theorem recvSem_inj {j j' : ℕ} (hj : j < 16) (hj' : j' < 16) (h : recvSem j = recvSem j') : j = j' := by
  have := congrArg Fin.val h; rw [recvSem_val, recvSem_val] at this; omega
theorem sendSem_ne_recvSem (k j : ℕ) : sendSem k ≠ recvSem j := by
  intro h; have := congrArg Fin.val h; rw [sendSem_val, recvSem_val] at this; omega

abbrev CIx : Type := Unit ⊕ (Fin 16 ⊕ Dev nD)

/-- The cells: (owner, which of its thirty-three). -/
def kcell : Dev nD × CIx → GSem nD τ sig
  | (c, .inl _) => barCell c
  | (c, .inr (.inl k)) => sendCell c k.val
  | (c, .inr (.inr j)) => recvCell c j

theorem kcell_injective : Function.Injective kcell := by
  rintro ⟨c, i⟩ ⟨c', i'⟩ h
  have h1 : c = c' := by
    rcases i with _ | k | j <;> rcases i' with _ | k' | j' <;> exact congrArg (fun g : GSem nD τ sig => g.1.1) h
  subst h1
  rcases i with _ | k | j <;> rcases i' with _ | k' | j'
  · rfl
  · exact absurd (congrArg Prod.snd h) (fun e => by cases e)
  · exact absurd (congrArg Prod.snd h) (fun e => by cases e)
  · exact absurd (congrArg Prod.snd h) (fun e => by cases e)
  · have e : sendSem k.val = sendSem k'.val := SemLoc.dma.inj (congrArg Prod.snd h)
    have : k = k' := Fin.ext (sendSem_inj k.isLt k'.isLt e)
    subst this; rfl
  · exact absurd (SemLoc.dma.inj (congrArg Prod.snd h)) (sendSem_ne_recvSem _ _)
  · exact absurd (congrArg Prod.snd h) (fun e => by cases e)
  · exact absurd (SemLoc.dma.inj (congrArg Prod.snd h)).symm (sendSem_ne_recvSem _ _)
  · have e : recvSem j.val = recvSem j'.val := SemLoc.dma.inj (congrArg Prod.snd h)
    have : j = j' := Fin.ext (recvSem_inj j.isLt j'.isLt e)
    subst this; rfl

def ringCells : Finset (GSem nD τ sig) := Finset.univ.map ⟨kcell, kcell_injective⟩

abbrev TIx : Type := Fin 16 ⊕ (Fin 16 ⊕ Dev nD)

/-- The tokens minted: (owner, which duty of which of its cells). -/
def tokOf : Dev nD × TIx → GSem nD τ sig × ℕ × ℕ
  | (c, .inl d) => (barCell c, 0, d.val)
  | (c, .inr (.inl k)) => (sendCell c k.val, 0, 0)
  | (c, .inr (.inr j)) => (recvCell c j, 0, 0)

theorem tokOf_injective : Function.Injective tokOf := by
  rintro ⟨c, i⟩ ⟨c', i'⟩ h
  have h1 : c = c' := by
    rcases i with d | k | j <;> rcases i' with d' | k' | j' <;> exact congrArg (fun x : GSem nD τ sig × ℕ × ℕ => x.1.1.1) h
  subst h1
  rcases i with d | k | j <;> rcases i' with d' | k' | j'
  · have : d = d' := Fin.ext (congrArg (fun x : GSem nD τ sig × ℕ × ℕ => x.2.2) h)
    subst this; rfl
  · exact absurd (congrArg (fun x : GSem nD τ sig × ℕ × ℕ => x.1.2) h) (fun e => by cases e)
  · exact absurd (congrArg (fun x : GSem nD τ sig × ℕ × ℕ => x.1.2) h) (fun e => by cases e)
  · exact absurd (congrArg (fun x : GSem nD τ sig × ℕ × ℕ => x.1.2) h) (fun e => by cases e)
  · have e : sendSem k.val = sendSem k'.val := SemLoc.dma.inj (congrArg (fun x : GSem nD τ sig × ℕ × ℕ => x.1.2) h)
    have : k = k' := Fin.ext (sendSem_inj k.isLt k'.isLt e)
    subst this; rfl
  · exact absurd (SemLoc.dma.inj (congrArg (fun x : GSem nD τ sig × ℕ × ℕ => x.1.2) h)) (sendSem_ne_recvSem _ _)
  · exact absurd (congrArg (fun x : GSem nD τ sig × ℕ × ℕ => x.1.2) h) (fun e => by cases e)
  · exact absurd (SemLoc.dma.inj (congrArg (fun x : GSem nD τ sig × ℕ × ℕ => x.1.2) h)).symm (sendSem_ne_recvSem _ _)
  · have e : recvSem j.val = recvSem j'.val := SemLoc.dma.inj (congrArg (fun x : GSem nD τ sig × ℕ × ℕ => x.1.2) h)
    have : j = j' := Fin.ext (recvSem_inj j.isLt j'.isLt e)
    subst this; rfl

def ringToks : Finset (GSem nD τ sig × ℕ × ℕ) := Finset.univ.map ⟨tokOf, tokOf_injective⟩

def u₀ : UU :=
  (initOf (Pipeline.cells cfgs cellOf_inj) (Pipeline.launchToks cfgs cellOf_inj), initOf ringCells ringToks)

/-- A family of assertions over device `c`'s thirty-three cells. -/
def fam (c : Dev nD) (Φ : GSem nD τ sig → sProp 𝕄) : sProp 𝕄 :=
  iprop(Φ (barCell c) ∗ (bigSep (Finset.range 16) fun k => Φ (sendCell c k)) ∗ bigSep Finset.univ fun j : Dev nD => Φ (recvCell c j))

/-- The duty tokens of device `c`'s own cells. -/
def toks (c : Dev nD) : sProp 𝕄 :=
  iprop((bigSep (Finset.Ico 1 16) fun d => dutyTok ER (barCell c) 0 d)
    ∗ (bigSep (Finset.Ico 1 16) fun k => dutyTok ER (sendCell c k) 0 0)
    ∗ (bigSep (Finset.univ.erase c) fun j : Dev nD => dutyTok ER (recvCell c j) 0 0))

/-- What the launch element deals device `c`. -/
def G (c : Dev nD) : sProp 𝕄 :=
  iprop(fam c (fun g => roundState ER (Rd m) g 0) ∗ fam c (fun g => atPos ER g 0 ∅ 0) ∗ fam c (fun g => reached ER g 0) ∗ toks (F := F) c)

/-- What the global step makes of it. -/
def G' (c : Dev nD) : sProp 𝕄 := iprop(∃ K, ghost m K c)

/-! ## Funding -/

omit [FloatOps F] in
/-- A conjunction over the sixteen offsets, as one over the numbers below sixteen. -/
theorem bigSep_fin16_range (Ψ : ℕ → sProp 𝕄) : (bigSep (Finset.univ : Finset (Fin 16)) fun k => Ψ k.val) = bigSep (Finset.range 16) Ψ := by
  have h : (Finset.univ : Finset (Fin 16)).map Fin.valEmbedding = Finset.range 16 := by decide
  rw [← h, bigSep_map]; rfl

omit [FloatOps F] in
theorem cells_split (Φ : GSem nD τ sig → sProp 𝕄) : bigSep ringCells Φ = bigSep Finset.univ fun c : Dev nD => fam c Φ := by
  unfold ringCells; rw [bigSep_map, bigSep_univ_prod]
  refine bigSep_congr fun c _ => ?_
  rw [bigSep_univ_sum, bigSep_univ_sum, bigSep_univ_of_subsingleton ()]
  unfold fam
  rw [← bigSep_fin16_range]; rfl

omit [FloatOps F] in
theorem toks_split : bigSep ringToks (fun x => (dutyTok ER x.1 x.2.1 x.2.2 : sProp 𝕄)) ⊢ bigSep Finset.univ fun c : Dev nD => toks (F := F) c := by
  unfold ringToks; rw [bigSep_map, bigSep_univ_prod]
  refine bigSep_mono fun c _ => ?_
  rw [bigSep_univ_sum, bigSep_univ_sum]
  unfold toks
  refine sep_mono ?_ (sep_mono ?_ ?_)
  · exact (Entails.of_eq (bigSep_fin16_range (fun d => (dutyTok ER (barCell c) 0 d : sProp 𝕄)))).trans (bigSep_subset (by decide))
  · exact (Entails.of_eq (bigSep_fin16_range (fun k => (dutyTok ER (sendCell c k) 0 0 : sProp 𝕄)))).trans (bigSep_subset (by decide))
  · exact bigSep_subset (Finset.erase_subset _ _)

theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst' := (Entails.of_eq (cells_split fun g => roundState ER (Rd m) g 0)) $$ Hst
  ihave Hat' := (Entails.of_eq (cells_split (F := F) fun g => atPos ER g 0 ∅ 0)) $$ Hat
  ihave Hr' := (Entails.of_eq (cells_split (F := F) fun g => reached ER g 0)) $$ Hr
  ihave Htok' := (toks_split (F := F)) $$ Htok
  unfold G; simp only [bigSep_sep']
  isplitl [Hst']; · iexact Hst'
  isplitl [Hat']; · iexact Hat'
  isplitl [Hr']; · iexact Hr'
  iexact Htok'

/-- The launch element: the pipeline's copy untouched, the protocol's copy dealt to the devices. -/
theorem fund_all : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The semaphores at zero -/

theorem osem_send : ∀ k : Fin 16, osem (finSumFinEquiv (m := 16) (n := 16) (Sum.inl k)) = SemLoc.dma (sendSem k.val) := by decide
theorem osem_recv : ∀ j : Fin 16, osem (finSumFinEquiv (m := 16) (n := 16) (Sum.inr j)) = SemLoc.dma (recvSem j.val) := by decide

omit [FloatOps F] in
/-- The kernel's own semaphores are its sixteen send and sixteen receive semaphores; -/
theorem ownSems0_eq (c : Dev nD) : (Pipeline.ownSems0 (Ix := Unit) (Name := ℕ) (U := UU) (Lvl := ℕ) (Val := Elt F) (τ := τ) osem c : sProp 𝕄)
    = iprop((bigSep (Finset.range 16) fun k => semVal (sendCell c k) 0) ∗ (bigSep Finset.univ fun j : Dev nD => semVal (recvCell c j) 0)) := by
  unfold Pipeline.ownSems0
  rw [bigSep_univ_equiv (finSumFinEquiv (m := 16) (n := 16)) (fun i : Fin 32 => (semVal (((c : Thread nD τ)), osem i) 0 : sProp 𝕄)), bigSep_univ_sum,
    ← bigSep_fin16_range (fun k => (semVal (sendCell c k) 0 : sProp 𝕄))]
  congr 1 <;> (refine bigSep_congr fun k _ => ?_; first | rw [osem_send] | rw [osem_recv])

omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens dealt all-to-all -/

omit [FloatOps F] in
/-- The devices other than `c`, by their offsets `1 … 15` after it. -/
theorem bigSep_erase_shift (c : Dev nD) (Φ : Dev nD → sProp 𝕄) :
    bigSep (Finset.univ.erase c) Φ = bigSep (Finset.Ico 1 16) (fun k => Φ (shift c k)) := by
  have h : (Finset.univ.erase c : Finset (Dev nD)) = (Finset.Ico 1 16).image (shift c) := by
    ext p
    simp only [Finset.mem_erase, Finset.mem_univ, and_true, Finset.mem_image, Finset.mem_Ico]
    constructor
    · intro hp
      obtain ⟨k, h1, h2, e⟩ := exists_shift c p hp
      exact ⟨k, ⟨h1, by omega⟩, e⟩
    · rintro ⟨k, ⟨h1, h2⟩, rfl⟩
      exact shift_ne c k h1 (by omega)
  rw [h]
  exact bigSep_image_of_injOn (fun x hx y hy e => shift_inj c (Finset.mem_Ico.mp hx).2 (Finset.mem_Ico.mp hy).2 e) Φ

/-- How many places after `p` the device `q` sits. -/
def off (p q : Dev nD) : ℕ := (q.val + 16 - p.val) % 16

theorem off_shift (p : Dev nD) (k : ℕ) (h1 : 1 ≤ k) (h2 : k ≤ 15) : off p (shift p k) = k := by
  unfold off; rw [shift_val]; have hp := p.isLt; change p.val < 16 at hp; omega
theorem off_back (c : Dev nD) (k : ℕ) (h1 : 1 ≤ k) (h2 : k ≤ 15) : off (shift c k) c = 16 - k := by
  unfold off; rw [shift_val]; have hc := c.isLt; change c.val < 16 at hc; omega

/-- The tokens of the duties device `c` pays. -/
def payToks (c : Dev nD) : sProp 𝕄 :=
  iprop((bigSep (Finset.Ico 1 16) fun k => dutyTok ER (barCell (shift c k)) 0 (16 - k))
    ∗ (bigSep (Finset.Ico 1 16) fun k => dutyTok ER (recvCell (shift c k) c) 0 0)
    ∗ (bigSep (Finset.Ico 1 16) fun k => dutyTok ER (sendCell c k) 0 0))

omit [FloatOps F] in
/-- Duty `d` of `p`'s barrier cell goes to `shift p d`: device `c` gets duty `16 - k` of `shift c k`. -/
theorem bar_around : (bigSep Finset.univ fun p : Dev nD => bigSep (Finset.Ico 1 16) fun d => (dutyTok ER (barCell p) 0 d : sProp 𝕄))
    = bigSep Finset.univ fun c : Dev nD => bigSep (Finset.Ico 1 16) fun k => dutyTok ER (barCell (shift c k)) 0 (16 - k) := by
  have h1 : ∀ p : Dev nD, (bigSep (Finset.Ico 1 16) fun d => (dutyTok ER (barCell p) 0 d : sProp 𝕄))
      = bigSep (Finset.univ.erase p) fun q => dutyTok ER (barCell p) 0 (off p q) := fun p => by
    rw [bigSep_erase_shift p (fun q => (dutyTok ER (barCell p) 0 (off p q) : sProp 𝕄))]
    exact bigSep_congr fun k hk => by
      have := Finset.mem_Ico.mp hk
      rw [off_shift p k this.1 (by omega)]
  have h2 : ∀ c : Dev nD, (bigSep (Finset.univ.erase c) fun p => (dutyTok ER (barCell p) 0 (off p c) : sProp 𝕄))
      = bigSep (Finset.Ico 1 16) fun k => dutyTok ER (barCell (shift c k)) 0 (16 - k) := fun c => by
    rw [bigSep_erase_shift c (fun p => (dutyTok ER (barCell p) 0 (off p c) : sProp 𝕄))]
    exact bigSep_congr fun k hk => by
      have := Finset.mem_Ico.mp hk
      rw [off_back c k this.1 (by omega)]
  rw [bigSep_congr fun p _ => h1 p, bigSep_erase_comm (fun p q : Dev nD => (dutyTok ER (barCell p) 0 (off p q) : sProp 𝕄))]
  exact bigSep_congr fun c _ => h2 c

omit [FloatOps F] in
/-- The duty of `p`'s receive cell for `j` goes to `j`. -/
theorem recv_around : (bigSep Finset.univ fun p : Dev nD => bigSep (Finset.univ.erase p) fun j : Dev nD => (dutyTok ER (recvCell p j) 0 0 : sProp 𝕄))
    = bigSep Finset.univ fun c : Dev nD => bigSep (Finset.Ico 1 16) fun k => dutyTok ER (recvCell (shift c k) c) 0 0 := by
  rw [bigSep_erase_comm (fun p j : Dev nD => (dutyTok ER (recvCell p j) 0 0 : sProp 𝕄))]
  exact bigSep_congr fun c _ => bigSep_erase_shift c (fun p => (dutyTok ER (recvCell p c) 0 0 : sProp 𝕄))

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]
  iintro ⟨H1, H2, H3⟩
  isplitl [H1]; · iexact H1
  isplitl [H3]; · iexact H3
  iexact H2

/-! ## The global step -/

omit [FloatOps F] in
theorem sems_dev (c : Dev nD) :
    iprop(Pipeline.ownSems0 (Ix := Unit) (Name := ℕ) (U := UU) (Lvl := ℕ) (Val := Elt F) (τ := τ) osem c ∗ unscopedSems0 c)
      ⊢ (fam c fun g => semVal g 0 : sProp 𝕄) := by
  rw [ownSems0_eq, unscopedSems0_eq]; unfold fam
  iintro ⟨⟨HS, HV⟩, HB⟩
  isplitl [HB]; · iexact HB
  isplitl [HS] <;> iassumption

omit [FloatOps F] in
theorem sems_all :
    iprop((bigSep Finset.univ fun c : Dev nD => Pipeline.ownSems0 (Ix := Unit) (Name := ℕ) (U := UU) (Lvl := ℕ) (Val := Elt F) (τ := τ) osem c)
        ∗ (bigSep Finset.univ fun c : Dev nD => unscopedSems0 c))
      ⊢ (bigSep ringCells fun g => semVal g 0 : sProp 𝕄) := by
  rw [cells_split, ← bigSep_sep']
  exact bigSep_mono fun c _ => sems_dev c

/-- The names of the cells' invariants, read off one choice for every cell. -/
def Kof (κ : GSem nD τ sig → ℕ) : Names := ⟨fun d => κ (barCell d), fun d k => κ (sendCell d k), fun d j => κ (recvCell d j)⟩

omit [FloatOps F] in
theorem fam_sep (c : Dev nD) (Φ Ψ : GSem nD τ sig → sProp 𝕄) : iprop(fam c Φ ∗ fam c Ψ) ⊢ fam c (fun g => iprop(Φ g ∗ Ψ g)) := by
  unfold fam; rw [bigSep_sep', bigSep_sep']
  iintro ⟨⟨A, B, C⟩, ⟨A', B', C'⟩⟩
  isplitl [A A']; · isplitl [A] <;> iassumption
  isplitl [B B']; · isplitl [B] <;> iassumption
  isplitl [C] <;> iassumption

theorem records_eq (κ : GSem nD τ sig → ℕ) :
    records m (Kof κ) = bigSep Finset.univ fun d : Dev nD => fam d (fun g => iprop(cellInv ER (Rd m) (κ g) g ∗ reached ER g 0)) := by
  unfold records fam; rw [← bigSep_sep', ← bigSep_sep']; rfl

omit [FloatOps F] in
theorem bigSep_range16 (Ψ : ℕ → sProp 𝕄) : bigSep (Finset.range 16) Ψ = iprop(Ψ 0 ∗ bigSep (Finset.Ico 1 16) Ψ) := by
  rw [show Finset.range 16 = insert 0 (Finset.Ico 1 16) from by decide, bigSep_insert (by decide)]; rfl

theorem linear_intro (c : Dev nD) : iprop(fam c (fun g => atPos ER g 0 ∅ 0) ∗ payToks c) ⊢ linear (F := F) c := by
  unfold fam payToks linear
  rw [bigSep_dev_back c (fun j => (atPos ER (recvCell c j) 0 ∅ 0 : sProp 𝕄)), bigSep_range16]
  iintro ⟨⟨HaB, ⟨HaS0, HaS⟩, ⟨HaRc, HaR⟩⟩, HtB, HtR, HtS⟩
  isplitl [HaB]; · iexact HaB
  isplitl [HaS]; · iexact HaS
  isplitl [HaS0]; · iexact HaS0
  isplitl [HaR]; · iexact HaR
  isplitl [HaRc]; · iexact HaRc
  isplitl [HtB]; · iexact HtB
  isplitl [HtR]; · iexact HtR
  iexact HtS

theorem regroup (κ : GSem nD τ sig → ℕ) :
    iprop((bigSep Finset.univ fun c : Dev nD => fam c (fun g => cellInv ER (Rd m) (κ g) g))
        ∗ (bigSep Finset.univ fun c : Dev nD => fam c (fun g => (atPos ER g 0 ∅ 0 : sProp 𝕄)))
        ∗ (bigSep Finset.univ fun c : Dev nD => fam c (fun g => (reached ER g 0 : sProp 𝕄)))
        ∗ (bigSep Finset.univ fun c : Dev nD => toks (F := F) c))
      ⊢ bigSep Finset.univ (G' m) := by
  iintro ⟨HI, Hat, HR, Htok⟩
  ihave Hrec := (show iprop((bigSep Finset.univ fun c : Dev nD => fam c (fun g => cellInv ER (Rd m) (κ g) g))
        ∗ (bigSep Finset.univ fun c : Dev nD => fam c (fun g => (reached ER g 0 : sProp 𝕄)))) ⊢ records m (Kof κ) from by
      rw [records_eq, ← bigSep_sep']
      exact bigSep_mono fun c _ => fam_sep c _ _) $$ [HI HR]
  · isplitl [HI] <;> iassumption
  icases Hrec with #Hrec
  ihave Htk := (toks_around (F := F)) $$ Htok
  iapply (bigSep_with_persistent (R := records m (Kof κ)) (Φ := fun c : Dev nD => iprop(fam c (fun g => (atPos ER g 0 ∅ 0 : sProp 𝕄)) ∗ payToks c)) fun c _ => by
    unfold G' ghost
    iintro ⟨#Hr, Hl⟩
    iexists (Kof κ)
    isplitr; · iexact Hr
    iapply (linear_intro (F := F) c); iexact Hl)
  isplitr; · iexact Hrec
  rw [bigSep_sep']
  isplitl [Hat] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  unfold G
  simp only [bigSep_sep']
  iintro ⟨Hos, Hus, Hst, Hat, Hr, Htok⟩
  ihave Hv := (sems_all (F := F)) $$ [Hos Hus]
  · isplitl [Hos] <;> iassumption
  ihave Hst' := (Entails.of_eq (cells_split fun g => roundState ER (Rd m) g 0).symm) $$ Hst
  ihave Hb := (bodies_intro ER (Rd m) ringCells) $$ [Hv Hst']
  · isplitl [Hv] <;> iassumption
  imod (inv_alloc_family ringCells (body ER (Rd m)) ∅) $$ Hb with ⟨%κ, -, Hinv⟩
  imodintro
  ihave Hinv' := (Entails.of_eq (cells_split fun g => cellInv ER (Rd m) (κ g) g)) $$ Hinv
  iapply (regroup m κ)
  isplitl [Hinv']; · iexact Hinv'
  isplitl [Hat]; · iexact Hat
  isplitl [Hr]; · iexact Hr
  iexact Htok

/-- info: 'Cert.KernelProof.glob' depends on axioms: [propext, Classical.choice, Quot.sound] -/
#guard_msgs in #print axioms glob

/-- info: 'Cert.KernelProof.ownSems0_eq' depends on axioms: [propext, Classical.choice, Quot.sound] -/
#guard_msgs in #print axioms ownSems0_eq

/-- info: 'Cert.KernelProof.fund_all' depends on axioms: [propext, Classical.choice, Quot.sound] -/
#guard_msgs in #print axioms fund_all

end Cert.KernelProof

end
-- ==== Proof.KernelLaunch.lean ====
/-
  The launch of the sixteen-device softmax: what each device owes at launch lies above the level of
  every staging wait, the credit the launch deals each device for what the others owe its cells
  (fifteen units on its barrier cell, one row's credit on each receive cell of another device's row),
  the launch theorem's side conditions, the run, and the final arrays.
-/
import proofs.«901056_g7700000000001057_dist_softmax_colshard_i_m1024_n512_v7x_i16_f32_1_alg».proof.Proof.KernelFund
import proofs.«901056_g7700000000001057_dist_softmax_colshard_i_m1024_n512_v7x_i16_f32_1_alg».proof.Proof.Gen.Kernel.Points

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

private theorem OwR_pos {c : Dev nD} {g : GSem nD τ sig} {u : Unit} : ∀ n, n ≤ 15 → 0 < OwR c n g u →
    ∃ k, 1 ≤ k ∧ k ≤ 15 ∧ g = recvCell (shift c k) c
  | 0, _, h => absurd h (Nat.lt_irrefl 0)
  | n + 1, hn, h => by
    rcases Pipeline.add_pos_cases (D₁ := OwR c n) (D₂ := tallyAt (recvCell (shift c (15 - n)) c) () N) h with h | h
    · exact OwR_pos n (by omega) h
    · exact ⟨15 - n, by omega, by omega, (Pipeline.tallyAt_pos h).1⟩

private theorem OwS_pos {c : Dev nD} {g : GSem nD τ sig} {u : Unit} : ∀ n, n ≤ 15 → 0 < OwS c n g u →
    (∃ k, 1 ≤ k ∧ k ≤ 15 ∧ g = recvCell (shift c k) c) ∨ (∃ k, 1 ≤ k ∧ k ≤ 15 ∧ g = barCell (shift c k))
  | 0, _, h => Or.inl (OwR_pos 15 (Nat.le_refl _) h)
  | n + 1, hn, h => by
    rcases Pipeline.add_pos_cases (D₁ := OwS c n) (D₂ := tallyAt (barCell (shift c (15 - n))) () 1) h with h | h
    · exact OwS_pos n (by omega) h
    · exact Or.inr ⟨15 - n, by omega, by omega, (Pipeline.tallyAt_pos h).1⟩

/-- Whatever a device owes at launch is owed to a receive cell or to the barrier cell of one of its fifteen peers. -/
theorem O₀_pos {c : Dev nD} {g : GSem nD τ sig} {u : Unit} (h : 0 < O₀ c g u) :
    (∃ k, 1 ≤ k ∧ k ≤ 15 ∧ g = recvCell (shift c k) c) ∨ (∃ k, 1 ≤ k ∧ k ≤ 15 ∧ g = barCell (shift c k)) :=
  OwS_pos 15 (Nat.le_refl _) h

private theorem lv_recv (a j : Dev nD) (u : Unit) : lv (recvCell a j) u = 2 := by
  dsimp only [lv]; rw [if_pos (by rw [recvSem_val]; omega)]
private theorem lv_bar (a : Dev nD) (u : Unit) : lv (barCell a) u = 1 := by
  dsimp only [lv]; rw [if_pos rfl]

/-- A wait on a semaphore below the receive semaphores (staging and send semaphores: level 0) lies below everything
    owed at launch (barrier cells at level 1, receive cells at level 2). -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (by rw [L_tc]; exact Finset.mem_singleton_self _) fun g i hg => ?_
    have h0 : lv ((c : Thread nD τ), SemLoc.dma q) () = 0 := by dsimp only [lv]; rw [if_neg (by omega)]
    rcases O₀_pos hg with ⟨k, _, _, rfl⟩ | ⟨k, _, _, rfl⟩
    · exact ⟨by rw [L_tc]; exact Finset.mem_singleton_self _, by rw [h0, lv_recv]; decide⟩
    · exact ⟨by rw [L_tc]; exact Finset.mem_singleton_self _, by rw [h0, lv_bar]; decide⟩
  · rw [MayWait_zero]; iintro -; iempintro

/-! ## The launch credit -/

private theorem recvSem_dev_inj {a b : Dev nD} (h : recvSem a.val = recvSem b.val) : a = b := by
  have ha := a.isLt; have hb := b.isLt; change a.val < 16 at ha; change b.val < 16 at hb
  have := congrArg Fin.val h; rw [recvSem_val, recvSem_val] at this
  exact Fin.ext (by omega)

private theorem bar_eq_iff {a b : Dev nD} : Iff (barCell a = barCell b) (a = b) :=
  ⟨fun h => Fin.ext (congrArg (fun g : GSem nD τ sig => g.1.1.val) h), fun h => h ▸ rfl⟩

private theorem recv_eq_iff {a b j j' : Dev nD} : Iff (recvCell a j = recvCell b j') (a = b ∧ j = j') :=
  ⟨fun h => ⟨Fin.ext (congrArg (fun g : GSem nD τ sig => g.1.1.val) h),
      recvSem_dev_inj (SemLoc.dma.inj (congrArg Prod.snd h))⟩, fun h => h.1 ▸ h.2 ▸ rfl⟩

private theorem recv_ne_bar (a j b : Dev nD) : recvCell a j ≠ barCell b := fun h => by
  have := congrArg Prod.snd h; cases this
private theorem bar_ne_recv (a j b : Dev nD) : barCell b ≠ recvCell a j := fun h => recv_ne_bar a j b h.symm

private theorem shift_eq_iff (d c : Dev nD) (k : ℕ) (hk : k ≤ 16) : Iff (shift d k = c) (d = shift c (16 - k)) := by
  have hd := d.isLt; have hc := c.isLt; change d.val < 16 at hd; change c.val < 16 at hc
  constructor
  · intro h; have := congrArg Fin.val h; rw [shift_val] at this
    apply Fin.ext; rw [shift_val]; omega
  · intro h; have := congrArg Fin.val h; rw [shift_val] at this
    apply Fin.ext; rw [shift_val]; omega

private theorem OwR_eq (c : Dev nD) : ∀ n, OwR c n = ∑ i ∈ Finset.range n, tallyAt (recvCell (shift c (15 - i)) c) () N
  | 0 => rfl
  | n + 1 => by rw [Finset.sum_range_succ, ← OwR_eq c n]; rfl

private theorem OwS_eq (c : Dev nD) : ∀ n, OwS c n = OwR c 15 + ∑ i ∈ Finset.range n, tallyAt (barCell (shift c (15 - i))) () 1
  | 0 => by rw [Finset.sum_range_zero, add_zero]; rfl
  | n + 1 => by rw [Finset.sum_range_succ, ← add_assoc, ← OwS_eq c n]; rfl

private theorem O₀_apply (d : Dev nD) (g : GSem nD τ sig) :
    O₀ d g () = (∑ i ∈ Finset.range 15, tallyAt (recvCell (shift d (15 - i)) d) () N g ())
      + ∑ i ∈ Finset.range 15, tallyAt (barCell (shift d (15 - i))) () 1 g () := by
  unfold O₀
  rw [OwS_eq, OwR_eq, Pi.add_apply, Finsupp.add_apply, Finset.sum_apply, Finset.sum_apply, Finsupp.finset_sum_apply, Finsupp.finset_sum_apply]

/-- What device `d` owes device `c`'s barrier cell: one unit for each offset that leads from `d` to `c`. -/
theorem owed_bar (d c : Dev nD) : O₀ d (barCell c) () = ∑ i ∈ Finset.range 15, if d = shift c (16 - (15 - i)) then 1 else 0 := by
  rw [O₀_apply, Finset.sum_eq_zero (fun i _ => by rw [tallyAt_ne_cell (bar_ne_recv _ _ _)]; rfl), Nat.zero_add]
  refine Finset.sum_congr rfl fun i _ => ?_
  rw [tallyAt_apply]
  by_cases h : d = shift c (16 - (15 - i))
  · rw [if_pos h, if_pos ⟨(bar_eq_iff.mpr ((shift_eq_iff d c (15 - i) (by omega)).mpr h)).symm, rfl⟩]
  · rw [if_neg h, if_neg fun h' => h ((shift_eq_iff d c (15 - i) (by omega)).mp (bar_eq_iff.mp h'.1).symm)]

/-- What device `d` owes device `c`'s receive cell for row `j`: that row's credit when `d = j`, at the offset from `j` to `c`. -/
theorem owed_recv (d c j : Dev nD) : O₀ d (recvCell c j) () = ∑ i ∈ Finset.range 15, if shift d (15 - i) = c ∧ d = j then N else 0 := by
  rw [O₀_apply, Finset.sum_eq_zero (s := Finset.range 15) (f := fun i => tallyAt (barCell (shift d (15 - i))) () 1 (recvCell c j) ())
    (fun i _ => by rw [tallyAt_ne_cell (recv_ne_bar _ _ _)]; rfl), Nat.add_zero]
  refine Finset.sum_congr rfl fun i _ => ?_
  rw [tallyAt_apply]
  by_cases h : shift d (15 - i) = c ∧ d = j
  · rw [if_pos h, if_pos ⟨recv_eq_iff.mpr ⟨h.1.symm, h.2.symm⟩, rfl⟩]
  · rw [if_neg h, if_neg fun h' => h ⟨(recv_eq_iff.mp h'.1).1.symm, (recv_eq_iff.mp h'.1).2.symm⟩]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (shift c (16 - (15 - i))) fun _ => 1]
  simp only [Finset.mem_univ, if_true, Finset.sum_const, Finset.card_range, smul_eq_mul, Nat.mul_one]

theorem launch_recv (c : Dev nD) (k : ℕ) (h1 : 1 ≤ k) (h2 : k ≤ 15) :
    tallyOn (recvCell c (shift c (16 - k))) (launchCredit (Pipeline.owing O₀) 0 (recvCell c (shift c (16 - k))))
      = (tallyAt (recvCell c (shift c (16 - k))) () N : CellTallies nD τ sig Unit) := by
  unfold tallyAt; refine congrArg _ (Finsupp.ext fun u => ?_); cases u
  rw [Pipeline.launchCredit_owing, Finsupp.single_eq_same, Finset.sum_congr rfl fun d _ => owed_recv d c (shift c (16 - k)),
    Fintype.sum_eq_single (shift c (16 - k)) (fun d hd => Finset.sum_eq_zero fun i _ => if_neg fun h => hd h.2),
    Finset.sum_eq_single (15 - k)
      (fun i hi hne => if_neg fun h => hne (by
        have hc := c.isLt; change c.val < 16 at hc
        have := congrArg Fin.val h.1; rw [shift_val, shift_val] at this
        have := Finset.mem_range.mp hi; omega))
      (fun hn => absurd (Finset.mem_range.mpr (by omega)) hn),
    if_pos ⟨by rw [show 15 - (15 - k) = 16 - (16 - k) by omega]; exact shift_shift_back c (16 - k) (by omega), rfl⟩]

/-- The launch deals device `c` fifteen units of credit on its barrier cell and one row's credit on each of its
    fifteen receive cells for another device's row. -/
theorem creds (c : Dev nD) :
    (Pipeline.launchCred O₀ c : sProp 𝕄) ⊢ iprop(cred (tallyAt (barCell c) () 15)
      ∗ bigSep (Finset.Ico 1 16) fun k => cred (tallyAt (recvCell c (shift c (16 - k))) () N)) := by
  unfold Pipeline.launchCred
  rw [bigSep_univ_at _ (SemLoc.reg barS), launch_bar]
  refine sep_mono_right ?_
  have hinj : Set.InjOn (fun k : ℕ => (SemLoc.dma (recvSem (shift c (16 - k)).val) : SemLoc sig)) (Finset.Ico 1 16 : Finset ℕ) := fun k hk k' hk' h => by
    have hk := Finset.mem_Ico.mp (Finset.mem_coe.mp hk); have hk' := Finset.mem_Ico.mp (Finset.mem_coe.mp hk')
    have := shift_inj c (by omega) (by omega) (recvSem_dev_inj (SemLoc.dma.inj h)); omega
  refine (bigSep_subset (t := (Finset.Ico 1 16).image fun k : ℕ => (SemLoc.dma (recvSem (shift c (16 - k)).val) : SemLoc sig)) fun sm hsm => ?_).trans ?_
  · obtain ⟨k, _, rfl⟩ := Finset.mem_image.mp hsm
    exact Finset.mem_erase.mpr ⟨(by intro h; cases h), Finset.mem_univ _⟩
  · rw [bigSep_image_of_injOn hinj]
    refine bigSep_mono fun k hk => ?_
    have hk := Finset.mem_Ico.mp hk
    rw [launch_recv c k hk.1 (by omega)]
    exact .refl _

/-! ## The launch theorem's side conditions -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: given each
    device's body obligation, every weakly fair execution of @main terminates, and every final state has each
    device's windowed arrays at the contents the proof data name. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-! ## The final arrays -/

/-- The input array is never written back: it holds what it held. -/
theorem finalA_x (c : Dev nD) : (dats m 0 c).arrAt (0 : Fin 2) cfg0.N = m ((c : Thread nD τ).loc main_arg0) :=
  (dats (F := F) m 0 c).arrAt_in (0 : Fin 2) rfl _

/-- The one block of the input is the whole array. -/
private theorem xblk_eq (c : Dev nD) : xblk m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

/-- The result array after the run, read through its one block: what the body left at the one point. -/
private theorem final_out (c : Dev nD) :
    ((cfg0.win (1 : Fin 2)).blk t0_0).view.read (Elt F) ((dats (F := F) m 0 c).arrAt (1 : Fin 2) cfg0.N)
      = (dats (F := F) m 0 c).flushed (1 : Fin 2) t0_0 := by
  rw [show cfg0.N = (t0_0 : Fin cfg0.N).val + 1 from rfl, (dats (F := F) m 0 c).arrAt_succ (1 : Fin 2) t0_0, if_pos (flush0_1 _)]
  exact View.read_write_univ _ _

/-- The result array after the run holds the rescaled exponentials of the device's block. -/
theorem finalA_out (c : Dev nD) :
    (dats (F := F) m 0 c).arrAt (1 : Fin 2) cfg0.N = outAt (fun d : Dev nD => m ((d : Thread nD τ).loc main_arg0)) c := by
  have ho := final_out (F := F) m c
  have hz : (fun a => (win0_1.index t0_0) a * main_v1.ty.shape.size a) = fun _ => 0 := funext fun a => by fin_cases a <;> decide
  have hr := Memref.read_access_unit_zero (Elt F) main_v1 hz (fun a => by fin_cases a <;> decide) ((dats (F := F) m 0 c).arrAt (1 : Fin 2) cfg0.N)
  have hx : xblk m = fun d : Dev nD => m ((d : Thread nD τ).loc main_arg0) := funext fun d => xblk_eq m d
  rw [← hx]
  exact hr.symm.trans ho

theorem run_values (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c : Thread nD τ).loc main_v1) = outAt (fun d : Dev nD => m ((d : Thread nD τ).loc main_arg0)) c
      ∧ r.2.mem ((c : Thread nD τ).loc main_arg0) = m ((c : Thread nD τ).loc main_arg0)) :=
  (θ_run defs _ _).mono (fun r h c => ⟨(h c (1 : Fin 2)).trans (finalA_out m c), (h c (0 : Fin 2)).trans (finalA_x m c)⟩) (run_main m hbody ρ)

/-- info: 'Cert.KernelProof.run_values' depends on axioms: [propext, Classical.choice, Quot.sound] -/
#guard_msgs in #print axioms run_values

end Cert.KernelProof

end
-- ==== Proof.KernelIdealMesh.lean ====
/-
  The ring of sixteen devices: the device `k` places after `c`, and the closed forms of the
  kernel's device-id chains, of its row offsets into the gather buffer and of the semaphores it
  slices out of its two semaphore arrays.  The fifteen signals and the fifteen transfers of
  device `c` go to `shift c 1 … shift c 15`; the fifteen receive waits read rows
  `shift c 15 … shift c 1` (row `(c - k) mod 16` at step `k`).
-/
import proofs.«901056_g7700000000001057_dist_softmax_colshard_i_m1024_n512_v7x_i16_f32_1_alg».proof.Proof.Gen.KernelIdeal
import Idealize.ShloMosaic.Lib.Decide

set_option synthInstance.maxSize 4096
set_option Elab.async false

namespace Cert.KernelIdealProof

open Idealize.ShloMosaic Cert.KernelIdeal Cert.KernelIdeal.Gen

/-- The device `k` places after `c` around the ring. -/
def shift (c : Dev nD) (k : ℕ) : Dev nD := ⟨(c.val + k) % 16, Nat.mod_lt _ (by decide)⟩

theorem shift_val (c : Dev nD) (k : ℕ) : (shift c k).val = (c.val + k) % 16 := rfl

theorem shift_shift_back (c : Dev nD) (k : ℕ) (hk : k ≤ 16) : shift (shift c k) (16 - k) = c := by
  apply Fin.ext; show ((c.val + k) % 16 + (16 - k)) % 16 = c.val
  have := c.isLt; change c.val < 16 at this; omega

theorem shift_ne (c : Dev nD) (k : ℕ) (h1 : 1 ≤ k) (h2 : k ≤ 15) : shift c k ≠ c := by
  intro h; have := congrArg Fin.val h; rw [shift_val] at this
  have hc := c.isLt; change c.val < 16 at hc; omega

theorem shift_inj (c : Dev nD) {k k' : ℕ} (hk : k < 16) (hk' : k' < 16) (h : shift c k = shift c k') : k = k' := by
  have := congrArg Fin.val h; rw [shift_val, shift_val] at this
  have hc := c.isLt; change c.val < 16 at hc; omega

/-- Every device other than `c` is `shift c k` for exactly one `k` in `1 … 15`. -/
theorem exists_shift (c p : Dev nD) (h : p ≠ c) : ∃ k, 1 ≤ k ∧ k ≤ 15 ∧ shift c k = p := by
  have hc := c.isLt; have hp := p.isLt; change c.val < 16 at hc; change p.val < 16 at hp
  refine ⟨(p.val + 16 - c.val) % 16, ?_, ?_, ?_⟩
  · have : p.val ≠ c.val := fun e => h (Fin.ext e); omega
  · omega
  · apply Fin.ext; rw [shift_val]; omega

/-! ## The device-id chains -/
theorem k0_dev1_val : ∀ c : Dev nD, k0_dev1 c = (c.val + 1) % 16 := by decide +kernel
theorem dev1_eq (c : Dev nD) : (⟨k0_dev1 c, k0_dev1_lt c⟩ : Dev nD) = shift c 1 := Fin.ext (k0_dev1_val c)
theorem k0_dev2_val : ∀ c : Dev nD, k0_dev2 c = (c.val + 2) % 16 := by decide +kernel
theorem dev2_eq (c : Dev nD) : (⟨k0_dev2 c, k0_dev2_lt c⟩ : Dev nD) = shift c 2 := Fin.ext (k0_dev2_val c)
theorem k0_dev3_val : ∀ c : Dev nD, k0_dev3 c = (c.val + 3) % 16 := by decide +kernel
theorem dev3_eq (c : Dev nD) : (⟨k0_dev3 c, k0_dev3_lt c⟩ : Dev nD) = shift c 3 := Fin.ext (k0_dev3_val c)
theorem k0_dev4_val : ∀ c : Dev nD, k0_dev4 c = (c.val + 4) % 16 := by decide +kernel
theorem dev4_eq (c : Dev nD) : (⟨k0_dev4 c, k0_dev4_lt c⟩ : Dev nD) = shift c 4 := Fin.ext (k0_dev4_val c)
theorem k0_dev5_val : ∀ c : Dev nD, k0_dev5 c = (c.val + 5) % 16 := by decide +kernel
theorem dev5_eq (c : Dev nD) : (⟨k0_dev5 c, k0_dev5_lt c⟩ : Dev nD) = shift c 5 := Fin.ext (k0_dev5_val c)
theorem k0_dev6_val : ∀ c : Dev nD, k0_dev6 c = (c.val + 6) % 16 := by decide +kernel
theorem dev6_eq (c : Dev nD) : (⟨k0_dev6 c, k0_dev6_lt c⟩ : Dev nD) = shift c 6 := Fin.ext (k0_dev6_val c)
theorem k0_dev7_val : ∀ c : Dev nD, k0_dev7 c = (c.val + 7) % 16 := by decide +kernel
theorem dev7_eq (c : Dev nD) : (⟨k0_dev7 c, k0_dev7_lt c⟩ : Dev nD) = shift c 7 := Fin.ext (k0_dev7_val c)
theorem k0_dev8_val : ∀ c : Dev nD, k0_dev8 c = (c.val + 8) % 16 := by decide +kernel
theorem dev8_eq (c : Dev nD) : (⟨k0_dev8 c, k0_dev8_lt c⟩ : Dev nD) = shift c 8 := Fin.ext (k0_dev8_val c)
theorem k0_dev9_val : ∀ c : Dev nD, k0_dev9 c = (c.val + 9) % 16 := by decide +kernel
theorem dev9_eq (c : Dev nD) : (⟨k0_dev9 c, k0_dev9_lt c⟩ : Dev nD) = shift c 9 := Fin.ext (k0_dev9_val c)
theorem k0_dev10_val : ∀ c : Dev nD, k0_dev10 c = (c.val + 10) % 16 := by decide +kernel
theorem dev10_eq (c : Dev nD) : (⟨k0_dev10 c, k0_dev10_lt c⟩ : Dev nD) = shift c 10 := Fin.ext (k0_dev10_val c)
theorem k0_dev11_val : ∀ c : Dev nD, k0_dev11 c = (c.val + 11) % 16 := by decide +kernel
theorem dev11_eq (c : Dev nD) : (⟨k0_dev11 c, k0_dev11_lt c⟩ : Dev nD) = shift c 11 := Fin.ext (k0_dev11_val c)
theorem k0_dev12_val : ∀ c : Dev nD, k0_dev12 c = (c.val + 12) % 16 := by decide +kernel
theorem dev12_eq (c : Dev nD) : (⟨k0_dev12 c, k0_dev12_lt c⟩ : Dev nD) = shift c 12 := Fin.ext (k0_dev12_val c)
theorem k0_dev13_val : ∀ c : Dev nD, k0_dev13 c = (c.val + 13) % 16 := by decide +kernel
theorem dev13_eq (c : Dev nD) : (⟨k0_dev13 c, k0_dev13_lt c⟩ : Dev nD) = shift c 13 := Fin.ext (k0_dev13_val c)
theorem k0_dev14_val : ∀ c : Dev nD, k0_dev14 c = (c.val + 14) % 16 := by decide +kernel
theorem dev14_eq (c : Dev nD) : (⟨k0_dev14 c, k0_dev14_lt c⟩ : Dev nD) = shift c 14 := Fin.ext (k0_dev14_val c)
theorem k0_dev15_val : ∀ c : Dev nD, k0_dev15 c = (c.val + 15) % 16 := by decide +kernel
theorem dev15_eq (c : Dev nD) : (⟨k0_dev15 c, k0_dev15_lt c⟩ : Dev nD) = shift c 15 := Fin.ext (k0_dev15_val c)
theorem k0_dev16_val : ∀ c : Dev nD, k0_dev16 c = (c.val + 1) % 16 := by decide +kernel
theorem dev16_eq (c : Dev nD) : (⟨k0_dev16 c, k0_dev16_lt c⟩ : Dev nD) = shift c 1 := Fin.ext (k0_dev16_val c)
theorem k0_dev17_val : ∀ c : Dev nD, k0_dev17 c = (c.val + 2) % 16 := by decide +kernel
theorem dev17_eq (c : Dev nD) : (⟨k0_dev17 c, k0_dev17_lt c⟩ : Dev nD) = shift c 2 := Fin.ext (k0_dev17_val c)
theorem k0_dev18_val : ∀ c : Dev nD, k0_dev18 c = (c.val + 3) % 16 := by decide +kernel
theorem dev18_eq (c : Dev nD) : (⟨k0_dev18 c, k0_dev18_lt c⟩ : Dev nD) = shift c 3 := Fin.ext (k0_dev18_val c)
theorem k0_dev19_val : ∀ c : Dev nD, k0_dev19 c = (c.val + 4) % 16 := by decide +kernel
theorem dev19_eq (c : Dev nD) : (⟨k0_dev19 c, k0_dev19_lt c⟩ : Dev nD) = shift c 4 := Fin.ext (k0_dev19_val c)
theorem k0_dev20_val : ∀ c : Dev nD, k0_dev20 c = (c.val + 5) % 16 := by decide +kernel
theorem dev20_eq (c : Dev nD) : (⟨k0_dev20 c, k0_dev20_lt c⟩ : Dev nD) = shift c 5 := Fin.ext (k0_dev20_val c)
theorem k0_dev21_val : ∀ c : Dev nD, k0_dev21 c = (c.val + 6) % 16 := by decide +kernel
theorem dev21_eq (c : Dev nD) : (⟨k0_dev21 c, k0_dev21_lt c⟩ : Dev nD) = shift c 6 := Fin.ext (k0_dev21_val c)
theorem k0_dev22_val : ∀ c : Dev nD, k0_dev22 c = (c.val + 7) % 16 := by decide +kernel
theorem dev22_eq (c : Dev nD) : (⟨k0_dev22 c, k0_dev22_lt c⟩ : Dev nD) = shift c 7 := Fin.ext (k0_dev22_val c)
theorem k0_dev23_val : ∀ c : Dev nD, k0_dev23 c = (c.val + 8) % 16 := by decide +kernel
theorem dev23_eq (c : Dev nD) : (⟨k0_dev23 c, k0_dev23_lt c⟩ : Dev nD) = shift c 8 := Fin.ext (k0_dev23_val c)
theorem k0_dev24_val : ∀ c : Dev nD, k0_dev24 c = (c.val + 9) % 16 := by decide +kernel
theorem dev24_eq (c : Dev nD) : (⟨k0_dev24 c, k0_dev24_lt c⟩ : Dev nD) = shift c 9 := Fin.ext (k0_dev24_val c)
theorem k0_dev25_val : ∀ c : Dev nD, k0_dev25 c = (c.val + 10) % 16 := by decide +kernel
theorem dev25_eq (c : Dev nD) : (⟨k0_dev25 c, k0_dev25_lt c⟩ : Dev nD) = shift c 10 := Fin.ext (k0_dev25_val c)
theorem k0_dev26_val : ∀ c : Dev nD, k0_dev26 c = (c.val + 11) % 16 := by decide +kernel
theorem dev26_eq (c : Dev nD) : (⟨k0_dev26 c, k0_dev26_lt c⟩ : Dev nD) = shift c 11 := Fin.ext (k0_dev26_val c)
theorem k0_dev27_val : ∀ c : Dev nD, k0_dev27 c = (c.val + 12) % 16 := by decide +kernel
theorem dev27_eq (c : Dev nD) : (⟨k0_dev27 c, k0_dev27_lt c⟩ : Dev nD) = shift c 12 := Fin.ext (k0_dev27_val c)
theorem k0_dev28_val : ∀ c : Dev nD, k0_dev28 c = (c.val + 13) % 16 := by decide +kernel
theorem dev28_eq (c : Dev nD) : (⟨k0_dev28 c, k0_dev28_lt c⟩ : Dev nD) = shift c 13 := Fin.ext (k0_dev28_val c)
theorem k0_dev29_val : ∀ c : Dev nD, k0_dev29 c = (c.val + 14) % 16 := by decide +kernel
theorem dev29_eq (c : Dev nD) : (⟨k0_dev29 c, k0_dev29_lt c⟩ : Dev nD) = shift c 14 := Fin.ext (k0_dev29_val c)
theorem k0_dev30_val : ∀ c : Dev nD, k0_dev30 c = (c.val + 15) % 16 := by decide +kernel
theorem dev30_eq (c : Dev nD) : (⟨k0_dev30 c, k0_dev30_lt c⟩ : Dev nD) = shift c 15 := Fin.ext (k0_dev30_val c)

/-! ## The semaphores

  The send semaphores are DMA semaphores `2 … 17` of the core (index `k` for the transfer to
  `shift c k`), the receive semaphores `18 … 33` (index `j` for the row device `j` sends). -/

def sendSem (k : ℕ) : DmaSem sig := ⟨2 + k % 16, by have := Nat.mod_lt k (show 0 < 16 by decide); show 2 + k % 16 < 34; omega⟩
def recvSem (j : ℕ) : DmaSem sig := ⟨18 + j % 16, by have := Nat.mod_lt j (show 0 < 16 by decide); show 18 + j % 16 < 34; omega⟩

theorem sendSem_val (k : ℕ) : (sendSem k).val = 2 + k % 16 := rfl
theorem recvSem_val (j : ℕ) : (recvSem j).val = 18 + j % 16 := rfl

theorem sendSem_at1 : ((cc0_scratch1.slice (Rect.unit (s := S16) ![1] S1.size inb_S16_S1_1)).squeeze S_ squeezes_S1_S_).sem = sendSem 1 := by decide +kernel
theorem sendSem_at2 : ((cc0_scratch1.slice (Rect.unit (s := S16) ![2] S1.size inb_S16_S1_2)).squeeze S_ squeezes_S1_S_).sem = sendSem 2 := by decide +kernel
theorem sendSem_at3 : ((cc0_scratch1.slice (Rect.unit (s := S16) ![3] S1.size inb_S16_S1_3)).squeeze S_ squeezes_S1_S_).sem = sendSem 3 := by decide +kernel
theorem sendSem_at4 : ((cc0_scratch1.slice (Rect.unit (s := S16) ![4] S1.size inb_S16_S1_4)).squeeze S_ squeezes_S1_S_).sem = sendSem 4 := by decide +kernel
theorem sendSem_at5 : ((cc0_scratch1.slice (Rect.unit (s := S16) ![5] S1.size inb_S16_S1_5)).squeeze S_ squeezes_S1_S_).sem = sendSem 5 := by decide +kernel
theorem sendSem_at6 : ((cc0_scratch1.slice (Rect.unit (s := S16) ![6] S1.size inb_S16_S1_6)).squeeze S_ squeezes_S1_S_).sem = sendSem 6 := by decide +kernel
theorem sendSem_at7 : ((cc0_scratch1.slice (Rect.unit (s := S16) ![7] S1.size inb_S16_S1_7)).squeeze S_ squeezes_S1_S_).sem = sendSem 7 := by decide +kernel
theorem sendSem_at8 : ((cc0_scratch1.slice (Rect.unit (s := S16) ![8] S1.size inb_S16_S1_8)).squeeze S_ squeezes_S1_S_).sem = sendSem 8 := by decide +kernel
theorem sendSem_at9 : ((cc0_scratch1.slice (Rect.unit (s := S16) ![9] S1.size inb_S16_S1_9)).squeeze S_ squeezes_S1_S_).sem = sendSem 9 := by decide +kernel
theorem sendSem_at10 : ((cc0_scratch1.slice (Rect.unit (s := S16) ![10] S1.size inb_S16_S1_10)).squeeze S_ squeezes_S1_S_).sem = sendSem 10 := by decide +kernel
theorem sendSem_at11 : ((cc0_scratch1.slice (Rect.unit (s := S16) ![11] S1.size inb_S16_S1_11)).squeeze S_ squeezes_S1_S_).sem = sendSem 11 := by decide +kernel
theorem sendSem_at12 : ((cc0_scratch1.slice (Rect.unit (s := S16) ![12] S1.size inb_S16_S1_12)).squeeze S_ squeezes_S1_S_).sem = sendSem 12 := by decide +kernel
theorem sendSem_at13 : ((cc0_scratch1.slice (Rect.unit (s := S16) ![13] S1.size inb_S16_S1_13)).squeeze S_ squeezes_S1_S_).sem = sendSem 13 := by decide +kernel
theorem sendSem_at14 : ((cc0_scratch1.slice (Rect.unit (s := S16) ![14] S1.size inb_S16_S1_14)).squeeze S_ squeezes_S1_S_).sem = sendSem 14 := by decide +kernel
theorem sendSem_at15 : ((cc0_scratch1.slice (Rect.unit (s := S16) ![15] S1.size inb_S16_S1_15)).squeeze S_ squeezes_S1_S_).sem = sendSem 15 := by decide +kernel

/-- The receive semaphore a device names in its own transfers: the one at its own position. -/
theorem recvSem_own : ∀ c : Dev nD, ((cc0_scratch2.slice (Rect.unit (s := S16) (k0_off3 c) S1.size (k0_off3_inb c))).squeeze S_ squeezes_S1_S_).sem = recvSem c.val := by decide +kernel

theorem recvSem_from1 : ∀ c : Dev nD, ((cc0_scratch2.slice (Rect.unit (s := S16) (k0_off5 c 1#32) S1.size (k0_off5_inb c 0))).squeeze S_ squeezes_S1_S_).sem = recvSem (shift c 15).val := by decide +kernel
theorem recvSem_from2 : ∀ c : Dev nD, ((cc0_scratch2.slice (Rect.unit (s := S16) (k0_off5 c 2#32) S1.size (k0_off5_inb c 1))).squeeze S_ squeezes_S1_S_).sem = recvSem (shift c 14).val := by decide +kernel
theorem recvSem_from3 : ∀ c : Dev nD, ((cc0_scratch2.slice (Rect.unit (s := S16) (k0_off5 c 3#32) S1.size (k0_off5_inb c 2))).squeeze S_ squeezes_S1_S_).sem = recvSem (shift c 13).val := by decide +kernel
theorem recvSem_from4 : ∀ c : Dev nD, ((cc0_scratch2.slice (Rect.unit (s := S16) (k0_off5 c 4#32) S1.size (k0_off5_inb c 3))).squeeze S_ squeezes_S1_S_).sem = recvSem (shift c 12).val := by decide +kernel
theorem recvSem_from5 : ∀ c : Dev nD, ((cc0_scratch2.slice (Rect.unit (s := S16) (k0_off5 c 5#32) S1.size (k0_off5_inb c 4))).squeeze S_ squeezes_S1_S_).sem = recvSem (shift c 11).val := by decide +kernel
theorem recvSem_from6 : ∀ c : Dev nD, ((cc0_scratch2.slice (Rect.unit (s := S16) (k0_off5 c 6#32) S1.size (k0_off5_inb c 5))).squeeze S_ squeezes_S1_S_).sem = recvSem (shift c 10).val := by decide +kernel
theorem recvSem_from7 : ∀ c : Dev nD, ((cc0_scratch2.slice (Rect.unit (s := S16) (k0_off5 c 7#32) S1.size (k0_off5_inb c 6))).squeeze S_ squeezes_S1_S_).sem = recvSem (shift c 9).val := by decide +kernel
theorem recvSem_from8 : ∀ c : Dev nD, ((cc0_scratch2.slice (Rect.unit (s := S16) (k0_off5 c 8#32) S1.size (k0_off5_inb c 7))).squeeze S_ squeezes_S1_S_).sem = recvSem (shift c 8).val := by decide +kernel
theorem recvSem_from9 : ∀ c : Dev nD, ((cc0_scratch2.slice (Rect.unit (s := S16) (k0_off5 c 9#32) S1.size (k0_off5_inb c 8))).squeeze S_ squeezes_S1_S_).sem = recvSem (shift c 7).val := by decide +kernel
theorem recvSem_from10 : ∀ c : Dev nD, ((cc0_scratch2.slice (Rect.unit (s := S16) (k0_off5 c 10#32) S1.size (k0_off5_inb c 9))).squeeze S_ squeezes_S1_S_).sem = recvSem (shift c 6).val := by decide +kernel
theorem recvSem_from11 : ∀ c : Dev nD, ((cc0_scratch2.slice (Rect.unit (s := S16) (k0_off5 c 11#32) S1.size (k0_off5_inb c 10))).squeeze S_ squeezes_S1_S_).sem = recvSem (shift c 5).val := by decide +kernel
theorem recvSem_from12 : ∀ c : Dev nD, ((cc0_scratch2.slice (Rect.unit (s := S16) (k0_off5 c 12#32) S1.size (k0_off5_inb c 11))).squeeze S_ squeezes_S1_S_).sem = recvSem (shift c 4).val := by decide +kernel
theorem recvSem_from13 : ∀ c : Dev nD, ((cc0_scratch2.slice (Rect.unit (s := S16) (k0_off5 c 13#32) S1.size (k0_off5_inb c 12))).squeeze S_ squeezes_S1_S_).sem = recvSem (shift c 3).val := by decide +kernel
theorem recvSem_from14 : ∀ c : Dev nD, ((cc0_scratch2.slice (Rect.unit (s := S16) (k0_off5 c 14#32) S1.size (k0_off5_inb c 13))).squeeze S_ squeezes_S1_S_).sem = recvSem (shift c 2).val := by decide +kernel
theorem recvSem_from15 : ∀ c : Dev nD, ((cc0_scratch2.slice (Rect.unit (s := S16) (k0_off5 c 15#32) S1.size (k0_off5_inb c 14))).squeeze S_ squeezes_S1_S_).sem = recvSem (shift c 1).val := by decide +kernel

/-! ## The rows of the gather buffer -/

theorem off6_at1 : ∀ c : Dev nD, k0_off6 c 1#32 = ![(shift c 15).val, 0, 0] := by decide +kernel
theorem off6_at2 : ∀ c : Dev nD, k0_off6 c 2#32 = ![(shift c 14).val, 0, 0] := by decide +kernel
theorem off6_at3 : ∀ c : Dev nD, k0_off6 c 3#32 = ![(shift c 13).val, 0, 0] := by decide +kernel
theorem off6_at4 : ∀ c : Dev nD, k0_off6 c 4#32 = ![(shift c 12).val, 0, 0] := by decide +kernel
theorem off6_at5 : ∀ c : Dev nD, k0_off6 c 5#32 = ![(shift c 11).val, 0, 0] := by decide +kernel
theorem off6_at6 : ∀ c : Dev nD, k0_off6 c 6#32 = ![(shift c 10).val, 0, 0] := by decide +kernel
theorem off6_at7 : ∀ c : Dev nD, k0_off6 c 7#32 = ![(shift c 9).val, 0, 0] := by decide +kernel
theorem off6_at8 : ∀ c : Dev nD, k0_off6 c 8#32 = ![(shift c 8).val, 0, 0] := by decide +kernel
theorem off6_at9 : ∀ c : Dev nD, k0_off6 c 9#32 = ![(shift c 7).val, 0, 0] := by decide +kernel
theorem off6_at10 : ∀ c : Dev nD, k0_off6 c 10#32 = ![(shift c 6).val, 0, 0] := by decide +kernel
theorem off6_at11 : ∀ c : Dev nD, k0_off6 c 11#32 = ![(shift c 5).val, 0, 0] := by decide +kernel
theorem off6_at12 : ∀ c : Dev nD, k0_off6 c 12#32 = ![(shift c 4).val, 0, 0] := by decide +kernel
theorem off6_at13 : ∀ c : Dev nD, k0_off6 c 13#32 = ![(shift c 3).val, 0, 0] := by decide +kernel
theorem off6_at14 : ∀ c : Dev nD, k0_off6 c 14#32 = ![(shift c 2).val, 0, 0] := by decide +kernel
theorem off6_at15 : ∀ c : Dev nD, k0_off6 c 15#32 = ![(shift c 1).val, 0, 0] := by decide +kernel

end Cert.KernelIdealProof
-- ==== Proof.KernelIdealSpec.lean ====
/-
  The values the kernel computes, as pure functions of the devices' blocks of the input.

  Device `j` holds a block `x j` of 1024 rows by 512 columns.  Its two rows of statistics are
  the row maxima `m_j` of its block and the row sums `s_j` of `exp (x j - m_j)`.  Once every
  device's pair of rows has reached every other device, the gather buffer holds the same
  contents `gath x` on all of them: row `j` is `(m_j, s_j)`.  From it each device forms the
  global maximum `M = max_j m_j`, the global sum `S = Σ_j s_j · exp (m_j - M)`, and rescales its
  own exponentials by `exp (m_c - M) / S`.
-/
import proofs.«901056_g7700000000001057_dist_softmax_colshard_i_m1024_n512_v7x_i16_f32_1_alg».proof.Proof.Gen.KernelIdeal.Skeleton
import Idealize.ShloMosaic.Lib.ValueIdx

noncomputable section

namespace Cert.KernelIdealProof

open Idealize.ShloMosaic Idealize.ShloMosaic.ValueIdx Cert.KernelIdeal Cert.KernelIdeal.Gen

variable {F : FTy → Type} [FloatOps F]

/-- The gather buffer with every row in place: entry `(j, 0, r)` is the maximum of row `r` of device
    `j`'s block, entry `(j, 1, r)` the sum over that row of the exponentials shifted by that maximum. -/
def gath (x : Dev nD → Vec F S1024x512 .f32) : Vec F S16x2x1024 .f32 := fun i =>
  if (i 1).val = 0 then k0_pay4 (x ⟨(i 0).val, (i 0).isLt⟩) (ix3 (0 : Fin 1) (0 : Fin 1) (⟨(i 2).val, (i 2).isLt⟩ : Fin 1024))
  else k0_pay5 (x ⟨(i 0).val, (i 0).isLt⟩) (ix3 (0 : Fin 1) (0 : Fin 1) (⟨(i 2).val, (i 2).isLt⟩ : Fin 1024))

/-- What device `c` leaves in its block of the result: its shifted exponentials, rescaled by the
    statistics of all sixteen devices. -/
def outAt (x : Dev nD → Vec F S1024x512 .f32) (c : Dev nD) : FVec F S1024x512 .f32 :=
  k0_pay6 (k0_pay2 (x c)) (gath x) (k0_pay3 (x c))

end Cert.KernelIdealProof

end
-- ==== Proof.KernelIdealSched.lean ====
/-
  The cross-device protocol of the sixteen-device softmax, under the rounds discipline.

  Cells of device `c`: its barrier cell, fifteen send cells (index `k`, the transfer to `shift c k`)
  and fifteen receive cells (index `j ≠ c`, the row device `j` sends); one round each.
  * The barrier cell has fifteen duties of one unit, named `1 … 15`: duty `k` is paid by device
    `shift c k` and hands `c` that device's row `c` of the gather buffer (where `c`'s transfer to it
    will land) together with the fact that its receive cell for `c` is at round 0.
  * A send cell has one duty: the transfer's source share of row `c`, back at the contents `gbuf`.
  * A receive cell has one duty: row `j` of the gather buffer, holding device `j`'s statistics.
  Every row of the gather buffer ends at the same contents `gbuf` on every device.
-/
import proofs.«901056_g7700000000001057_dist_softmax_colshard_i_m1024_n512_v7x_i16_f32_1_alg».proof.Proof.KernelIdealMesh
import proofs.«901056_g7700000000001057_dist_softmax_colshard_i_m1024_n512_v7x_i16_f32_1_alg».proof.Proof.KernelIdealSpec
import proofs.«901056_g7700000000001057_dist_softmax_colshard_i_m1024_n512_v7x_i16_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by numbers) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the input, as the region finds it staged. -/
def xblk (c : Dev nD) : Vec F S1024x512 .f32 :=
  (win0_0.blk (0 : Fin 1)).view.read (Elt F) (m ((c : Thread nD τ).loc main_arg0))

/-- The gather buffer with every row landed: the same on every device. -/
def gbuf : Vec F S16x2x1024 .f32 := gath (xblk m)

/-! ## The rows of the gather buffer -/

abbrev gM : Memref sig .tc .vmem S16x2x1024 .f32 := Memref.whole cc0_scratch0

def rowOff (j : Dev nD) : Fin 3 → ℕ := ![j.val, 0, 0]
theorem rowOff_inb : ∀ (j : Dev nD) (a : Fin 3), rowOff j a + S1x2x1024.size a ≤ S16x2x1024.size a := by decide

/-- Row `j` (both statistics of device `j`), as the kernel slices it out of the buffer. -/
def row (j : Dev nD) : Memref sig .tc .vmem S2x1024 .f32 :=
  (gM.slice (Rect.unit (s := S16x2x1024) (rowOff j) S1x2x1024.size (rowOff_inb j)) (fun _ => rfl)).squeeze S2x1024 squeezes_S1x2x1024_S2x1024

/-- The gathered contents, typed as the contents of device `d`'s buffer seen through row `j`. -/
def gbufAt (d j : Dev nD) : Buf (Elt F) ((row j).view.loc (d : Thread nD τ)) := gbuf m

/-- Row `j` of device `d`'s gather buffer held at share `q` with contents `f`. -/
def rowPts (d j : Dev nD) (q : PosShare TreeShare) (f : Buf (Elt F) ((row j).view.loc (d : Thread nD τ))) : sProp 𝕄 :=
  (row j).view.loc (d : Thread nD τ) ↦[(row j).view.set]{q} f

/-- The credit of one row's transfer. -/
abbrev N : ℕ := (row (0 : Dev nD)).view.dmaCredit
theorem N_pos : 0 < N := View.dmaCredit_pos _ (by decide)
theorem row_credit (j : Dev nD) : (row j).view.dmaCredit = N := rfl

/-! ## Shares of a device's own row: the left half is kept, the right half lent out in fifteen pieces -/

def rest : ℕ → PosShare TreeShare
  | 0 => fullShare.right
  | n + 1 => (rest n).right

/-- The share the transfer with offset `k ≥ 1` reads its source at. -/
def lend (k : ℕ) : PosShare TreeShare := (rest (k - 1)).left

/-! ## The cells -/

abbrev barS : Sem sig := (SemArray.scalar (sig.barrier 0 rfl) : Sems sig S_).sem

abbrev barCell (c : Dev nD) : GSem nD τ sig := ((c : Thread nD τ), .reg barS)
abbrev sendCell (c : Dev nD) (k : ℕ) : GSem nD τ sig := ((c : Thread nD τ), .dma (sendSem k))
abbrev recvCell (c j : Dev nD) : GSem nD τ sig := ((c : Thread nD τ), .dma (recvSem j.val))

def devOf (n : ℕ) : Dev nD := ⟨n % 16, Nat.mod_lt _ (by decide)⟩
theorem devOf_val (j : Dev nD) : devOf j.val = j := Fin.ext (Nat.mod_eq_of_lt j.isLt)

/-! ## The payloads -/

/-- Duty `k` of `c`'s barrier cell: row `c` on device `shift c k`, at any contents, and that device's receive
    cell for `c` at round 0. -/
def barPay (c : Dev nD) (k : ℕ) : sProp 𝕄 :=
  iprop((∃ f, rowPts (F := F) (shift c k) c fullShare f) ∗ reached ER (recvCell (shift c k) c) 0)
/-- The send cell `k` of `c`: the lent share of its own row, at the gathered contents. -/
def sendPay (c : Dev nD) (k : ℕ) : sProp 𝕄 := rowPts c c (lend k) (gbufAt m c c)
/-- The receive cell `j` of `c`: row `j`, holding device `j`'s statistics. -/
def recvPay (c j : Dev nD) : sProp 𝕄 := rowPts c j fullShare (gbufAt m c j)

/-! ## The schedule: one round -/

def Rd : Rounds.Schedule (GSem nD τ sig) ℕ 𝕄 where
  duties g r :=
    if r = 0 ∧ g.1.2 = .tc then
      match g.2 with
      | .reg s => if s = barS then Finset.Ico 1 16 else ∅
      | .dma q => if 3 ≤ q.val ∧ q.val ≤ 17 then {0} else if 18 ≤ q.val ∧ q.val - 18 ≠ g.1.1.val then {0} else ∅
    else ∅
  unitless _ := False
  amount g _ _ := match g.2 with | .reg _ => 1 | .dma _ => N
  payload g _ d := match g.2 with
    | .reg _ => barPay g.1.1 d
    | .dma q => if q.val ≤ 17 then sendPay m g.1.1 (q.val - 2) else recvPay m g.1.1 (devOf (q.val - 18))
  amount_pos g _ _ _ := by
    cases g.2 with
    | reg _ => exact Nat.one_pos
    | dma _ => exact N_pos

instance Rd_payload_storable (g : GSem nD τ sig) (r : ℕ) (d : ℕ) :
    BI.Storable (upEmb : UEmb _ 𝕄) ((Rd (F := F) m).payload g r d) := by
  show BI.Storable upEmb (match g.2 with
    | .reg _ => barPay g.1.1 d
    | .dma q => if q.val ≤ 17 then sendPay m g.1.1 (q.val - 2) else recvPay m g.1.1 (devOf (q.val - 18)))
  unfold barPay sendPay recvPay rowPts
  (repeat' split) <;> infer_instance

section Sched
variable (c : Dev nD)

theorem duties_bar : (Rd (F := F) m).duties (barCell c) 0 = Finset.Ico 1 16 := by
  dsimp only [Rd]; rw [if_pos ⟨rfl, rfl⟩, if_pos rfl]

theorem duties_send (k : ℕ) (h1 : 1 ≤ k) (h2 : k ≤ 15) : (Rd (F := F) m).duties (sendCell c k) 0 = {0} := by
  dsimp only [Rd]; rw [if_pos ⟨rfl, rfl⟩]
  have hv : (sendSem k).val = 2 + k := by rw [sendSem_val, Nat.mod_eq_of_lt (by omega)]
  rw [if_pos ⟨by omega, by omega⟩]

theorem duties_recv (j : Dev nD) (h : j ≠ c) : (Rd (F := F) m).duties (recvCell c j) 0 = {0} := by
  dsimp only [Rd]; rw [if_pos ⟨rfl, rfl⟩]
  have hj := j.isLt; change j.val < 16 at hj
  have hv : (recvSem j.val).val = 18 + j.val := by rw [recvSem_val, Nat.mod_eq_of_lt hj]
  rw [if_neg (by omega), if_pos ⟨by omega, by rw [hv]; intro e; exact h (Fin.ext (by omega))⟩]

theorem duties_send_zero (r : ℕ) : (Rd (F := F) m).duties (sendCell c 0) r = ∅ := by
  dsimp only [Rd]; split
  · have hv : (sendSem 0).val = 2 := rfl
    rw [if_neg (by omega), if_neg (by omega)]
  · rfl

theorem duties_recv_own (r : ℕ) : (Rd (F := F) m).duties (recvCell c c) r = ∅ := by
  dsimp only [Rd]; split
  · have hc := c.isLt; change c.val < 16 at hc
    have hv : (recvSem c.val).val = 18 + c.val := by rw [recvSem_val, Nat.mod_eq_of_lt hc]
    rw [if_neg (by omega), if_neg (by rw [hv]; omega)]
  · rfl

theorem duties_later (g : GSem nD τ sig) : ∀ r, 1 ≤ r → (Rd (F := F) m).duties g r = ∅ :=
  fun r hr => by dsimp only [Rd]; rw [if_neg fun h => by omega]

theorem amount_bar (d : ℕ) : (Rd (F := F) m).amount (barCell c) 0 d = 1 := rfl
theorem amount_send (k d : ℕ) : (Rd (F := F) m).amount (sendCell c k) 0 d = N := rfl
theorem amount_recv (j : Dev nD) (d : ℕ) : (Rd (F := F) m).amount (recvCell c j) 0 d = N := rfl

theorem expect_bar : (Rd (F := F) m).expect (barCell c) 0 = 15 := by
  unfold Schedule.expect Schedule.amountOf
  rw [duties_bar, Finset.sum_congr rfl fun d _ => amount_bar m c d, Finset.sum_const, Nat.card_Ico, smul_eq_mul]
theorem expect_send (k : ℕ) (h1 : 1 ≤ k) (h2 : k ≤ 15) : (Rd (F := F) m).expect (sendCell c k) 0 = N := by
  unfold Schedule.expect Schedule.amountOf; rw [duties_send m c k h1 h2, Finset.sum_singleton, amount_send]
theorem expect_recv (j : Dev nD) (h : j ≠ c) : (Rd (F := F) m).expect (recvCell c j) 0 = N := by
  unfold Schedule.expect Schedule.amountOf; rw [duties_recv m c j h, Finset.sum_singleton, amount_recv]

theorem payload_bar (k : ℕ) : (Rd (F := F) m).payload (barCell c) 0 k = barPay c k := rfl
theorem payload_send (k : ℕ) (h1 : 1 ≤ k) (h2 : k ≤ 15) (d : ℕ) : (Rd (F := F) m).payload (sendCell c k) 0 d = sendPay m c k := by
  dsimp only [Rd]
  have hv : (sendSem k).val = 2 + k := by rw [sendSem_val, Nat.mod_eq_of_lt (by omega)]
  rw [if_pos (by omega), hv, Nat.add_sub_cancel_left]
theorem payload_recv (j : Dev nD) (d : ℕ) : (Rd (F := F) m).payload (recvCell c j) 0 d = recvPay m c j := by
  dsimp only [Rd]
  have hj := j.isLt; change j.val < 16 at hj
  have hv : (recvSem j.val).val = 18 + j.val := by rw [recvSem_val, Nat.mod_eq_of_lt hj]
  rw [if_neg (by omega), hv, Nat.add_sub_cancel_left, devOf_val]

/-- The whole of the barrier cell's round: every peer's row `c`. -/
theorem rest_bar : bigSep ((Rd (F := F) m).duties (barCell c) 0 \ ∅) (fun d => (Rd (F := F) m).payload (barCell c) 0 d)
    = bigSep (Finset.Ico 1 16) (fun k => barPay (F := F) c k) := by
  rw [Finset.sdiff_empty, duties_bar]; rfl
theorem rest_send (k : ℕ) (h1 : 1 ≤ k) (h2 : k ≤ 15) :
    bigSep ((Rd (F := F) m).duties (sendCell c k) 0 \ ∅) (fun d => (Rd (F := F) m).payload (sendCell c k) 0 d) = sendPay m c k := by
  rw [Finset.sdiff_empty, duties_send m c k h1 h2, bigSep_singleton, payload_send m c k h1 h2]
theorem rest_recv (j : Dev nD) (h : j ≠ c) :
    bigSep ((Rd (F := F) m).duties (recvCell c j) 0 \ ∅) (fun d => (Rd (F := F) m).payload (recvCell c j) 0 d) = recvPay m c j := by
  rw [Finset.sdiff_empty, duties_recv m c j h, bigSep_singleton, payload_recv]

end Sched

/-! ## What each device owes at launch; the levels -/

/-- The receive credits still owed when `n` transfers remain (the next one goes to `shift c (16 - n)`). -/
def OwR (c : Dev nD) : ℕ → CellTallies nD τ sig Unit
  | 0 => 0
  | n + 1 => OwR c n + tallyAt (recvCell (shift c (15 - n)) c) () N
/-- What is owed when `n` barrier signals remain: those, and all fifteen receive credits. -/
def OwS (c : Dev nD) : ℕ → CellTallies nD τ sig Unit
  | 0 => OwR c 15
  | n + 1 => OwS c n + tallyAt (barCell (shift c (15 - n))) () 1
def O₀ (c : Dev nD) : CellTallies nD τ sig Unit := OwS c 15

def L (g : GSem nD τ sig) : Finset Unit := if g.1.2 = .tc then {()} else ∅
/-- Barrier cells at level 1, receive cells at 2, everything else (staging, send) at 0. -/
def lv (g : GSem nD τ sig) (_ : Unit) : ℕ :=
  match g.2 with
  | .reg s => if s = barS then 1 else 0
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdealProof

end
-- ==== Proof.KernelIdealData.lean ====
/-
  What each device's body starts from and what it gives back: the names the cells' invariants
  were allocated at, the persistent records (every cell's invariant, and that round 0 of every cell
  is reached), the device's own positions and the tokens of the duties it pays, its launch credit,
  and the pipeline's proof data around them.

  The linear resources are indexed the way the body consumes them: offsets `k = 1 … 15` in program
  order.  Signal and transfer `k` go to `shift c k`; receive wait `k` is for the row of
  `shift c (16 - k)`; send wait `k` is on send cell `k`.
-/
import proofs.«901056_g7700000000001057_dist_softmax_colshard_i_m1024_n512_v7x_i16_f32_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The names of the cells' invariants: barrier cell of each device, send cell `k`, receive cell `j`. -/
structure Names where
  bar : Dev nD → ℕ
  send : Dev nD → ℕ → ℕ
  recv : Dev nD → Dev nD → ℕ

/-- Every cell's invariant at its name, and that round 0 of every cell is reached. -/
def records (K : Names) : sProp 𝕄 :=
  iprop((bigSep Finset.univ fun d : Dev nD => iprop(cellInv ER (Rd m) (K.bar d) (barCell d) ∗ reached ER (barCell d) 0))
    ∗ (bigSep Finset.univ fun d : Dev nD => bigSep (Finset.range 16) fun k =>
        iprop(cellInv ER (Rd m) (K.send d k) (sendCell d k) ∗ reached ER (sendCell d k) 0))
    ∗ (bigSep Finset.univ fun d : Dev nD => bigSep Finset.univ fun j : Dev nD =>
        iprop(cellInv ER (Rd m) (K.recv d j) (recvCell d j) ∗ reached ER (recvCell d j) 0)))

instance records_persistent (K : Names) : BI.Persistent (records m K) := by unfold records; infer_instance

theorem records_bar (K : Names) (d : Dev nD) :
    records m K ⊢ iprop(cellInv ER (Rd m) (K.bar d) (barCell d) ∗ reached ER (barCell d) 0) := by
  unfold records
  have h : (bigSep Finset.univ (fun d : Dev nD => iprop(cellInv ER (Rd m) (K.bar d) (barCell d) ∗ reached ER (barCell d) 0)) : sProp 𝕄)
      ⊢ iprop(cellInv ER (Rd m) (K.bar d) (barCell d) ∗ reached ER (barCell d) 0) := bigSep_elim (Finset.mem_univ d)
  iintro ⟨H, -, -⟩
  iapply h; iexact H

theorem records_send (K : Names) (d : Dev nD) (k : ℕ) (hk : k < 16) :
    records m K ⊢ iprop(cellInv ER (Rd m) (K.send d k) (sendCell d k) ∗ reached ER (sendCell d k) 0) := by
  unfold records
  have h1 : (bigSep (Finset.range 16) (fun k : ℕ => iprop(cellInv ER (Rd m) (K.send d k) (sendCell d k) ∗ reached ER (sendCell d k) 0)) : sProp 𝕄)
      ⊢ iprop(cellInv ER (Rd m) (K.send d k) (sendCell d k) ∗ reached ER (sendCell d k) 0) := bigSep_elim (Finset.mem_range.mpr hk)
  have h2 : (bigSep Finset.univ (fun d : Dev nD => bigSep (Finset.range 16) fun k : ℕ => iprop(cellInv ER (Rd m) (K.send d k) (sendCell d k) ∗ reached ER (sendCell d k) 0)) : sProp 𝕄)
      ⊢ bigSep (Finset.range 16) (fun k : ℕ => iprop(cellInv ER (Rd m) (K.send d k) (sendCell d k) ∗ reached ER (sendCell d k) 0)) := bigSep_elim (Finset.mem_univ d)
  iintro ⟨-, H, -⟩
  iapply h1; iapply h2; iexact H

theorem records_recv (K : Names) (d j : Dev nD) :
    records m K ⊢ iprop(cellInv ER (Rd m) (K.recv d j) (recvCell d j) ∗ reached ER (recvCell d j) 0) := by
  unfold records
  have h1 : (bigSep Finset.univ (fun j : Dev nD => iprop(cellInv ER (Rd m) (K.recv d j) (recvCell d j) ∗ reached ER (recvCell d j) 0)) : sProp 𝕄)
      ⊢ iprop(cellInv ER (Rd m) (K.recv d j) (recvCell d j) ∗ reached ER (recvCell d j) 0) := bigSep_elim (Finset.mem_univ j)
  have h2 : (bigSep Finset.univ (fun d : Dev nD => bigSep Finset.univ fun j : Dev nD => iprop(cellInv ER (Rd m) (K.recv d j) (recvCell d j) ∗ reached ER (recvCell d j) 0)) : sProp 𝕄)
      ⊢ bigSep Finset.univ (fun j : Dev nD => iprop(cellInv ER (Rd m) (K.recv d j) (recvCell d j) ∗ reached ER (recvCell d j) 0)) := bigSep_elim (Finset.mem_univ d)
  iintro ⟨-, -, H⟩
  iapply h1; iapply h2; iexact H

/-- Device `c`'s positions at round 0 of its cells (the two it never uses apart), and the tokens of the duties
    it pays: duty `16 - k` of `shift c k`'s barrier cell, the duty of `shift c k`'s receive cell for `c`, the duty
    of its own send cell `k`. -/
def linear (c : Dev nD) : sProp 𝕄 :=
  iprop(atPos ER (barCell c) 0 ∅ 0
    ∗ (bigSep (Finset.Ico 1 16) fun k => atPos ER (sendCell c k) 0 ∅ 0) ∗ atPos ER (sendCell c 0) 0 ∅ 0
    ∗ (bigSep (Finset.Ico 1 16) fun k => atPos ER (recvCell c (shift c (16 - k))) 0 ∅ 0) ∗ atPos ER (recvCell c c) 0 ∅ 0
    ∗ (bigSep (Finset.Ico 1 16) fun k => dutyTok ER (barCell (shift c k)) 0 (16 - k))
    ∗ (bigSep (Finset.Ico 1 16) fun k => dutyTok ER (recvCell (shift c k) c) 0 0)
    ∗ (bigSep (Finset.Ico 1 16) fun k => dutyTok ER (sendCell c k) 0 0))

def ghost (K : Names) (c : Dev nD) : sProp 𝕄 := iprop(records m K ∗ linear (F := F) c)

/-- What device `c`'s body starts from: the ghost state at some names, the credit tokens for what the others owe
    its barrier cell (fifteen units) and each of its receive cells (one row's credit), and the level facts. -/
def start (c : Dev nD) : sProp 𝕄 :=
  iprop((∃ K, ghost m K c) ∗ cred (tallyAt (barCell c) () 15)
    ∗ (bigSep (Finset.Ico 1 16) fun k => cred (tallyAt (recvCell c (shift c (16 - k))) () N))
    ∗ levAts L lv)

/-- Before the point: that, and the gather buffer whole at any contents. -/
def Φ₀ (c : Dev nD) : sProp 𝕄 :=
  iprop(start m c ∗ ∃ f : Buf (Elt F) ((c : Thread nD τ).loc cc0_scratch0), ((c : Thread nD τ).loc cc0_scratch0) ↦{fullShare} f)
/-- After the point: the gather buffer whole again, and the thirty-two own semaphores at zero, their cells closed. -/
def Φ₁ (c : Dev nD) : sProp 𝕄 :=
  iprop((∃ f : Buf (Elt F) ((c : Thread nD τ).loc cc0_scratch0), ((c : Thread nD τ).loc cc0_scratch0) ↦{fullShare} f)
    ∗ (bigSep (Finset.range 16) fun k => semVal (sendCell c k) 0)
    ∗ (bigSep Finset.univ fun j : Dev nD => semVal (recvCell c j) 0))

/-- The pipeline's proof data: the input block stays, the result block ends at `outAt`. -/
def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt (xblk m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.KernelIdealRows.lean ====
/-
  Plumbing for the gather buffer, part 1: reindexing a separating conjunction over the sixteen
  devices by offsets around the ring from a device `c` (forwards `shift c k`, backwards
  `shift c (16 - k)`, `k = 1 … 15`), peeling such a conjunction at either end, and the shares of
  one row: the full share is its left half and its right half; the right half is cut again and
  again, the transfer with offset `k` reading its source at the left part `lend k` of what was
  left, `rest (k - 1)`; all fifteen lent parts and what remains make up the right half again.
-/
import proofs.«901056_g7700000000001057_dist_softmax_colshard_i_m1024_n512_v7x_i16_f32_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reindexing a separating conjunction over the devices by offsets around the ring -/

/-- All devices: `c` itself, and the fifteen devices `1 … 15` places after it. -/
theorem bigSep_dev_shift (c : Dev nD) (Φ : Dev nD → sProp 𝕄) :
    bigSep Finset.univ Φ = iprop(Φ c ∗ bigSep (Finset.Ico 1 16) (fun k => Φ (shift c k))) := by
  classical
  rw [bigSep_univ_split c]
  have h : (Finset.univ.erase c : Finset (Dev nD)) = (Finset.Ico 1 16).image (shift c) := by
    ext p
    simp only [Finset.mem_erase, Finset.mem_univ, and_true, Finset.mem_image, Finset.mem_Ico]
    constructor
    · intro hp
      obtain ⟨k, h1, h2, e⟩ := exists_shift c p hp
      exact ⟨k, ⟨h1, by omega⟩, e⟩
    · rintro ⟨k, ⟨h1, h2⟩, rfl⟩
      exact shift_ne c k h1 (by omega)
  rw [h]
  have e : bigSep ((Finset.Ico 1 16).image (shift c)) Φ = bigSep (Finset.Ico 1 16) (fun k => Φ (shift c k)) :=
    Finset.fold_image fun x hx y hy e =>
      shift_inj c (Finset.mem_Ico.mp hx).2 (Finset.mem_Ico.mp hy).2 e
  rw [e]; rfl

/-- The offsets `1 … 15` read backwards: `k ↦ 16 - k` permutes them. -/
theorem bigSep_Ico_flip (Ψ : ℕ → sProp 𝕄) :
    bigSep (Finset.Ico 1 16) Ψ = bigSep (Finset.Ico 1 16) (fun k => Ψ (16 - k)) := by
  have h : (Finset.Ico 1 16).image (fun k => 16 - k) = Finset.Ico 1 16 := by
    ext p
    simp only [Finset.mem_image, Finset.mem_Ico]
    constructor
    · rintro ⟨k, ⟨h1, h2⟩, rfl⟩; omega
    · intro hp; exact ⟨16 - p, by omega, by omega⟩
  have e : bigSep ((Finset.Ico 1 16).image (fun k => 16 - k)) Ψ = bigSep (Finset.Ico 1 16) (fun k => Ψ (16 - k)) :=
    Finset.fold_image fun x hx y hy e => by
      have := (Finset.mem_Ico.mp hx).2; have := (Finset.mem_Ico.mp hy).2
      have e' : 16 - x = 16 - y := e
      omega
  rw [← e, h]

theorem bigSep_dev_back (c : Dev nD) (Φ : Dev nD → sProp 𝕄) :
    bigSep Finset.univ Φ = iprop(Φ c ∗ bigSep (Finset.Ico 1 16) (fun k => Φ (shift c (16 - k)))) := by
  rw [bigSep_dev_shift c Φ, bigSep_Ico_flip (fun k => Φ (shift c k))]

theorem bigSep_Ico_peel (a : ℕ) (h : a < 16) (Ψ : ℕ → sProp 𝕄) :
    bigSep (Finset.Ico a 16) Ψ = iprop(Ψ a ∗ bigSep (Finset.Ico (a + 1) 16) Ψ) := by
  have e : Finset.Ico a 16 = insert a (Finset.Ico (a + 1) 16) := by
    ext p; simp only [Finset.mem_insert, Finset.mem_Ico]; omega
  rw [e, bigSep_insert (by simp only [Finset.mem_Ico]; omega)]; rfl

theorem bigSep_Ico_snoc (a : ℕ) (h : 1 ≤ a) (Ψ : ℕ → sProp 𝕄) :
    bigSep (Finset.Ico 1 (a + 1)) Ψ = iprop(bigSep (Finset.Ico 1 a) Ψ ∗ Ψ a) := by
  have e : Finset.Ico 1 (a + 1) = insert a (Finset.Ico 1 a) := by
    ext p; simp only [Finset.mem_insert, Finset.mem_Ico]; omega
  rw [e, bigSep_insert (by simp only [Finset.mem_Ico]; omega)]
  exact equiv_iff.mp ⟨Idealize.SL.BI.sep_comm, Idealize.SL.BI.sep_comm⟩

/-! ## Shares of a row -/

section Shares

theorem rowPts_halves (d j : Dev nD) (f : Buf (Elt F) ((row j).view.loc (d : Thread nD τ))) :
    rowPts (F := F) d j fullShare f ⊣⊢ iprop(rowPts d j fullShare.left f ∗ rowPts d j fullShare.right f) :=
  pointsTo_share (PosShare.mem_left_op_right fullShare)

theorem rowPts_lend (d j : Dev nD) (f : Buf (Elt F) ((row j).view.loc (d : Thread nD τ))) (k : ℕ) (hk : 1 ≤ k) :
    rowPts (F := F) d j (rest (k - 1)) f ⊣⊢ iprop(rowPts d j (lend k) f ∗ rowPts d j (rest k) f) := by
  obtain ⟨n, rfl⟩ : ∃ n, k = n + 1 := ⟨k - 1, by omega⟩
  show rowPts (F := F) d j (rest n) f ⊣⊢ iprop(rowPts d j (rest n).left f ∗ rowPts d j (rest n).right f)
  exact pointsTo_share (PosShare.mem_left_op_right (rest n))

theorem rowPts_unlend (d j : Dev nD) (f : Buf (Elt F) ((row j).view.loc (d : Thread nD τ))) (n : ℕ) :
    iprop(rowPts (F := F) d j (rest n) f ∗ bigSep (Finset.Ico 1 (n + 1)) (fun k => rowPts d j (lend k) f))
      ⊢ rowPts d j fullShare.right f := by
  induction n with
  | zero =>
    rw [show Finset.Ico 1 (0 + 1) = (∅ : Finset ℕ) from rfl, bigSep_empty]
    exact Laws.sep_emp.1
  | succ n ih =>
    rw [bigSep_Ico_snoc (n + 1) (by omega)]
    iintro ⟨Hr, Hs, Hl⟩
    iapply ih
    isplitl [Hr Hl]
    · iapply (rowPts_lend d j f (n + 1) (by omega)).2
      isplitl [Hl]
      · iexact Hl
      · iexact Hr
    · iexact Hs

end Shares

/-- info: 'Cert.KernelIdealProof.rowPts_unlend' depends on axioms: [propext, Classical.choice, Quot.sound] -/
#guard_msgs in #print axioms rowPts_unlend

end Cert.KernelIdealProof

end
-- ==== Proof.KernelIdealSteps.lean ====
/-
  One rule per kind of cross-device step of a device's body, each at a symbolic offset `a` in
  `1 … 15`, over the rounds discipline: the signal to `shift c a`'s barrier cell, the barrier wait,
  the transfer of row `c` to `shift c a`, the wait for the row of `shift c (16 - a)`, the wait for
  transfer `a`'s source.  The body applies each fifteen times.
-/
import proofs.«901056_g7700000000001057_dist_softmax_colshard_i_m1024_n512_v7x_i16_f32_1_alg».proof.Proof.KernelIdealData
import proofs.«901056_g7700000000001057_dist_softmax_colshard_i_m1024_n512_v7x_i16_f32_1_alg».proof.Proof.KernelIdealRows

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device owes `O`, whatever pairs its waits have recorded. -/
def owesE (c : Dev nD) (O : CellTallies nD τ sig Unit) : sProp 𝕄 := iprop(∃ W, owes (c : Thread nD τ) O W)

/-! ## What is owed, one summand at a time -/

theorem OwS_peel (c : Dev nD) (a : ℕ) (h1 : 1 ≤ a) (h2 : a ≤ 15) :
    OwS c (16 - a) = OwS c (15 - a) + tallyAt (barCell (shift c a)) () 1 := by
  have e : 16 - a = (15 - a) + 1 := by omega
  rw [e]; show OwS c (15 - a) + tallyAt (barCell (shift c (15 - (15 - a)))) () 1 = _
  rw [show 15 - (15 - a) = a by omega]

theorem OwR_peel (c : Dev nD) (a : ℕ) (h1 : 1 ≤ a) (h2 : a ≤ 15) :
    OwR c (16 - a) = OwR c (15 - a) + tallyAt (recvCell (shift c a) c) () N := by
  have e : 16 - a = (15 - a) + 1 := by omega
  rw [e]; show OwR c (15 - a) + tallyAt (recvCell (shift c (15 - (15 - a))) c) () N = _
  rw [show 15 - (15 - a) = a by omega]

theorem OwS_zero (c : Dev nD) : OwS c 0 = OwR c 15 := rfl
theorem OwR_zero (c : Dev nD) : OwR c 0 = 0 := rfl

/-- Only receive cells are owed once the signals are out. -/
theorem OwR_pos (c : Dev nD) : ∀ (n : ℕ) {g : GSem nD τ sig} {u : Unit}, 0 < OwR c n g u → ∃ p : Dev nD, g = recvCell p c
  | 0, g, u, h => absurd h (by simp [OwR])
  | n + 1, g, u, h => by
    have h' : 0 < OwR c n g u + tallyAt (recvCell (shift c (15 - n)) c) () N g u := h
    by_cases hg : 0 < OwR c n g u
    · exact OwR_pos c n hg
    · have : 0 < tallyAt (recvCell (shift c (15 - n)) c) () N g u := by omega
      rw [tallyAt_apply] at this
      by_cases hc : g = recvCell (shift c (15 - n)) c ∧ u = ()
      · exact ⟨_, hc.1⟩
      · rw [if_neg hc] at this; exact absurd this (Nat.lt_irrefl 0)

/-- At its barrier wait a device owes receive credits only: receive cells lie above barrier cells. -/
theorem mayWait_bar (c : Dev nD) :
    (levAts L lv : sProp 𝕄) ⊢ MayWait (c : Thread nD τ) (.reg barS) () (OwR c 15) :=
  MayOwe.of_cut (L := L) (lev := lv) 1 (fun p hp => by rw [Finset.mem_singleton.mp hp, L_tc]; exact Finset.mem_singleton_self _)
    (fun g u hg => by obtain ⟨p, rfl⟩ := OwR_pos c 15 hg; rw [L_tc]; exact Finset.mem_singleton_self _)
    (fun p hp => by rw [Finset.mem_singleton.mp hp]; dsimp only [lv]; rw [if_pos rfl])
    (fun g u hg => by
      obtain ⟨p, rfl⟩ := OwR_pos c 15 hg
      dsimp only [lv]
      have : 18 ≤ (recvSem c.val).val := by rw [recvSem_val]; omega
      rw [if_pos this]; decide)

/-! ## The barrier payload at its payer -/

/-- Duty `16 - a` of `shift c a`'s barrier cell is paid by `c`: its own row `shift c a`, and that its receive cell for
    `shift c a` is at round 0. -/
theorem barPay_at (c : Dev nD) (a : ℕ) (h2 : a ≤ 16) :
    barPay (F := F) (shift c a) (16 - a)
      = iprop((∃ f, rowPts (F := F) c (shift c a) fullShare f) ∗ reached ER (recvCell c (shift c a)) 0) := by
  unfold barPay; rw [shift_shift_back c a h2]

/-! ## The steps -/

/-- The signal to `shift c a`'s barrier cell: it hands over this device's row `shift c a`. -/
theorem sig_step (K : Names) (c : Dev nD) (a : ℕ) (h1 : 1 ≤ a) (h2 : a ≤ 15) (n : Dev nD) (hn : n = shift c a) {k' : ℕ} (hk' : 1 = k')
    {α : Type} {Q : α → sProp 𝕄} {k : PUnit → Prog (TpuEff nD τ sig (Elt F) Λ₀ .tc) α} :
    iprop(records m K ∗ owesE (F := F) c (OwS c (16 - a))
        ∗ dutyTok ER (barCell (shift c a)) 0 (16 - a) ∗ (∃ f, rowPts (F := F) c (shift c a) fullShare f))
      ⊢ iprop((owesE (F := F) c (OwS c (15 - a)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  subst hn; subst hk'
  unfold owesE
  iintro ⟨#HR, ⟨%W, HO⟩, Htok, Hrow⟩ Hk
  ihave #Hb := (records_bar m K (shift c a)) $$ HR
  ihave #Hv := (records_recv m K c (shift c a)) $$ HR
  icases Hb with ⟨#HI, #HrB⟩
  icases Hv with ⟨-, #HrV⟩
  iapply (Rounds.wp_signal 𝒱₀ ER (Rd m) (c : Thread nD τ) none (dst := ((shift c a : Dev nD) : Thread nD τ)) (κ := K.bar (shift c a))
      (d := 16 - a) (by rw [duties_bar]; exact Finset.mem_Ico.mpr ⟨by omega, by omega⟩) (amount_bar m (shift c a) (16 - a)) () (OwS c (15 - a)) (OwS_peel c a h1 h2))
    $$ [HO Htok Hrow] [Hk]
  · isplitr; · iexact HI
    isplitl [HO]; · iexact HO
    isplitl [Htok]; · iexact Htok
    isplitl [Hrow]
    · rw [payload_bar, barPay_at c a (by omega)]
      isplitl [Hrow]; · iexact Hrow
      iexact HrV
    · iexact HrB
  · iintro HO; iapply Hk; iexists W; iexact HO

/-- The barrier wait: all fifteen peers' rows `c` come with it. -/
theorem bar_wait (K : Names) (c : Dev nD) {k' : ℕ} (hk' : 15 = k')
    {α : Type} {Q : α → sProp 𝕄} {k : PUnit → Prog (TpuEff nD τ sig (Elt F) Λ₀ .tc) α} :
    iprop(records m K ∗ cred (tallyAt (barCell c) () 15) ∗ owesE (F := F) c (OwR c 15) ∗ levAts L lv ∗ atPos ER (barCell c) 0 ∅ 0)
      ⊢ iprop(((owesE (F := F) c (OwR c 15) ∗ bigSep (Finset.Ico 1 16) (fun a => barPay (F := F) c a))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesE
  iintro ⟨#HR, Hc, ⟨%W, HO⟩, #Hlev, Hat⟩ Hk
  ihave #Hb := (records_bar m K c) $$ HR
  icases Hb with ⟨#HI, -⟩
  iapply (Rounds.wp_wait_rest_token 𝒱₀ ER (Rd m) (c : Thread nD τ) none (κ := K.bar c)
      (wpE_semWait_eq 𝒱₀ (c : Thread nD τ) none Set.univ) (Set.mem_univ _) () (O := OwR c 15) (W := W) (R := 0) (m := 0) (T := ∅)
      (by rw [expect_bar])) $$ [Hc HO Hat] [Hk]
  · isplitr; · iexact HI
    isplitl [Hc]; · iexact Hc
    isplitl [HO]; · iexact HO
    isplitr; · iapply (mayWait_bar c); iexact Hlev
    iexact Hat
  · iintro ⟨HO, -, -, Hpay⟩
    iapply Hk
    isplitl [HO]; · iexists _; iexact HO
    iapply (Entails.of_eq (rest_bar m c)); iexact Hpay

/-- The transfer of row `c` to `shift c a`: its source read at the lent share, its destination the row the peer handed over at
    the barrier; what lands there is the gathered contents (`hland`). -/
theorem enq_step (K : Names) (c : Dev nD) (a : ℕ) (h1 : 1 ≤ a) (h2 : a ≤ 15)
    (src dst : Memref sig .tc .vmem S2x1024 .f32) (hs : src = row c) (hd : dst = row c)
    (n : Dev nD) (hn : n = shift c a) (sS sR : DmaSem sig) (hsS : sS = sendSem a) (hsR : sR = recvSem c.val)
    (hland : ∀ fd : Buf (Elt F) ((row c).view.loc ((shift c a : Dev nD) : Thread nD τ)),
      ((((row c).view.loc ((shift c a : Dev nD) : Thread nD τ)) ↦[(row c).view.set]{fullShare}
          ((row c).view.write (Elt F) fd ((row c).view.read (Elt F) (gbufAt m c c)) Finset.univ) : sProp 𝕄))
        = rowPts (shift c a) c fullShare (gbufAt m (shift c a) c))
    {hsc : (dst : Memref sig (Dev.tc n : Thread nD τ).2.kind .vmem S2x1024 .f32).view.ref.isScScratch = false}
    {hsrc : (src : Memref sig .tc .vmem S2x1024 .f32).view.WordExact} {hdst : (dst : Memref sig .tc .vmem S2x1024 .f32).view.WordExact}
    {hsem : DmaTarget.Typed .vmem (.dma sR) (.remote (Dev.tc n : Thread nD τ) (dst : Memref sig .tc .vmem S2x1024 .f32) (.dma sS) hsc)}
    {α : Type} {Q : α → sProp 𝕄} {k : PUnit → Prog (TpuEff nD τ sig (Elt F) Λ₀ .tc) α} :
    iprop(records m K ∗ owesE (F := F) c (OwR c (16 - a)) ∗ rowPts c c (rest (a - 1)) (gbufAt m c c) ∗ barPay (F := F) c a
        ∗ dutyTok ER (recvCell (shift c a) c) 0 0 ∗ dutyTok ER (sendCell c a) 0 0)
      ⊢ iprop(((cred (tallyAt (sendCell c a) () N) ∗ owesE (F := F) c (OwR c (15 - a)) ∗ rowPts c c (rest a) (gbufAt m c c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hs; subst hd; subst hn; subst hsS; subst hsR
  unfold owesE barPay
  iintro ⟨#HR, ⟨%W, HO⟩, Hrow, ⟨⟨%fd, Hdst⟩, -⟩, HtV, HtS⟩ Hk
  ihave #Hs := (records_send m K c a (by omega)) $$ HR
  ihave #Hv := (records_recv m K (shift c a) c) $$ HR
  icases Hs with ⟨#HIs, #Hrs⟩
  icases Hv with ⟨#HIv, #Hrv⟩
  ihave Hsp := (rowPts_lend (F := F) c c (gbufAt m c c) a h1).1 $$ Hrow
  icases Hsp with ⟨Hlend, Hrest⟩
  unfold rowPts
  iapply (Rounds.wp_send_pointsTo 𝒱₀ ER (Rd m) (c : Thread nD τ) none (κ₁ := K.send c a) (κ₂ := K.recv (shift c a) c)
      (r₁ := 0) (r₂ := 0) (d₁ := 0) (d₂ := 0) (fd := fd)
      (by rw [duties_send m c a h1 h2]; exact Finset.mem_singleton_self _)
      (by rw [duties_recv m (shift c a) c (shift_ne c a h1 h2).symm]; exact Finset.mem_singleton_self _)
      () () N rfl (amount_send m c a 0) (amount_recv m (shift c a) c 0) (OwR c (15 - a)) (OwR_peel c a h1 h2) (W := W)
      (by rw [payload_send m c a h1 h2]; exact BI.Entails.refl _)
      (by rw [payload_recv, hland fd]; exact BI.Entails.refl _)) $$ [Hlend Hdst HO HtS HtV] [Hk Hrest]
  · isplitr; · iexact HIs
    isplitr; · iexact HIv
    isplitl [Hlend]; · iexact Hlend
    isplitl [Hdst]; · iexact Hdst
    isplitl [HO]; · iexact HO
    isplitl [HtS]; · iexact HtS
    isplitr; · iexact Hrs
    isplitl [HtV]; · iexact HtV
    iexact Hrv
  · iintro ⟨Hc, HO⟩
    iapply Hk
    isplitl [Hc]; · iexact Hc
    isplitl [HO]; · iexists W; iexact HO
    iexact Hrest

/-- The wait for the row of `shift c (16 - a)`: it is there, holding that device's statistics. -/
theorem rwait_step (K : Names) (c : Dev nD) (a : ℕ) (h1 : 1 ≤ a) (h2 : a ≤ 15)
    (sR : DmaSem sig) (hsR : sR = recvSem (shift c (16 - a)).val)
    (src dst : Memref sig .tc .vmem S2x1024 .f32) (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ cred (tallyAt (recvCell c (shift c (16 - a))) () N) ∗ owesE (F := F) c 0
        ∗ atPos ER (recvCell c (shift c (16 - a))) 0 ∅ 0)
      ⊢ iprop(((owesE (F := F) c 0 ∗ atPos ER (recvCell c (shift c (16 - a))) 1 ∅ 0
              ∗ rowPts c (shift c (16 - a)) fullShare (gbufAt m c (shift c (16 - a))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  unfold owesE
  iintro ⟨#HR, Hc, ⟨%W, HO⟩, Hat⟩ Hk
  ihave #Hv := (records_recv m K c (shift c (16 - a))) $$ HR
  icases Hv with ⟨#HI, -⟩
  have hne : shift c (16 - a) ≠ c := shift_ne c (16 - a) (by omega) (by omega)
  iapply (Rounds.wp_wait_rest_token 𝒱₀ ER (Rd m) (c : Thread nD τ) none (κ := K.recv c (shift c (16 - a)))
      (wpE_waitDma2_eq 𝒱₀ (c : Thread nD τ) none Set.univ) (Set.mem_univ _) () (O := 0) (W := W) (R := 0) (m := 0) (T := ∅)
      (by rw [Nat.zero_add, hN, expect_recv m c _ hne])) $$ [Hc HO Hat] [Hk]
  · isplitr; · iexact HI
    isplitl [Hc]; · rw [hN]; iexact Hc
    isplitl [HO]; · iexact HO
    isplitr; · rw [MayWait_zero]; iempintro
    iexact Hat
  · iintro ⟨HO, Hat, -, Hpay⟩
    iapply Hk
    isplitl [HO]; · iexists _; iexact HO
    isplitl [Hat]; · iexact Hat
    ihave Hp := (Entails.of_eq (rest_recv m c _ hne)) $$ Hpay
    unfold recvPay; iexact Hp

/-- The wait for transfer `a`'s source: the lent share of the own row comes back. -/
theorem swait_step (K : Names) (c : Dev nD) (a : ℕ) (h1 : 1 ≤ a) (h2 : a ≤ 15)
    (sS : DmaSem sig) (hsS : sS = sendSem a)
    (src dst : Memref sig .tc .vmem S2x1024 .f32) (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ cred (tallyAt (sendCell c a) () N) ∗ owesE (F := F) c 0 ∗ atPos ER (sendCell c a) 0 ∅ 0)
      ⊢ iprop(((owesE (F := F) c 0 ∗ atPos ER (sendCell c a) 1 ∅ 0 ∗ rowPts c c (lend a) (gbufAt m c c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold owesE
  iintro ⟨#HR, Hc, ⟨%W, HO⟩, Hat⟩ Hk
  ihave #Hs := (records_send m K c a (by omega)) $$ HR
  icases Hs with ⟨#HI, -⟩
  iapply (Rounds.wp_wait_rest_token 𝒱₀ ER (Rd m) (c : Thread nD τ) none (κ := K.send c a)
      (wpE_waitDma2_eq 𝒱₀ (c : Thread nD τ) none Set.univ) (Set.mem_univ _) () (O := 0) (W := W) (R := 0) (m := 0) (T := ∅)
      (by rw [Nat.zero_add, hN, expect_send m c a h1 h2])) $$ [Hc HO Hat] [Hk]
  · isplitr; · iexact HI
    isplitl [Hc]; · rw [hN]; iexact Hc
    isplitl [HO]; · iexact HO
    isplitr; · rw [MayWait_zero]; iempintro
    iexact Hat
  · iintro ⟨HO, Hat, -, Hpay⟩
    iapply Hk
    isplitl [HO]; · iexists _; iexact HO
    isplitl [Hat]; · iexact Hat
    ihave Hp := (Entails.of_eq (rest_send m c a h1 h2)) $$ Hpay
    unfold sendPay; iexact Hp

end Cert.KernelIdealProof

end
-- ==== Proof.KernelIdealRowVals.lean ====
/-
  Plumbing for the gather buffer, part 2: element sets and values.

  The sixteen rows partition the buffer: row `j` is the set of entries whose first coordinate is `j`, so
  a device's whole buffer is the separating conjunction of its rows.  The two stores of device `c` go
  through the rectangles `(c, 0, ·)` and `(c, 1, ·)`, both inside row `c`; after them row `c` agrees
  with the gathered contents.  A copy of row `c` read off the gathered contents and written through the
  same row of another device leaves the gathered contents there.  A load of the whole buffer through the
  rectangle at zero offsets reads its contents.
-/
import proofs.«901056_g7700000000001057_dist_softmax_colshard_i_m1024_n512_v7x_i16_f32_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows partition the gather buffer -/

/-- The elements of row `j`, as indices of the gather buffer. -/
def rowSet (j : Dev nD) : Finset S16x2x1024.Idx :=
  (Rect.unit (s := S16x2x1024) (rowOff j) S1x2x1024.size (rowOff_inb j)).set

theorem row_set (j : Dev nD) : (row j).view.set = rowSet j := by
  show ((gM.view.slice (Rect.unit (s := S16x2x1024) (rowOff j) S1x2x1024.size (rowOff_inb j))).reshape S2x1024 _).set = _
  rw [View.set_reshape]
  exact View.set_slice_whole cc0_scratch0 _

/-- The elements of row `j` are those with first coordinate `j`. -/
theorem mem_rowSet (j : Dev nD) (i : S16x2x1024.Idx) : i ∈ rowSet j ↔ (i 0).val = j.val := by
  unfold rowSet
  rw [Rect.mem_set_unit]
  have h1 : (i 1).val < 2 := (i 1).isLt
  have h2 : (i 2).val < 1024 := (i 2).isLt
  constructor
  · intro h
    have h0 : j.val ≤ (i 0).val ∧ (i 0).val < j.val + 1 := h 0
    omega
  · intro h a
    fin_cases a
    · show j.val ≤ (i 0).val ∧ (i 0).val < j.val + 1; omega
    · show 0 ≤ (i 1).val ∧ (i 1).val < 0 + 2; omega
    · show 0 ≤ (i 2).val ∧ (i 2).val < 0 + 1024; omega

theorem mem_row_set (j : Dev nD) (i : S16x2x1024.Idx) : i ∈ (row j).view.set ↔ (i 0).val = j.val :=
  (Finset.ext_iff.mp (row_set j) i).trans (mem_rowSet j i)

theorem rowSet_disjoint (j j' : Dev nD) (h : j ≠ j') : Disjoint (rowSet j) (rowSet j') := by
  rw [Finset.disjoint_left]
  intro i hi hi'
  rw [mem_rowSet] at hi hi'
  exact h (Fin.ext (hi.symm.trans hi'))

theorem biUnion_rowSet : (Finset.univ : Finset (Dev nD)).biUnion rowSet = Finset.univ := by
  ext i
  simp only [Finset.mem_biUnion, Finset.mem_univ, true_and, iff_true]
  exact ⟨⟨(i 0).val, (i 0).isLt⟩, (mem_rowSet _ i).mpr rfl⟩

/-- The whole gather buffer of a device is its sixteen rows. -/
theorem whole_rows (d : Dev nD) (q : PosShare TreeShare) (f : Buf (Elt F) ((d : Thread nD τ).loc cc0_scratch0)) :
    ((((d : Thread nD τ).loc cc0_scratch0) ↦{q} f : sProp 𝕄))
      = bigSep Finset.univ (fun j : Dev nD => rowPts (F := F) d j q f) := by
  have h := pointsTo_biUnion (nD := nD) (τ := τ) (sig := sig) (Ix := Unit) (Val := Elt F) (Name := ℕ) (U := UU) (Lvl := ℕ)
    (ℓ := (d : Thread nD τ).loc cc0_scratch0) (q := q) (f := f)
    (Finset.univ : Finset (Dev nD)) rowSet
    (fun t _ t' _ hne => rowSet_disjoint t t' hne)
  rw [biUnion_rowSet] at h
  refine h.trans (bigSep_congr fun j _ => ?_)
  exact congrArg (fun I : Finset S16x2x1024.Idx => (((d : Thread nD τ).loc cc0_scratch0) ↦[I]{q} f : sProp 𝕄)) (row_set j).symm

/-! ## Values: the two stores into a device's own row, a landed row, the whole buffer read back -/

/-- The rectangles of the two stores of device `c`: entries `(c, 0, ·)` and `(c, 1, ·)`. -/
abbrev r1 (c : Dev nD) : Rect S16x2x1024 := Rect.unit (s := S16x2x1024) (k0_off1 c) S1x1x1024.size (k0_off1_inb c)
abbrev r2 (c : Dev nD) : Rect S16x2x1024 := Rect.unit (s := S16x2x1024) (k0_off2 c) S1x1x1024.size (k0_off2_inb c)

theorem mem_r1 (c : Dev nD) (i : S16x2x1024.Idx) : i ∈ (r1 c).set ↔ (i 0).val = c.val ∧ (i 1).val = 0 := by
  rw [Rect.mem_set_unit]
  have h1 : (i 1).val < 2 := (i 1).isLt
  have h2 : (i 2).val < 1024 := (i 2).isLt
  simp only [Gen.k0_off1_eq]
  constructor
  · intro h
    have h0 : c.val ≤ (i 0).val ∧ (i 0).val < c.val + 1 := h 0
    have h1' : 0 ≤ (i 1).val ∧ (i 1).val < 0 + 1 := h 1
    omega
  · intro h a
    fin_cases a
    · show c.val ≤ (i 0).val ∧ (i 0).val < c.val + 1; omega
    · show 0 ≤ (i 1).val ∧ (i 1).val < 0 + 1; omega
    · show 0 ≤ (i 2).val ∧ (i 2).val < 0 + 1024; omega

theorem mem_r2 (c : Dev nD) (i : S16x2x1024.Idx) : i ∈ (r2 c).set ↔ (i 0).val = c.val ∧ (i 1).val = 1 := by
  rw [Rect.mem_set_unit]
  have h1 : (i 1).val < 2 := (i 1).isLt
  have h2 : (i 2).val < 1024 := (i 2).isLt
  simp only [Gen.k0_off2_eq]
  constructor
  · intro h
    have h0 : c.val ≤ (i 0).val ∧ (i 0).val < c.val + 1 := h 0
    have h1' : 1 ≤ (i 1).val ∧ (i 1).val < 1 + 1 := h 1
    omega
  · intro h a
    fin_cases a
    · show c.val ≤ (i 0).val ∧ (i 0).val < c.val + 1; omega
    · show 1 ≤ (i 1).val ∧ (i 1).val < 1 + 1; omega
    · show 0 ≤ (i 2).val ∧ (i 2).val < 0 + 1024; omega

/-- Both stores go into the device's own row. -/
theorem acc1_sub (c : Dev nD) : ((gM.access (r1 c)) : View sig .tc _ _ _).setOn Finset.univ ⊆ (row c).view.set := by
  intro i hi
  have hi' : i ∈ (r1 c).set := (Finset.ext_iff.mp (View.set_slice_whole cc0_scratch0 (r1 c)) i).mp hi
  exact (mem_row_set c i).mpr ((mem_r1 c i).mp hi').1

theorem acc2_sub (c : Dev nD) : ((gM.access (r2 c)) : View sig .tc _ _ _).setOn Finset.univ ⊆ (row c).view.set := by
  intro i hi
  have hi' : i ∈ (r2 c).set := (Finset.ext_iff.mp (View.set_slice_whole cc0_scratch0 (r2 c)) i).mp hi
  exact (mem_row_set c i).mpr ((mem_r2 c i).mp hi').1

/-- The same for the loads at the two rectangles. -/
theorem acc1_sub_load (c : Dev nD) : gM.view.setOn (r1 c).toLoadRect.set ⊆ (row c).view.set := by
  intro i hi
  have hi' : i ∈ (r1 c).set := by
    obtain ⟨y, hy, rfl⟩ := Finset.mem_map.mp hi; exact hy
  exact (mem_row_set c i).mpr ((mem_r1 c i).mp hi').1

theorem acc2_sub_load (c : Dev nD) : gM.view.setOn (r2 c).toLoadRect.set ⊆ (row c).view.set := by
  intro i hi
  have hi' : i ∈ (r2 c).set := by
    obtain ⟨y, hy, rfl⟩ := Finset.mem_map.mp hi; exact hy
  exact (mem_row_set c i).mpr ((mem_r2 c i).mp hi').1

/-- Two stores through the rectangles `(c, 0, ·)` and `(c, 1, ·)` leave, at an entry `(c, b, r)` of row `c`, the first payload
    at `(0, 0, r)` if `b = 0` and the second at `(0, 0, r)` otherwise. -/
theorem write2_val (c : Dev nD) (f0 : S16x2x1024.Idx → Elt F .f32) (w1 w2 : S1x1x1024.Idx → Elt F .f32)
    (i : S16x2x1024.Idx) (hi : (i 0).val = c.val) :
    (((gM.access (r2 c)) : View sig .tc _ _ _).write (Elt F)
      (((gM.access (r1 c)) : View sig .tc _ _ _).write (Elt F) f0 w1 Finset.univ) w2 Finset.univ) i
      = if (i 1).val = 0 then w1 (ValueIdx.ix3 (0 : Fin 1) (0 : Fin 1) (⟨(i 2).val, (i 2).isLt⟩ : Fin 1024))
        else w2 (ValueIdx.ix3 (0 : Fin 1) (0 : Fin 1) (⟨(i 2).val, (i 2).isLt⟩ : Fin 1024)) := by
  have h1 : (i 1).val < 2 := (i 1).isLt
  by_cases hz : (i 1).val = 0
  · rw [if_pos hz]
    have hy : (r1 c).emb (ValueIdx.ix3 (0 : Fin 1) (0 : Fin 1) (⟨(i 2).val, (i 2).isLt⟩ : Fin 1024)) = i := by
      funext a; apply Fin.ext
      have e1 : (r1 c).off a = (![c.val, 0, 0] : Fin 3 → ℕ) a := congrFun (Gen.k0_off1_eq c) a
      rw [Rect.emb_apply, e1]
      fin_cases a
      · show c.val + 1 * 0 = (i 0).val; omega
      · show 0 + 1 * 0 = (i 1).val; omega
      · show 0 + 1 * (i 2).val = (i 2).val; omega
    have hn : i ∉ ((gM.access (r2 c)) : View sig .tc _ _ _).setOn Finset.univ := fun hm => by
      have hm' : i ∈ (r2 c).set := (Finset.ext_iff.mp (View.set_slice_whole cc0_scratch0 (r2 c)) i).mp hm
      have := ((mem_r2 c i).mp hm').2
      omega
    refine (View.write_of_not_mem _ _ _ hn).trans ?_
    have hw := View.write_emb_of_mem (v := ((gM.access (r1 c)) : View sig .tc _ _ _)) (Val := Elt F) f0 w1
      (M := Finset.univ) (x := ValueIdx.ix3 (0 : Fin 1) (0 : Fin 1) (⟨(i 2).val, (i 2).isLt⟩ : Fin 1024)) (Finset.mem_univ _)
    exact (congrArg _ hy.symm).trans (hw.trans (cast_eq _ _))
  · rw [if_neg hz]
    have hy : (r2 c).emb (ValueIdx.ix3 (0 : Fin 1) (0 : Fin 1) (⟨(i 2).val, (i 2).isLt⟩ : Fin 1024)) = i := by
      funext a; apply Fin.ext
      have e1 : (r2 c).off a = (![c.val, 1, 0] : Fin 3 → ℕ) a := congrFun (Gen.k0_off2_eq c) a
      rw [Rect.emb_apply, e1]
      fin_cases a
      · show c.val + 1 * 0 = (i 0).val; omega
      · show 1 + 1 * 0 = (i 1).val; omega
      · show 0 + 1 * (i 2).val = (i 2).val; omega
    have hw := View.write_emb_of_mem (v := ((gM.access (r2 c)) : View sig .tc _ _ _)) (Val := Elt F)
      (((gM.access (r1 c)) : View sig .tc _ _ _).write (Elt F) f0 w1 Finset.univ) w2
      (M := Finset.univ) (x := ValueIdx.ix3 (0 : Fin 1) (0 : Fin 1) (⟨(i 2).val, (i 2).isLt⟩ : Fin 1024)) (Finset.mem_univ _)
    exact (congrArg _ hy.symm).trans (hw.trans (cast_eq _ _))

/-- After its two stores, device `c`'s own row holds its two rows of statistics: entry `(c, 0, r)` the maximum of
    row `r` of its block, entry `(c, 1, r)` the sum of that row's shifted exponentials. -/
theorem stored_val (c : Dev nD) (f0 : S16x2x1024.Idx → Elt F .f32) (i : S16x2x1024.Idx) (hi : (i 0).val = c.val) :
    (((gM.access (r2 c)) : View sig .tc _ _ _).write (Elt F)
      (((gM.access (r1 c)) : View sig .tc _ _ _).write (Elt F) f0 (k0_pay4 (xblk m c)) Finset.univ)
      (k0_pay5 (xblk m c)) Finset.univ) i = gath (xblk m) i := by
  have hc : (⟨(i 0).val, (i 0).isLt⟩ : Dev nD) = c := Fin.ext hi
  refine (write2_val c f0 (k0_pay4 (xblk m c)) (k0_pay5 (xblk m c)) i hi).trans ?_
  unfold gath
  rw [hc]

theorem stored_row (c : Dev nD) (f0 : Buf (Elt F) ((c : Thread nD τ).loc cc0_scratch0)) :
    rowPts (F := F) c c fullShare
      (((gM.access (r2 c)) : View sig .tc _ _ _).write (Elt F)
        (((gM.access (r1 c)) : View sig .tc _ _ _).write (Elt F) f0 (k0_pay4 (xblk m c)) Finset.univ)
        (k0_pay5 (xblk m c)) Finset.univ)
      = rowPts c c fullShare (gbufAt m c c) :=
  pointsTo_congr fun i hi => stored_val m c f0 i ((mem_row_set c i).mp hi)

/-- A copy of row `c` at the gathered contents, landed on device `d`, leaves row `c` there at the gathered contents. -/
theorem landed_row (c d : Dev nD) (fd : Buf (Elt F) ((row c).view.loc (d : Thread nD τ))) :
    (((row c).view.loc (d : Thread nD τ)) ↦[(row c).view.set]{fullShare}
        ((row c).view.write (Elt F) fd ((row c).view.read (Elt F) (gbufAt m c c)) Finset.univ) : sProp 𝕄)
      = rowPts d c fullShare (gbufAt m d c) := by
  unfold rowPts
  refine pointsTo_congr fun i hi => ?_
  have hi' : i ∈ (row c).view.setOn Finset.univ := hi
  rw [View.write_read_eq_piecewise, Finset.piecewise_eq_of_mem _ _ _ hi']
  rfl

/-- A load of the whole gather buffer reads its contents. -/
theorem read_whole_gbuf :
    gM.view.readAt (Elt F) (Rect.unit (s := S16x2x1024) ![0, 0, 0] S16x2x1024.size inb_S16x2x1024_S16x2x1024_0_0_0).toLoadRect (gbuf m)
      = gbuf m :=
  Memref.readAt_unit_zero (Elt F) cc0_scratch0 (off := ![0, 0, 0]) (by funext a; fin_cases a <;> rfl) _ (gbuf m)

/-- info: 'Cert.KernelIdealProof.whole_rows' depends on axioms: [propext, Classical.choice, Quot.sound] -/
#guard_msgs in #print axioms whole_rows

/-- info: 'Cert.KernelIdealProof.stored_row' depends on axioms: [propext, Classical.choice, Quot.sound] -/
#guard_msgs in #print axioms stored_row

/-- info: 'Cert.KernelIdealProof.landed_row' depends on axioms: [propext, Classical.choice, Quot.sound] -/
#guard_msgs in #print axioms landed_row

/-- info: 'Cert.KernelIdealProof.read_whole_gbuf' depends on axioms: [propext, Classical.choice, Quot.sound] -/
#guard_msgs in #print axioms read_whole_gbuf

/-- info: 'Cert.KernelIdealProof.acc1_sub' depends on axioms: [propext, Classical.choice, Quot.sound] -/
#guard_msgs in #print axioms acc1_sub

end Cert.KernelIdealProof

end
-- ==== Proof.KernelIdealClose.lean ====
/-
  The end of a device's body: its own thirty-two transfer cells are closed, their semaphores at zero.

  Each of the fifteen send cells and fifteen receive cells the device used stands at round 1, and no
  cell has a duty from round 1 on; the send cell of offset 0 and the receive cell for the device's own
  row were never used, stand at round 0, and have no duty at any round. A cell whose owner stands at a
  round from which no round has a duty, having taken nothing of it, closes with its counter at zero.
-/
import proofs.«901056_g7700000000001057_dist_softmax_colshard_i_m1024_n512_v7x_i16_f32_1_alg».proof.Proof.KernelIdealData
import proofs.«901056_g7700000000001057_dist_softmax_colshard_i_m1024_n512_v7x_i16_f32_1_alg».proof.Proof.KernelIdealRows

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- One cell: with the records, the owner's position at a round from which the cell has no duty, nothing
    taken, closes the cell and leaves its semaphore at zero. -/
theorem close_cell (K : Names) (κ : ℕ) (g : GSem nD τ sig) (R : ℕ)
    (hrec : records m K ⊢ iprop(cellInv ER (Rd m) κ g ∗ reached ER g 0))
    (hR : ∀ r, R ≤ r → (Rd (F := F) m).duties g r = ∅) :
    iprop(records m K ∗ atPos ER g R ∅ 0) ⊢ (|={Set.univ}=> semVal g 0 : sProp 𝕄) := by
  iintro ⟨Hrec, Hat⟩
  ihave H := hrec $$ Hrec
  icases H with ⟨Hinv, -⟩
  iapply (Rounds.cell_close ER (Rd m) (Set.mem_univ κ) (fun h => h) hR)
  isplitl [Hinv]
  · iexact Hinv
  · iexact Hat

/-- The records are there for every term of a separating conjunction. -/
theorem bigSep_with_records {I : Type} [DecidableEq I] (K : Names) (S : Finset I) (Φ Ψ : I → sProp 𝕄)
    (h : ∀ i ∈ S, iprop(records m K ∗ Φ i) ⊢ Ψ i) : iprop(records m K ∗ bigSep S Φ) ⊢ bigSep S Ψ := by
  refine (sep_mono_left (bigSep_of_persistent S (records m K))).trans ?_
  rw [← bigSep_sep']
  exact bigSep_mono h

/-- The sixteen send cells of device `c`: offsets `1 … 15` at round 1, offset `0` at round 0. -/
theorem close_sends (K : Names) (c : Dev nD) :
    iprop(records m K ∗ (bigSep (Finset.Ico 1 16) fun k => atPos ER (sendCell c k) 1 ∅ 0) ∗ atPos ER (sendCell c 0) 0 ∅ 0)
      ⊢ (|={Set.univ}=> bigSep (Finset.range 16) fun k => semVal (sendCell c k) 0 : sProp 𝕄) := by
  have e : Finset.range 16 = insert 0 (Finset.Ico 1 16) := by
    ext p; simp only [Finset.mem_range, Finset.mem_insert, Finset.mem_Ico]; omega
  have hused : iprop(records m K ∗ bigSep (Finset.Ico 1 16) fun k => atPos ER (sendCell c k) 1 ∅ 0)
      ⊢ (|={Set.univ}=> bigSep (Finset.Ico 1 16) fun k => semVal (sendCell c k) 0 : sProp 𝕄) :=
    (bigSep_with_records m K _ _ _ fun k hk =>
      close_cell m K (K.send c k) (sendCell c k) 1 (records_send m K c k (Finset.mem_Ico.mp hk).2)
        (duties_later m (sendCell c k))).trans (bigSep_fupd _ _)
  have hzero : iprop(records m K ∗ atPos ER (sendCell c 0) 0 ∅ 0) ⊢ (|={Set.univ}=> semVal (sendCell c 0) 0 : sProp 𝕄) :=
    close_cell m K (K.send c 0) (sendCell c 0) 0 (records_send m K c 0 (by decide)) (fun r _ => duties_send_zero m c r)
  rw [e, bigSep_insert (by simp only [Finset.mem_Ico]; omega)]
  iintro ⟨#Hrec, Hs, H0⟩
  iapply fupd_sep
  isplitl [H0]
  · iapply hzero
    isplitr
    · iexact Hrec
    · iexact H0
  · iapply hused
    isplitr
    · iexact Hrec
    · iexact Hs

/-- The sixteen receive cells of device `c`: the fifteen rows of the other devices at round 1, its own at round 0. -/
theorem close_recvs (K : Names) (c : Dev nD) :
    iprop(records m K ∗ (bigSep (Finset.Ico 1 16) fun k => atPos ER (recvCell c (shift c (16 - k))) 1 ∅ 0) ∗ atPos ER (recvCell c c) 0 ∅ 0)
      ⊢ (|={Set.univ}=> bigSep Finset.univ fun j : Dev nD => semVal (recvCell c j) 0 : sProp 𝕄) := by
  have hused : iprop(records m K ∗ bigSep (Finset.Ico 1 16) fun k => atPos ER (recvCell c (shift c (16 - k))) 1 ∅ 0)
      ⊢ (|={Set.univ}=> bigSep (Finset.Ico 1 16) fun k => semVal (recvCell c (shift c (16 - k))) 0 : sProp 𝕄) :=
    (bigSep_with_records m K _ _ _ fun k _ =>
      close_cell m K (K.recv c (shift c (16 - k))) (recvCell c (shift c (16 - k))) 1 (records_recv m K c (shift c (16 - k)))
        (duties_later m (recvCell c (shift c (16 - k))))).trans (bigSep_fupd _ _)
  have hzero : iprop(records m K ∗ atPos ER (recvCell c c) 0 ∅ 0) ⊢ (|={Set.univ}=> semVal (recvCell c c) 0 : sProp 𝕄) :=
    close_cell m K (K.recv c c) (recvCell c c) 0 (records_recv m K c c) (fun r _ => duties_recv_own m c r)
  rw [bigSep_dev_back c (fun j : Dev nD => (semVal (recvCell c j) 0 : sProp 𝕄))]
  iintro ⟨#Hrec, Hs, H0⟩
  iapply fupd_sep
  isplitl [H0]
  · iapply hzero
    isplitr
    · iexact Hrec
    · iexact H0
  · iapply hused
    isplitr
    · iexact Hrec
    · iexact Hs

end Cert.KernelIdealProof

end
-- ==== Proof.KernelIdealBody.lean ====
/-
  One device's body, stepped from what the launch deals it to what it gives back.

  In program order: fifteen signals (each handing a peer the row that peer will write), the two rows of statistics
  stored into the device's own row, the barrier wait (every peer's row `c` arrives), fifteen transfers of the own row
  (each reading it at a lent share), the exponentials stored, fifteen receive waits (every row now holds its device's
  statistics), the whole buffer loaded at the left half-share, the result stored, fifteen send waits (the lent shares
  come back), the shares rejoined and the thirty-two cells closed.
-/
import proofs.«901056_g7700000000001057_dist_softmax_colshard_i_m1024_n512_v7x_i16_f32_1_alg».proof.Proof.KernelIdealSteps
import proofs.«901056_g7700000000001057_dist_softmax_colshard_i_m1024_n512_v7x_i16_f32_1_alg».proof.Proof.KernelIdealRowVals
import proofs.«901056_g7700000000001057_dist_softmax_colshard_i_m1024_n512_v7x_i16_f32_1_alg».proof.Proof.KernelIdealClose
import proofs.«901056_g7700000000001057_dist_softmax_colshard_i_m1024_n512_v7x_i16_f32_1_alg».proof.Proof.Gen.KernelIdeal.Skeleton
import proofs.«901056_g7700000000001057_dist_softmax_colshard_i_m1024_n512_v7x_i16_f32_1_alg».proof.Proof.Gen.KernelIdeal.Points

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem hz2 : (![0, 0] : Fin 2 → Nat) = fun _ => 0 := funext fun a => by fin_cases a <;> rfl

abbrev xM : Memref sig .tc .vmem S1024x512 .f32 := Memref.whole cc0_stg0_0
abbrev oM : Memref sig .tc .vmem S1024x512 .f32 := Memref.whole cc0_stg1_0
abbrev r0 : Rect S1024x512 := Rect.unit (s := S1024x512) ![0, 0] S1024x512.size inb_S1024x512_S1024x512_0_0

omit [FloatOps F] in
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz2 _ f
omit [FloatOps F] in
theorem read_o (f : (cc0_stg1_0 : Ref sig .tc).ty.Contents (Elt F)) : (oM : Memref sig .tc .vmem S1024x512 .f32).view.readAt (Elt F) r0.toLoadRect f = f :=
  Memref.readAt_unit_zero (Elt F) cc0_stg1_0 hz2 _ f
omit [FloatOps F] in
theorem write_o (f w : (cc0_stg1_0 : Ref sig .tc).ty.Contents (Elt F)) :
    ((oM : Memref sig .tc .vmem S1024x512 .f32).access r0 : View sig .tc _ _ _).write (Elt F) f w Finset.univ = w :=
  Memref.write_access_unit_zero_univ (Elt F) cc0_stg1_0 hz2 _ f w

/-- The row the kernel slices at its own position is `row c`. -/
theorem row_own (c : Dev nD) :
    ((Memref.whole cc0_scratch0 : Memref sig .tc .vmem S16x2x1024 .f32).slice (Rect.unit (s := S16x2x1024) (k0_off4 c) S1x2x1024.size (k0_off4_inb c)) (fun _ => rfl)).squeeze S2x1024 squeezes_S1x2x1024_S2x1024 = row c := by
  unfold row rowOff
  exact congrArg (fun x : Memref sig .tc .vmem S1x2x1024 .f32 => x.squeeze S2x1024 squeezes_S1x2x1024_S2x1024)
    (Memref.slice_unit_congr _ (k0_off4_eq c) (k0_off4_inb c) (rowOff_inb c) (fun _ => rfl) (fun _ => rfl))

/-- A row held at the full share is held at both halves. -/
theorem rowPts_halves_eq (d j : Dev nD) (f : Buf (Elt F) ((row j).view.loc (d : Thread nD τ))) :
    (rowPts (F := F) d j fullShare f : sProp 𝕄) = iprop(rowPts d j fullShare.left f ∗ rowPts d j fullShare.right f) :=
  BI.equiv_iff.mp ⟨(rowPts_halves (F := F) d j f).1, (rowPts_halves (F := F) d j f).2⟩

/-- The fifteen received rows, each at both halves. -/
theorem got_halves (c : Dev nD) :
    (bigSep (Finset.Ico 1 16) (fun k => rowPts (F := F) c (shift c (16 - k)) fullShare (gbufAt m c (shift c (16 - k)))) : sProp 𝕄)
      = iprop((bigSep (Finset.Ico 1 16) fun k => rowPts (F := F) c (shift c (16 - k)) fullShare.left (gbufAt m c (shift c (16 - k))))
          ∗ bigSep (Finset.Ico 1 16) fun k => rowPts (F := F) c (shift c (16 - k)) fullShare.right (gbufAt m c (shift c (16 - k)))) := by
  rw [← bigSep_sep']
  exact bigSep_congr fun k _ => rowPts_halves_eq c (shift c (16 - k)) _

/-- All sixteen rows at one share and the gathered contents are the whole buffer at that share. -/
theorem whole_of_rows (c : Dev nD) (q : PosShare TreeShare) :
    (iprop(rowPts (F := F) c c q (gbufAt m c c) ∗ bigSep (Finset.Ico 1 16) (fun k => rowPts (F := F) c (shift c (16 - k)) q (gbufAt m c (shift c (16 - k))))) : sProp 𝕄)
      = (((c : Thread nD τ).loc cc0_scratch0) ↦{q} (gbuf m : Buf (Elt F) ((c : Thread nD τ).loc cc0_scratch0)) : sProp 𝕄) := by
  rw [whole_rows (F := F) c q (gbuf m : Buf (Elt F) ((c : Thread nD τ).loc cc0_scratch0)),
    bigSep_dev_back c (fun j => rowPts (F := F) c j q (gbuf m : Buf (Elt F) ((c : Thread nD τ).loc cc0_scratch0)))]
  rfl

/-- A row's points-to, over the buffer's own location. -/
theorem rowPts_loc (d j : Dev nD) (q : PosShare TreeShare) (f : Buf (Elt F) ((d : Thread nD τ).loc cc0_scratch0)) :
    (rowPts (F := F) d j q f : sProp 𝕄) = ((((d : Thread nD τ).loc cc0_scratch0) ↦[(row j).view.set]{q} f) : sProp 𝕄) := rfl

/-- The own row after the two stores holds the gathered contents. -/
theorem stored_loc (c : Dev nD) (f0 : Buf (Elt F) ((c : Thread nD τ).loc cc0_scratch0)) :
    ((((c : Thread nD τ).loc cc0_scratch0) ↦[(row c).view.set]{fullShare}
        (((gM.access (r2 c)) : View sig .tc _ _ _).write (Elt F) (((gM.access (r1 c)) : View sig .tc _ _ _).write (Elt F) f0 (k0_pay4 (xblk m c)) Finset.univ) (k0_pay5 (xblk m c)) Finset.univ)) : sProp 𝕄)
      = rowPts c c fullShare (gbufAt m c c) := stored_row m c f0

section Body

variable (K : Names)

def bodyPre (c : Dev nD) : sProp 𝕄 :=
  iprop((ghost m K c ∗ cred (tallyAt (barCell c) () 15)
      ∗ (bigSep (Finset.Ico 1 16) fun k => cred (tallyAt (recvCell c (shift c (16 - k))) () N))
      ∗ levAts L lv ∗ ∃ f : Buf (Elt F) ((c : Thread nD τ).loc cc0_scratch0), ((c : Thread nD τ).loc cc0_scratch0) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xblk m c) ∗ stg c cc0_stg1_0 (outAt (xblk m) c))

set_option hygiene false in
/-- Signal `a`: one token and one row off their families, through the signal rule. -/
local macro "sig_at " a:num e:ident : tactic => `(tactic| (
  ihave Hp := (Entails.of_eq (bigSep_Ico_peel $a (by decide) _)) $$ HtB
  icases Hp with ⟨Htok, HtB⟩
  ihave Hp := (Entails.of_eq (bigSep_Ico_peel $a (by decide) _)) $$ Hrows
  icases Hp with ⟨Hrow, Hrows⟩
  iapply (sig_step m K c $a (by decide) (by decide) _ ($e c) (by decide)) $$ [HO Htok Hrow]
  · isplitr; · iexact HR
    isplitl [HO]; · iexact HO
    isplitl [Htok]; · iexact Htok
    iexists f0; iexact Hrow
  iintro HO))

set_option hygiene false in
/-- Transfer `a`: the peer's row, the two tokens, a lent share of the own row; the send credit joins those already held. -/
local macro "enq_at " a:num e:ident s:ident : tactic => `(tactic| (
  ihave Hp := (Entails.of_eq (bigSep_Ico_peel $a (by decide) _)) $$ Hbar
  icases Hp with ⟨Hb, Hbar⟩
  ihave Hp := (Entails.of_eq (bigSep_Ico_peel $a (by decide) _)) $$ HtV
  icases Hp with ⟨Htv, HtV⟩
  ihave Hp := (Entails.of_eq (bigSep_Ico_peel $a (by decide) _)) $$ HtS
  icases Hp with ⟨Hts, HtS⟩
  iapply (enq_step m K c $a (by decide) (by decide) _ _ (row_own c) (row_own c) _ ($e c) _ _ $s (recvSem_own c) (landed_row m c (shift c $a))) $$ [HO Hlendable Hb Htv Hts]
  · isplitr; · iexact HR
    isplitl [HO]; · iexact HO
    isplitl [Hlendable]; · iexact Hlendable
    isplitl [Hb]; · iexact Hb
    isplitl [Htv]; · iexact Htv
    iexact Hts
  iintro ⟨Hc, HO, Hlendable⟩
  ihave Hcs := (Entails.of_eq (bigSep_Ico_snoc $a (by decide) (fun k => cred (tallyAt (sendCell c k) () N))).symm) $$ [Hcs Hc]
  · isplitl [Hcs]; · iexact Hcs
    iexact Hc))

set_option hygiene false in
/-- Receive wait `a`: the row of `shift c (16 - a)` joins the rows already received. -/
local macro "rw_at " a:num s:ident : tactic => `(tactic| (
  ihave Hp := (Entails.of_eq (bigSep_Ico_peel $a (by decide) _)) $$ HcV
  icases Hp with ⟨Hc, HcV⟩
  ihave Hp := (Entails.of_eq (bigSep_Ico_peel $a (by decide) _)) $$ HatV
  icases Hp with ⟨Hat, HatV⟩
  iapply (rwait_step m K c $a (by decide) (by decide) _ ($s c) _ _ (by rfl)) $$ [HO Hc Hat]
  · isplitr; · iexact HR
    isplitl [Hc]; · iexact Hc
    isplitl [HO]; · iexact HO
    iexact Hat
  iintro ⟨HO, Hat, Hrow⟩
  ihave HatV1 := (Entails.of_eq (bigSep_Ico_snoc $a (by decide) (fun k => atPos ER (recvCell c (shift c (16 - k))) 1 ∅ 0)).symm) $$ [HatV1 Hat]
  · isplitl [HatV1]; · iexact HatV1
    iexact Hat
  ihave Hgot := (Entails.of_eq (bigSep_Ico_snoc $a (by decide) (fun k => rowPts (F := F) c (shift c (16 - k)) fullShare (gbufAt m c (shift c (16 - k))))).symm) $$ [Hgot Hrow]
  · isplitl [Hgot]; · iexact Hgot
    iexact Hrow))

set_option hygiene false in
/-- Send wait `a`: the share lent to transfer `a` joins those already back. -/
local macro "sw_at " a:num s:ident : tactic => `(tactic| (
  ihave Hp := (Entails.of_eq (bigSep_Ico_peel $a (by decide) _)) $$ Hcs
  icases Hp with ⟨Hc, Hcs⟩
  ihave Hp := (Entails.of_eq (bigSep_Ico_peel $a (by decide) _)) $$ HatS
  icases Hp with ⟨Hat, HatS⟩
  iapply (swait_step m K c $a (by decide) (by decide) _ $s _ _ (by rfl)) $$ [HO Hc Hat]
  · isplitr; · iexact HR
    isplitl [Hc]; · iexact Hc
    isplitl [HO]; · iexact HO
    iexact Hat
  iintro ⟨HO, Hat, Hrow⟩
  ihave HatS1 := (Entails.of_eq (bigSep_Ico_snoc $a (by decide) (fun k => atPos ER (sendCell c k) 1 ∅ 0)).symm) $$ [HatS1 Hat]
  · isplitl [HatS1]; · iexact HatS1
    iexact Hat
  ihave Hback := (Entails.of_eq (bigSep_Ico_snoc $a (by decide) (fun k => rowPts (F := F) c c (lend k) (gbufAt m c c))).symm) $$ [Hback Hrow]
  · isplitl [Hback]; · iexact Hback
    iexact Hrow))

omit [FloatOps F] in
theorem bigSep_Ico_nil (Ψ : ℕ → sProp 𝕄) : (bigSep (Finset.Ico 1 1) Ψ : sProp 𝕄) = iprop(emp) := by
  rw [Finset.Ico_self]; exact bigSep_empty

set_option maxHeartbeats 16000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  unfold cc0_body_skel
  simp only [k0_part28_eq_skeleton]
  unfold k0_part28_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId]
  unfold bodyPre ghost linear
  iintro ⟨⟨⟨⟨#HR, HatB, HatS, HatS0, HatV, HatVc, HtB, HtV, HtS⟩, HcB, HcV, #Hlev, ⟨%f0, Hscr⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = OwS c 15 from rfl]
  ihave HO : owesE (F := F) c (OwS c 15) $$ [HO]
  · unfold owesE; iexists W; iexact HO
  -- the gather buffer by rows: the own row, and the fifteen others by offset
  ihave Hrows := (Entails.of_eq (whole_rows (F := F) c fullShare f0)) $$ Hscr
  ihave Hrows := (Entails.of_eq (bigSep_dev_shift c (fun j => rowPts (F := F) c j fullShare f0))) $$ Hrows
  icases Hrows with ⟨Hrowc, Hrows⟩
  -- the fifteen signals
  sig_at 1 dev1_eq
  sig_at 2 dev2_eq
  sig_at 3 dev3_eq
  sig_at 4 dev4_eq
  sig_at 5 dev5_eq
  sig_at 6 dev6_eq
  sig_at 7 dev7_eq
  sig_at 8 dev8_eq
  sig_at 9 dev9_eq
  sig_at 10 dev10_eq
  sig_at 11 dev11_eq
  sig_at 12 dev12_eq
  sig_at 13 dev13_eq
  sig_at 14 dev14_eq
  sig_at 15 dev15_eq
  -- the input block, and the two rows of statistics stored into the own row
  iapply (wp_load 𝒱₀ (c : Thread nD τ) none Set.univ (m := xM) (Finset.subset_univ _)) $$ Hx; iintro Hx
  rw [read_x]
  ihave Hrowc := (Entails.of_eq (rowPts_loc (F := F) c c fullShare f0)) $$ Hrowc
  iapply (wp_load 𝒱₀ (c : Thread nD τ) none Set.univ (m := gM) (acc1_sub_load c)) $$ Hrowc; iintro Hrowc
  iapply (wp_store 𝒱₀ (c : Thread nD τ) none Set.univ (m := gM) (r := r1 c) (Mk := Finset.univ) (acc1_sub c)) $$ Hrowc; iintro Hrowc
  iapply (wp_load 𝒱₀ (c : Thread nD τ) none Set.univ (m := gM) (acc2_sub_load c)) $$ Hrowc; iintro Hrowc
  iapply (wp_store 𝒱₀ (c : Thread nD τ) none Set.univ (m := gM) (r := r2 c) (Mk := Finset.univ) (acc2_sub c)) $$ Hrowc; iintro Hrowc
  ihave Hrowc := (Entails.of_eq (stored_loc m c f0)) $$ Hrowc
  -- the barrier wait
  iapply (bar_wait m K c (by decide)) $$ [HcB HO HatB]
  · isplitr; · iexact HR
    isplitl [HcB]; · iexact HcB
    isplitl [HO]; · iexact HO
    isplitr; · iexact Hlev
    iexact HatB
  iintro ⟨HO, Hbar⟩
  -- the own row: the left half kept, the right half lent out piece by piece
  ihave Hh := (Entails.of_eq (rowPts_halves_eq (F := F) c c (gbufAt m c c))) $$ Hrowc
  icases Hh with ⟨Hkeep, Hlendable⟩
  ihave Hcs : (bigSep (Finset.Ico 1 1) (fun k => cred (tallyAt (sendCell c k) () N)) : sProp 𝕄) $$ []
  · rw [bigSep_Ico_nil]; iempintro
  -- the fifteen transfers
  enq_at 1 dev16_eq sendSem_at1
  enq_at 2 dev17_eq sendSem_at2
  enq_at 3 dev18_eq sendSem_at3
  enq_at 4 dev19_eq sendSem_at4
  enq_at 5 dev20_eq sendSem_at5
  enq_at 6 dev21_eq sendSem_at6
  enq_at 7 dev22_eq sendSem_at7
  enq_at 8 dev23_eq sendSem_at8
  enq_at 9 dev24_eq sendSem_at9
  enq_at 10 dev25_eq sendSem_at10
  enq_at 11 dev26_eq sendSem_at11
  enq_at 12 dev27_eq sendSem_at12
  enq_at 13 dev28_eq sendSem_at13
  enq_at 14 dev29_eq sendSem_at14
  enq_at 15 dev30_eq sendSem_at15
  -- the shifted exponentials into the result block
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  -- the fifteen receive waits
  ihave HatV1 : (bigSep (Finset.Ico 1 1) (fun k => atPos ER (recvCell c (shift c (16 - k))) 1 ∅ 0) : sProp 𝕄) $$ []
  · rw [bigSep_Ico_nil]; iempintro
  ihave Hgot : (bigSep (Finset.Ico 1 1) (fun k => rowPts (F := F) c (shift c (16 - k)) fullShare (gbufAt m c (shift c (16 - k)))) : sProp 𝕄) $$ []
  · rw [bigSep_Ico_nil]; iempintro
  rw_at 1 recvSem_from1
  rw_at 2 recvSem_from2
  rw_at 3 recvSem_from3
  rw_at 4 recvSem_from4
  rw_at 5 recvSem_from5
  rw_at 6 recvSem_from6
  rw_at 7 recvSem_from7
  rw_at 8 recvSem_from8
  rw_at 9 recvSem_from9
  rw_at 10 recvSem_from10
  rw_at 11 recvSem_from11
  rw_at 12 recvSem_from12
  rw_at 13 recvSem_from13
  rw_at 14 recvSem_from14
  rw_at 15 recvSem_from15
  -- every row at the left half-share: the whole buffer, loaded
  ihave Hg := (Entails.of_eq (got_halves m c)) $$ Hgot
  icases Hg with ⟨HgotL, HgotR⟩
  ihave Hwhole := (Entails.of_eq (whole_of_rows m c fullShare.left)) $$ [Hkeep HgotL]
  · isplitl [Hkeep]; · iexact Hkeep
    iexact HgotL
  iapply (wp_load 𝒱₀ (c : Thread nD τ) none Set.univ (m := gM) (Finset.subset_univ _)) $$ Hwhole; iintro Hwhole
  rw [read_whole_gbuf]
  -- the result
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  -- the fifteen send waits
  ihave HatS1 : (bigSep (Finset.Ico 1 1) (fun k => atPos ER (sendCell c k) 1 ∅ 0) : sProp 𝕄) $$ []
  · rw [bigSep_Ico_nil]; iempintro
  ihave Hback : (bigSep (Finset.Ico 1 1) (fun k => rowPts (F := F) c c (lend k) (gbufAt m c c)) : sProp 𝕄) $$ []
  · rw [bigSep_Ico_nil]; iempintro
  sw_at 1 sendSem_at1
  sw_at 2 sendSem_at2
  sw_at 3 sendSem_at3
  sw_at 4 sendSem_at4
  sw_at 5 sendSem_at5
  sw_at 6 sendSem_at6
  sw_at 7 sendSem_at7
  sw_at 8 sendSem_at8
  sw_at 9 sendSem_at9
  sw_at 10 sendSem_at10
  sw_at 11 sendSem_at11
  sw_at 12 sendSem_at12
  sw_at 13 sendSem_at13
  sw_at 14 sendSem_at14
  sw_at 15 sendSem_at15
  -- the shares rejoined: the own row's right half, then the whole buffer's, then the whole buffer
  ihave Hright := (rowPts_unlend (F := F) c c (gbufAt m c c) 15) $$ [Hlendable Hback]
  · isplitl [Hlendable]; · iexact Hlendable
    iexact Hback
  ihave HwR := (Entails.of_eq (whole_of_rows m c fullShare.right)) $$ [Hright HgotR]
  · isplitl [Hright]; · iexact Hright
    iexact HgotR
  ihave Hscr := (pointsTo_share (PosShare.mem_left_op_right fullShare)).2 $$ [Hwhole HwR]
  · isplitl [Hwhole]; · iexact Hwhole
    iexact HwR
  -- the thirty-two own cells closed
  imod (close_sends m K c) $$ [HatS1 HatS0] with HzS
  · isplitr; · iexact HR
    isplitl [HatS1]; · iexact HatS1
    iexact HatS0
  imod (close_recvs m K c) $$ [HatV1 HatVc] with HzV
  · isplitr; · iexact HR
    isplitl [HatV1]; · iexact HatV1
    iexact HatVc
  rw [wp_ret]; imodintro
  iapply Hk
  unfold bodyPost Φ₁ Dat.owesAt Pipeline.owesWithin
  rw [show (dats m 0 c).owed t₀.succ = 0 from rfl]
  isplitl [Hscr HzS HzV]
  · isplitl [Hscr]; · iexists _; iexact Hscr
    isplitl [HzS]; · iexact HzS
    iexact HzV
  isplitl [HO]
  · unfold owesE; icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

end Body

/-- The obligation's precondition at the one point: the invariant before it, what the device owes, the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.KernelIdealFund.lean ====
/-
  The launch's ghost state: the cells of the protocol and the duty tokens the launch element
  mints, what that element deals each device, and the global step that turns every device's
  semaphores at zero into the cells' invariants and hands each device the tokens of the duties
  it pays.

  Each device has thirty-three cells: its barrier cell, sixteen send cells (offset 0 unused)
  and sixteen receive cells (its own position unused).  The tokens are minted per owner and
  dealt all-to-all: duty `d` of `p`'s barrier cell goes to `shift p d`, the duty of `p`'s receive
  cell for `j` goes to `j`, the duty of a send cell stays with its owner.
-/
import proofs.«901056_g7700000000001057_dist_softmax_colshard_i_m1024_n512_v7x_i16_f32_1_alg».proof.Proof.KernelIdealData
import proofs.«901056_g7700000000001057_dist_softmax_colshard_i_m1024_n512_v7x_i16_f32_1_alg».proof.Proof.KernelIdealRows

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

abbrev osem : Fin 32 → SemLoc sig := fun i => .dma ⟨i.val + 2, by have := i.isLt; show i.val + 2 < 34; omega⟩

theorem ownSemFacts : Pipeline.OwnSemFacts cfg0.spec osem := by decide

/-! ## The cells and the tokens -/

theorem sendSem_inj {k k' : ℕ} (hk : k < 16) (hk' : k' < 16) (h : sendSem k = sendSem k') : k = k' := by
  have := congrArg Fin.val h; rw [sendSem_val, sendSem_val] at this; omega
theorem recvSem_inj {j j' : ℕ} (hj : j < 16) (hj' : j' < 16) (h : recvSem j = recvSem j') : j = j' := by
  have := congrArg Fin.val h; rw [recvSem_val, recvSem_val] at this; omega
theorem sendSem_ne_recvSem (k j : ℕ) : sendSem k ≠ recvSem j := by
  intro h; have := congrArg Fin.val h; rw [sendSem_val, recvSem_val] at this; omega

abbrev CIx : Type := Unit ⊕ (Fin 16 ⊕ Dev nD)

/-- The cells: (owner, which of its thirty-three). -/
def kcell : Dev nD × CIx → GSem nD τ sig
  | (c, .inl _) => barCell c
  | (c, .inr (.inl k)) => sendCell c k.val
  | (c, .inr (.inr j)) => recvCell c j

theorem kcell_injective : Function.Injective kcell := by
  rintro ⟨c, i⟩ ⟨c', i'⟩ h
  have h1 : c = c' := by
    rcases i with _ | k | j <;> rcases i' with _ | k' | j' <;> exact congrArg (fun g : GSem nD τ sig => g.1.1) h
  subst h1
  rcases i with _ | k | j <;> rcases i' with _ | k' | j'
  · rfl
  · exact absurd (congrArg Prod.snd h) (fun e => by cases e)
  · exact absurd (congrArg Prod.snd h) (fun e => by cases e)
  · exact absurd (congrArg Prod.snd h) (fun e => by cases e)
  · have e : sendSem k.val = sendSem k'.val := SemLoc.dma.inj (congrArg Prod.snd h)
    have : k = k' := Fin.ext (sendSem_inj k.isLt k'.isLt e)
    subst this; rfl
  · exact absurd (SemLoc.dma.inj (congrArg Prod.snd h)) (sendSem_ne_recvSem _ _)
  · exact absurd (congrArg Prod.snd h) (fun e => by cases e)
  · exact absurd (SemLoc.dma.inj (congrArg Prod.snd h)).symm (sendSem_ne_recvSem _ _)
  · have e : recvSem j.val = recvSem j'.val := SemLoc.dma.inj (congrArg Prod.snd h)
    have : j = j' := Fin.ext (recvSem_inj j.isLt j'.isLt e)
    subst this; rfl

def ringCells : Finset (GSem nD τ sig) := Finset.univ.map ⟨kcell, kcell_injective⟩

abbrev TIx : Type := Fin 16 ⊕ (Fin 16 ⊕ Dev nD)

/-- The tokens minted: (owner, which duty of which of its cells). -/
def tokOf : Dev nD × TIx → GSem nD τ sig × ℕ × ℕ
  | (c, .inl d) => (barCell c, 0, d.val)
  | (c, .inr (.inl k)) => (sendCell c k.val, 0, 0)
  | (c, .inr (.inr j)) => (recvCell c j, 0, 0)

theorem tokOf_injective : Function.Injective tokOf := by
  rintro ⟨c, i⟩ ⟨c', i'⟩ h
  have h1 : c = c' := by
    rcases i with d | k | j <;> rcases i' with d' | k' | j' <;> exact congrArg (fun x : GSem nD τ sig × ℕ × ℕ => x.1.1.1) h
  subst h1
  rcases i with d | k | j <;> rcases i' with d' | k' | j'
  · have : d = d' := Fin.ext (congrArg (fun x : GSem nD τ sig × ℕ × ℕ => x.2.2) h)
    subst this; rfl
  · exact absurd (congrArg (fun x : GSem nD τ sig × ℕ × ℕ => x.1.2) h) (fun e => by cases e)
  · exact absurd (congrArg (fun x : GSem nD τ sig × ℕ × ℕ => x.1.2) h) (fun e => by cases e)
  · exact absurd (congrArg (fun x : GSem nD τ sig × ℕ × ℕ => x.1.2) h) (fun e => by cases e)
  · have e : sendSem k.val = sendSem k'.val := SemLoc.dma.inj (congrArg (fun x : GSem nD τ sig × ℕ × ℕ => x.1.2) h)
    have : k = k' := Fin.ext (sendSem_inj k.isLt k'.isLt e)
    subst this; rfl
  · exact absurd (SemLoc.dma.inj (congrArg (fun x : GSem nD τ sig × ℕ × ℕ => x.1.2) h)) (sendSem_ne_recvSem _ _)
  · exact absurd (congrArg (fun x : GSem nD τ sig × ℕ × ℕ => x.1.2) h) (fun e => by cases e)
  · exact absurd (SemLoc.dma.inj (congrArg (fun x : GSem nD τ sig × ℕ × ℕ => x.1.2) h)).symm (sendSem_ne_recvSem _ _)
  · have e : recvSem j.val = recvSem j'.val := SemLoc.dma.inj (congrArg (fun x : GSem nD τ sig × ℕ × ℕ => x.1.2) h)
    have : j = j' := Fin.ext (recvSem_inj j.isLt j'.isLt e)
    subst this; rfl

def ringToks : Finset (GSem nD τ sig × ℕ × ℕ) := Finset.univ.map ⟨tokOf, tokOf_injective⟩

def u₀ : UU :=
  (initOf (Pipeline.cells cfgs cellOf_inj) (Pipeline.launchToks cfgs cellOf_inj), initOf ringCells ringToks)

/-- A family of assertions over device `c`'s thirty-three cells. -/
def fam (c : Dev nD) (Φ : GSem nD τ sig → sProp 𝕄) : sProp 𝕄 :=
  iprop(Φ (barCell c) ∗ (bigSep (Finset.range 16) fun k => Φ (sendCell c k)) ∗ bigSep Finset.univ fun j : Dev nD => Φ (recvCell c j))

/-- The duty tokens of device `c`'s own cells. -/
def toks (c : Dev nD) : sProp 𝕄 :=
  iprop((bigSep (Finset.Ico 1 16) fun d => dutyTok ER (barCell c) 0 d)
    ∗ (bigSep (Finset.Ico 1 16) fun k => dutyTok ER (sendCell c k) 0 0)
    ∗ (bigSep (Finset.univ.erase c) fun j : Dev nD => dutyTok ER (recvCell c j) 0 0))

/-- What the launch element deals device `c`. -/
def G (c : Dev nD) : sProp 𝕄 :=
  iprop(fam c (fun g => roundState ER (Rd m) g 0) ∗ fam c (fun g => atPos ER g 0 ∅ 0) ∗ fam c (fun g => reached ER g 0) ∗ toks (F := F) c)

/-- What the global step makes of it. -/
def G' (c : Dev nD) : sProp 𝕄 := iprop(∃ K, ghost m K c)

/-! ## Funding -/

omit [FloatOps F] in
/-- A conjunction over the sixteen offsets, as one over the numbers below sixteen. -/
theorem bigSep_fin16_range (Ψ : ℕ → sProp 𝕄) : (bigSep (Finset.univ : Finset (Fin 16)) fun k => Ψ k.val) = bigSep (Finset.range 16) Ψ := by
  have h : (Finset.univ : Finset (Fin 16)).map Fin.valEmbedding = Finset.range 16 := by decide
  rw [← h, bigSep_map]; rfl

omit [FloatOps F] in
theorem cells_split (Φ : GSem nD τ sig → sProp 𝕄) : bigSep ringCells Φ = bigSep Finset.univ fun c : Dev nD => fam c Φ := by
  unfold ringCells; rw [bigSep_map, bigSep_univ_prod]
  refine bigSep_congr fun c _ => ?_
  rw [bigSep_univ_sum, bigSep_univ_sum, bigSep_univ_of_subsingleton ()]
  unfold fam
  rw [← bigSep_fin16_range]; rfl

omit [FloatOps F] in
theorem toks_split : bigSep ringToks (fun x => (dutyTok ER x.1 x.2.1 x.2.2 : sProp 𝕄)) ⊢ bigSep Finset.univ fun c : Dev nD => toks (F := F) c := by
  unfold ringToks; rw [bigSep_map, bigSep_univ_prod]
  refine bigSep_mono fun c _ => ?_
  rw [bigSep_univ_sum, bigSep_univ_sum]
  unfold toks
  refine sep_mono ?_ (sep_mono ?_ ?_)
  · exact (Entails.of_eq (bigSep_fin16_range (fun d => (dutyTok ER (barCell c) 0 d : sProp 𝕄)))).trans (bigSep_subset (by decide))
  · exact (Entails.of_eq (bigSep_fin16_range (fun k => (dutyTok ER (sendCell c k) 0 0 : sProp 𝕄)))).trans (bigSep_subset (by decide))
  · exact bigSep_subset (Finset.erase_subset _ _)

theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst' := (Entails.of_eq (cells_split fun g => roundState ER (Rd m) g 0)) $$ Hst
  ihave Hat' := (Entails.of_eq (cells_split (F := F) fun g => atPos ER g 0 ∅ 0)) $$ Hat
  ihave Hr' := (Entails.of_eq (cells_split (F := F) fun g => reached ER g 0)) $$ Hr
  ihave Htok' := (toks_split (F := F)) $$ Htok
  unfold G; simp only [bigSep_sep']
  isplitl [Hst']; · iexact Hst'
  isplitl [Hat']; · iexact Hat'
  isplitl [Hr']; · iexact Hr'
  iexact Htok'

/-- The launch element: the pipeline's copy untouched, the protocol's copy dealt to the devices. -/
theorem fund_all : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The semaphores at zero -/

theorem osem_send : ∀ k : Fin 16, osem (finSumFinEquiv (m := 16) (n := 16) (Sum.inl k)) = SemLoc.dma (sendSem k.val) := by decide
theorem osem_recv : ∀ j : Fin 16, osem (finSumFinEquiv (m := 16) (n := 16) (Sum.inr j)) = SemLoc.dma (recvSem j.val) := by decide

omit [FloatOps F] in
/-- The kernel's own semaphores are its sixteen send and sixteen receive semaphores; -/
theorem ownSems0_eq (c : Dev nD) : (Pipeline.ownSems0 (Ix := Unit) (Name := ℕ) (U := UU) (Lvl := ℕ) (Val := Elt F) (τ := τ) osem c : sProp 𝕄)
    = iprop((bigSep (Finset.range 16) fun k => semVal (sendCell c k) 0) ∗ (bigSep Finset.univ fun j : Dev nD => semVal (recvCell c j) 0)) := by
  unfold Pipeline.ownSems0
  rw [bigSep_univ_equiv (finSumFinEquiv (m := 16) (n := 16)) (fun i : Fin 32 => (semVal (((c : Thread nD τ)), osem i) 0 : sProp 𝕄)), bigSep_univ_sum,
    ← bigSep_fin16_range (fun k => (semVal (sendCell c k) 0 : sProp 𝕄))]
  congr 1 <;> (refine bigSep_congr fun k _ => ?_; first | rw [osem_send] | rw [osem_recv])

omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens dealt all-to-all -/

omit [FloatOps F] in
/-- The devices other than `c`, by their offsets `1 … 15` after it. -/
theorem bigSep_erase_shift (c : Dev nD) (Φ : Dev nD → sProp 𝕄) :
    bigSep (Finset.univ.erase c) Φ = bigSep (Finset.Ico 1 16) (fun k => Φ (shift c k)) := by
  have h : (Finset.univ.erase c : Finset (Dev nD)) = (Finset.Ico 1 16).image (shift c) := by
    ext p
    simp only [Finset.mem_erase, Finset.mem_univ, and_true, Finset.mem_image, Finset.mem_Ico]
    constructor
    · intro hp
      obtain ⟨k, h1, h2, e⟩ := exists_shift c p hp
      exact ⟨k, ⟨h1, by omega⟩, e⟩
    · rintro ⟨k, ⟨h1, h2⟩, rfl⟩
      exact shift_ne c k h1 (by omega)
  rw [h]
  exact bigSep_image_of_injOn (fun x hx y hy e => shift_inj c (Finset.mem_Ico.mp hx).2 (Finset.mem_Ico.mp hy).2 e) Φ

/-- How many places after `p` the device `q` sits. -/
def off (p q : Dev nD) : ℕ := (q.val + 16 - p.val) % 16

theorem off_shift (p : Dev nD) (k : ℕ) (h1 : 1 ≤ k) (h2 : k ≤ 15) : off p (shift p k) = k := by
  unfold off; rw [shift_val]; have hp := p.isLt; change p.val < 16 at hp; omega
theorem off_back (c : Dev nD) (k : ℕ) (h1 : 1 ≤ k) (h2 : k ≤ 15) : off (shift c k) c = 16 - k := by
  unfold off; rw [shift_val]; have hc := c.isLt; change c.val < 16 at hc; omega

/-- The tokens of the duties device `c` pays. -/
def payToks (c : Dev nD) : sProp 𝕄 :=
  iprop((bigSep (Finset.Ico 1 16) fun k => dutyTok ER (barCell (shift c k)) 0 (16 - k))
    ∗ (bigSep (Finset.Ico 1 16) fun k => dutyTok ER (recvCell (shift c k) c) 0 0)
    ∗ (bigSep (Finset.Ico 1 16) fun k => dutyTok ER (sendCell c k) 0 0))

omit [FloatOps F] in
/-- Duty `d` of `p`'s barrier cell goes to `shift p d`: device `c` gets duty `16 - k` of `shift c k`. -/
theorem bar_around : (bigSep Finset.univ fun p : Dev nD => bigSep (Finset.Ico 1 16) fun d => (dutyTok ER (barCell p) 0 d : sProp 𝕄))
    = bigSep Finset.univ fun c : Dev nD => bigSep (Finset.Ico 1 16) fun k => dutyTok ER (barCell (shift c k)) 0 (16 - k) := by
  have h1 : ∀ p : Dev nD, (bigSep (Finset.Ico 1 16) fun d => (dutyTok ER (barCell p) 0 d : sProp 𝕄))
      = bigSep (Finset.univ.erase p) fun q => dutyTok ER (barCell p) 0 (off p q) := fun p => by
    rw [bigSep_erase_shift p (fun q => (dutyTok ER (barCell p) 0 (off p q) : sProp 𝕄))]
    exact bigSep_congr fun k hk => by
      have := Finset.mem_Ico.mp hk
      rw [off_shift p k this.1 (by omega)]
  have h2 : ∀ c : Dev nD, (bigSep (Finset.univ.erase c) fun p => (dutyTok ER (barCell p) 0 (off p c) : sProp 𝕄))
      = bigSep (Finset.Ico 1 16) fun k => dutyTok ER (barCell (shift c k)) 0 (16 - k) := fun c => by
    rw [bigSep_erase_shift c (fun p => (dutyTok ER (barCell p) 0 (off p c) : sProp 𝕄))]
    exact bigSep_congr fun k hk => by
      have := Finset.mem_Ico.mp hk
      rw [off_back c k this.1 (by omega)]
  rw [bigSep_congr fun p _ => h1 p, bigSep_erase_comm (fun p q : Dev nD => (dutyTok ER (barCell p) 0 (off p q) : sProp 𝕄))]
  exact bigSep_congr fun c _ => h2 c

omit [FloatOps F] in
/-- The duty of `p`'s receive cell for `j` goes to `j`. -/
theorem recv_around : (bigSep Finset.univ fun p : Dev nD => bigSep (Finset.univ.erase p) fun j : Dev nD => (dutyTok ER (recvCell p j) 0 0 : sProp 𝕄))
    = bigSep Finset.univ fun c : Dev nD => bigSep (Finset.Ico 1 16) fun k => dutyTok ER (recvCell (shift c k) c) 0 0 := by
  rw [bigSep_erase_comm (fun p j : Dev nD => (dutyTok ER (recvCell p j) 0 0 : sProp 𝕄))]
  exact bigSep_congr fun c _ => bigSep_erase_shift c (fun p => (dutyTok ER (recvCell p c) 0 0 : sProp 𝕄))

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]
  iintro ⟨H1, H2, H3⟩
  isplitl [H1]; · iexact H1
  isplitl [H3]; · iexact H3
  iexact H2

/-! ## The global step -/

omit [FloatOps F] in
theorem sems_dev (c : Dev nD) :
    iprop(Pipeline.ownSems0 (Ix := Unit) (Name := ℕ) (U := UU) (Lvl := ℕ) (Val := Elt F) (τ := τ) osem c ∗ unscopedSems0 c)
      ⊢ (fam c fun g => semVal g 0 : sProp 𝕄) := by
  rw [ownSems0_eq, unscopedSems0_eq]; unfold fam
  iintro ⟨⟨HS, HV⟩, HB⟩
  isplitl [HB]; · iexact HB
  isplitl [HS] <;> iassumption

omit [FloatOps F] in
theorem sems_all :
    iprop((bigSep Finset.univ fun c : Dev nD => Pipeline.ownSems0 (Ix := Unit) (Name := ℕ) (U := UU) (Lvl := ℕ) (Val := Elt F) (τ := τ) osem c)
        ∗ (bigSep Finset.univ fun c : Dev nD => unscopedSems0 c))
      ⊢ (bigSep ringCells fun g => semVal g 0 : sProp 𝕄) := by
  rw [cells_split, ← bigSep_sep']
  exact bigSep_mono fun c _ => sems_dev c

/-- The names of the cells' invariants, read off one choice for every cell. -/
def Kof (κ : GSem nD τ sig → ℕ) : Names := ⟨fun d => κ (barCell d), fun d k => κ (sendCell d k), fun d j => κ (recvCell d j)⟩

omit [FloatOps F] in
theorem fam_sep (c : Dev nD) (Φ Ψ : GSem nD τ sig → sProp 𝕄) : iprop(fam c Φ ∗ fam c Ψ) ⊢ fam c (fun g => iprop(Φ g ∗ Ψ g)) := by
  unfold fam; rw [bigSep_sep', bigSep_sep']
  iintro ⟨⟨A, B, C⟩, ⟨A', B', C'⟩⟩
  isplitl [A A']; · isplitl [A] <;> iassumption
  isplitl [B B']; · isplitl [B] <;> iassumption
  isplitl [C] <;> iassumption

theorem records_eq (κ : GSem nD τ sig → ℕ) :
    records m (Kof κ) = bigSep Finset.univ fun d : Dev nD => fam d (fun g => iprop(cellInv ER (Rd m) (κ g) g ∗ reached ER g 0)) := by
  unfold records fam; rw [← bigSep_sep', ← bigSep_sep']; rfl

omit [FloatOps F] in
theorem bigSep_range16 (Ψ : ℕ → sProp 𝕄) : bigSep (Finset.range 16) Ψ = iprop(Ψ 0 ∗ bigSep (Finset.Ico 1 16) Ψ) := by
  rw [show Finset.range 16 = insert 0 (Finset.Ico 1 16) from by decide, bigSep_insert (by decide)]; rfl

theorem linear_intro (c : Dev nD) : iprop(fam c (fun g => atPos ER g 0 ∅ 0) ∗ payToks c) ⊢ linear (F := F) c := by
  unfold fam payToks linear
  rw [bigSep_dev_back c (fun j => (atPos ER (recvCell c j) 0 ∅ 0 : sProp 𝕄)), bigSep_range16]
  iintro ⟨⟨HaB, ⟨HaS0, HaS⟩, ⟨HaRc, HaR⟩⟩, HtB, HtR, HtS⟩
  isplitl [HaB]; · iexact HaB
  isplitl [HaS]; · iexact HaS
  isplitl [HaS0]; · iexact HaS0
  isplitl [HaR]; · iexact HaR
  isplitl [HaRc]; · iexact HaRc
  isplitl [HtB]; · iexact HtB
  isplitl [HtR]; · iexact HtR
  iexact HtS

theorem regroup (κ : GSem nD τ sig → ℕ) :
    iprop((bigSep Finset.univ fun c : Dev nD => fam c (fun g => cellInv ER (Rd m) (κ g) g))
        ∗ (bigSep Finset.univ fun c : Dev nD => fam c (fun g => (atPos ER g 0 ∅ 0 : sProp 𝕄)))
        ∗ (bigSep Finset.univ fun c : Dev nD => fam c (fun g => (reached ER g 0 : sProp 𝕄)))
        ∗ (bigSep Finset.univ fun c : Dev nD => toks (F := F) c))
      ⊢ bigSep Finset.univ (G' m) := by
  iintro ⟨HI, Hat, HR, Htok⟩
  ihave Hrec := (show iprop((bigSep Finset.univ fun c : Dev nD => fam c (fun g => cellInv ER (Rd m) (κ g) g))
        ∗ (bigSep Finset.univ fun c : Dev nD => fam c (fun g => (reached ER g 0 : sProp 𝕄)))) ⊢ records m (Kof κ) from by
      rw [records_eq, ← bigSep_sep']
      exact bigSep_mono fun c _ => fam_sep c _ _) $$ [HI HR]
  · isplitl [HI] <;> iassumption
  icases Hrec with #Hrec
  ihave Htk := (toks_around (F := F)) $$ Htok
  iapply (bigSep_with_persistent (R := records m (Kof κ)) (Φ := fun c : Dev nD => iprop(fam c (fun g => (atPos ER g 0 ∅ 0 : sProp 𝕄)) ∗ payToks c)) fun c _ => by
    unfold G' ghost
    iintro ⟨#Hr, Hl⟩
    iexists (Kof κ)
    isplitr; · iexact Hr
    iapply (linear_intro (F := F) c); iexact Hl)
  isplitr; · iexact Hrec
  rw [bigSep_sep']
  isplitl [Hat] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  unfold G
  simp only [bigSep_sep']
  iintro ⟨Hos, Hus, Hst, Hat, Hr, Htok⟩
  ihave Hv := (sems_all (F := F)) $$ [Hos Hus]
  · isplitl [Hos] <;> iassumption
  ihave Hst' := (Entails.of_eq (cells_split fun g => roundState ER (Rd m) g 0).symm) $$ Hst
  ihave Hb := (bodies_intro ER (Rd m) ringCells) $$ [Hv Hst']
  · isplitl [Hv] <;> iassumption
  imod (inv_alloc_family ringCells (body ER (Rd m)) ∅) $$ Hb with ⟨%κ, -, Hinv⟩
  imodintro
  ihave Hinv' := (Entails.of_eq (cells_split fun g => cellInv ER (Rd m) (κ g) g)) $$ Hinv
  iapply (regroup m κ)
  isplitl [Hinv']; · iexact Hinv'
  isplitl [Hat]; · iexact Hat
  isplitl [Hr]; · iexact Hr
  iexact Htok

/-- info: 'Cert.KernelIdealProof.glob' depends on axioms: [propext, Classical.choice, Quot.sound] -/
#guard_msgs in #print axioms glob

/-- info: 'Cert.KernelIdealProof.ownSems0_eq' depends on axioms: [propext, Classical.choice, Quot.sound] -/
#guard_msgs in #print axioms ownSems0_eq

/-- info: 'Cert.KernelIdealProof.fund_all' depends on axioms: [propext, Classical.choice, Quot.sound] -/
#guard_msgs in #print axioms fund_all

end Cert.KernelIdealProof

end
-- ==== Proof.KernelIdealLaunch.lean ====
/-
  The launch of the sixteen-device softmax: what each device owes at launch lies above the level of
  every staging wait, the credit the launch deals each device for what the others owe its cells
  (fifteen units on its barrier cell, one row's credit on each receive cell of another device's row),
  the launch theorem's side conditions, the run, and the final arrays.
-/
import proofs.«901056_g7700000000001057_dist_softmax_colshard_i_m1024_n512_v7x_i16_f32_1_alg».proof.Proof.KernelIdealFund
import proofs.«901056_g7700000000001057_dist_softmax_colshard_i_m1024_n512_v7x_i16_f32_1_alg».proof.Proof.Gen.KernelIdeal.Points

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

private theorem OwR_pos {c : Dev nD} {g : GSem nD τ sig} {u : Unit} : ∀ n, n ≤ 15 → 0 < OwR c n g u →
    ∃ k, 1 ≤ k ∧ k ≤ 15 ∧ g = recvCell (shift c k) c
  | 0, _, h => absurd h (Nat.lt_irrefl 0)
  | n + 1, hn, h => by
    rcases Pipeline.add_pos_cases (D₁ := OwR c n) (D₂ := tallyAt (recvCell (shift c (15 - n)) c) () N) h with h | h
    · exact OwR_pos n (by omega) h
    · exact ⟨15 - n, by omega, by omega, (Pipeline.tallyAt_pos h).1⟩

private theorem OwS_pos {c : Dev nD} {g : GSem nD τ sig} {u : Unit} : ∀ n, n ≤ 15 → 0 < OwS c n g u →
    (∃ k, 1 ≤ k ∧ k ≤ 15 ∧ g = recvCell (shift c k) c) ∨ (∃ k, 1 ≤ k ∧ k ≤ 15 ∧ g = barCell (shift c k))
  | 0, _, h => Or.inl (OwR_pos 15 (Nat.le_refl _) h)
  | n + 1, hn, h => by
    rcases Pipeline.add_pos_cases (D₁ := OwS c n) (D₂ := tallyAt (barCell (shift c (15 - n))) () 1) h with h | h
    · exact OwS_pos n (by omega) h
    · exact Or.inr ⟨15 - n, by omega, by omega, (Pipeline.tallyAt_pos h).1⟩

/-- Whatever a device owes at launch is owed to a receive cell or to the barrier cell of one of its fifteen peers. -/
theorem O₀_pos {c : Dev nD} {g : GSem nD τ sig} {u : Unit} (h : 0 < O₀ c g u) :
    (∃ k, 1 ≤ k ∧ k ≤ 15 ∧ g = recvCell (shift c k) c) ∨ (∃ k, 1 ≤ k ∧ k ≤ 15 ∧ g = barCell (shift c k)) :=
  OwS_pos 15 (Nat.le_refl _) h

private theorem lv_recv (a j : Dev nD) (u : Unit) : lv (recvCell a j) u = 2 := by
  dsimp only [lv]; rw [if_pos (by rw [recvSem_val]; omega)]
private theorem lv_bar (a : Dev nD) (u : Unit) : lv (barCell a) u = 1 := by
  dsimp only [lv]; rw [if_pos rfl]

/-- A wait on a semaphore below the receive semaphores (staging and send semaphores: level 0) lies below everything
    owed at launch (barrier cells at level 1, receive cells at level 2). -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (by rw [L_tc]; exact Finset.mem_singleton_self _) fun g i hg => ?_
    have h0 : lv ((c : Thread nD τ), SemLoc.dma q) () = 0 := by dsimp only [lv]; rw [if_neg (by omega)]
    rcases O₀_pos hg with ⟨k, _, _, rfl⟩ | ⟨k, _, _, rfl⟩
    · exact ⟨by rw [L_tc]; exact Finset.mem_singleton_self _, by rw [h0, lv_recv]; decide⟩
    · exact ⟨by rw [L_tc]; exact Finset.mem_singleton_self _, by rw [h0, lv_bar]; decide⟩
  · rw [MayWait_zero]; iintro -; iempintro

/-! ## The launch credit -/

private theorem recvSem_dev_inj {a b : Dev nD} (h : recvSem a.val = recvSem b.val) : a = b := by
  have ha := a.isLt; have hb := b.isLt; change a.val < 16 at ha; change b.val < 16 at hb
  have := congrArg Fin.val h; rw [recvSem_val, recvSem_val] at this
  exact Fin.ext (by omega)

private theorem bar_eq_iff {a b : Dev nD} : Iff (barCell a = barCell b) (a = b) :=
  ⟨fun h => Fin.ext (congrArg (fun g : GSem nD τ sig => g.1.1.val) h), fun h => h ▸ rfl⟩

private theorem recv_eq_iff {a b j j' : Dev nD} : Iff (recvCell a j = recvCell b j') (a = b ∧ j = j') :=
  ⟨fun h => ⟨Fin.ext (congrArg (fun g : GSem nD τ sig => g.1.1.val) h),
      recvSem_dev_inj (SemLoc.dma.inj (congrArg Prod.snd h))⟩, fun h => h.1 ▸ h.2 ▸ rfl⟩

private theorem recv_ne_bar (a j b : Dev nD) : recvCell a j ≠ barCell b := fun h => by
  have := congrArg Prod.snd h; cases this
private theorem bar_ne_recv (a j b : Dev nD) : barCell b ≠ recvCell a j := fun h => recv_ne_bar a j b h.symm

private theorem shift_eq_iff (d c : Dev nD) (k : ℕ) (hk : k ≤ 16) : Iff (shift d k = c) (d = shift c (16 - k)) := by
  have hd := d.isLt; have hc := c.isLt; change d.val < 16 at hd; change c.val < 16 at hc
  constructor
  · intro h; have := congrArg Fin.val h; rw [shift_val] at this
    apply Fin.ext; rw [shift_val]; omega
  · intro h; have := congrArg Fin.val h; rw [shift_val] at this
    apply Fin.ext; rw [shift_val]; omega

private theorem OwR_eq (c : Dev nD) : ∀ n, OwR c n = ∑ i ∈ Finset.range n, tallyAt (recvCell (shift c (15 - i)) c) () N
  | 0 => rfl
  | n + 1 => by rw [Finset.sum_range_succ, ← OwR_eq c n]; rfl

private theorem OwS_eq (c : Dev nD) : ∀ n, OwS c n = OwR c 15 + ∑ i ∈ Finset.range n, tallyAt (barCell (shift c (15 - i))) () 1
  | 0 => by rw [Finset.sum_range_zero, add_zero]; rfl
  | n + 1 => by rw [Finset.sum_range_succ, ← add_assoc, ← OwS_eq c n]; rfl

private theorem O₀_apply (d : Dev nD) (g : GSem nD τ sig) :
    O₀ d g () = (∑ i ∈ Finset.range 15, tallyAt (recvCell (shift d (15 - i)) d) () N g ())
      + ∑ i ∈ Finset.range 15, tallyAt (barCell (shift d (15 - i))) () 1 g () := by
  unfold O₀
  rw [OwS_eq, OwR_eq, Pi.add_apply, Finsupp.add_apply, Finset.sum_apply, Finset.sum_apply, Finsupp.finset_sum_apply, Finsupp.finset_sum_apply]

/-- What device `d` owes device `c`'s barrier cell: one unit for each offset that leads from `d` to `c`. -/
theorem owed_bar (d c : Dev nD) : O₀ d (barCell c) () = ∑ i ∈ Finset.range 15, if d = shift c (16 - (15 - i)) then 1 else 0 := by
  rw [O₀_apply, Finset.sum_eq_zero (fun i _ => by rw [tallyAt_ne_cell (bar_ne_recv _ _ _)]; rfl), Nat.zero_add]
  refine Finset.sum_congr rfl fun i _ => ?_
  rw [tallyAt_apply]
  by_cases h : d = shift c (16 - (15 - i))
  · rw [if_pos h, if_pos ⟨(bar_eq_iff.mpr ((shift_eq_iff d c (15 - i) (by omega)).mpr h)).symm, rfl⟩]
  · rw [if_neg h, if_neg fun h' => h ((shift_eq_iff d c (15 - i) (by omega)).mp (bar_eq_iff.mp h'.1).symm)]

/-- What device `d` owes device `c`'s receive cell for row `j`: that row's credit when `d = j`, at the offset from `j` to `c`. -/
theorem owed_recv (d c j : Dev nD) : O₀ d (recvCell c j) () = ∑ i ∈ Finset.range 15, if shift d (15 - i) = c ∧ d = j then N else 0 := by
  rw [O₀_apply, Finset.sum_eq_zero (s := Finset.range 15) (f := fun i => tallyAt (barCell (shift d (15 - i))) () 1 (recvCell c j) ())
    (fun i _ => by rw [tallyAt_ne_cell (recv_ne_bar _ _ _)]; rfl), Nat.add_zero]
  refine Finset.sum_congr rfl fun i _ => ?_
  rw [tallyAt_apply]
  by_cases h : shift d (15 - i) = c ∧ d = j
  · rw [if_pos h, if_pos ⟨recv_eq_iff.mpr ⟨h.1.symm, h.2.symm⟩, rfl⟩]
  · rw [if_neg h, if_neg fun h' => h ⟨(recv_eq_iff.mp h'.1).1.symm, (recv_eq_iff.mp h'.1).2.symm⟩]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (shift c (16 - (15 - i))) fun _ => 1]
  simp only [Finset.mem_univ, if_true, Finset.sum_const, Finset.card_range, smul_eq_mul, Nat.mul_one]

theorem launch_recv (c : Dev nD) (k : ℕ) (h1 : 1 ≤ k) (h2 : k ≤ 15) :
    tallyOn (recvCell c (shift c (16 - k))) (launchCredit (Pipeline.owing O₀) 0 (recvCell c (shift c (16 - k))))
      = (tallyAt (recvCell c (shift c (16 - k))) () N : CellTallies nD τ sig Unit) := by
  unfold tallyAt; refine congrArg _ (Finsupp.ext fun u => ?_); cases u
  rw [Pipeline.launchCredit_owing, Finsupp.single_eq_same, Finset.sum_congr rfl fun d _ => owed_recv d c (shift c (16 - k)),
    Fintype.sum_eq_single (shift c (16 - k)) (fun d hd => Finset.sum_eq_zero fun i _ => if_neg fun h => hd h.2),
    Finset.sum_eq_single (15 - k)
      (fun i hi hne => if_neg fun h => hne (by
        have hc := c.isLt; change c.val < 16 at hc
        have := congrArg Fin.val h.1; rw [shift_val, shift_val] at this
        have := Finset.mem_range.mp hi; omega))
      (fun hn => absurd (Finset.mem_range.mpr (by omega)) hn),
    if_pos ⟨by rw [show 15 - (15 - k) = 16 - (16 - k) by omega]; exact shift_shift_back c (16 - k) (by omega), rfl⟩]

/-- The launch deals device `c` fifteen units of credit on its barrier cell and one row's credit on each of its
    fifteen receive cells for another device's row. -/
theorem creds (c : Dev nD) :
    (Pipeline.launchCred O₀ c : sProp 𝕄) ⊢ iprop(cred (tallyAt (barCell c) () 15)
      ∗ bigSep (Finset.Ico 1 16) fun k => cred (tallyAt (recvCell c (shift c (16 - k))) () N)) := by
  unfold Pipeline.launchCred
  rw [bigSep_univ_at _ (SemLoc.reg barS), launch_bar]
  refine sep_mono_right ?_
  have hinj : Set.InjOn (fun k : ℕ => (SemLoc.dma (recvSem (shift c (16 - k)).val) : SemLoc sig)) (Finset.Ico 1 16 : Finset ℕ) := fun k hk k' hk' h => by
    have hk := Finset.mem_Ico.mp (Finset.mem_coe.mp hk); have hk' := Finset.mem_Ico.mp (Finset.mem_coe.mp hk')
    have := shift_inj c (by omega) (by omega) (recvSem_dev_inj (SemLoc.dma.inj h)); omega
  refine (bigSep_subset (t := (Finset.Ico 1 16).image fun k : ℕ => (SemLoc.dma (recvSem (shift c (16 - k)).val) : SemLoc sig)) fun sm hsm => ?_).trans ?_
  · obtain ⟨k, _, rfl⟩ := Finset.mem_image.mp hsm
    exact Finset.mem_erase.mpr ⟨(by intro h; cases h), Finset.mem_univ _⟩
  · rw [bigSep_image_of_injOn hinj]
    refine bigSep_mono fun k hk => ?_
    have hk := Finset.mem_Ico.mp hk
    rw [launch_recv c k hk.1 (by omega)]
    exact .refl _

/-! ## The launch theorem's side conditions -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: given each
    device's body obligation, every weakly fair execution of @main terminates, and every final state has each
    device's windowed arrays at the contents the proof data name. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-! ## The final arrays -/

/-- The input array is never written back: it holds what it held. -/
theorem finalA_x (c : Dev nD) : (dats m 0 c).arrAt (0 : Fin 2) cfg0.N = m ((c : Thread nD τ).loc main_arg0) :=
  (dats (F := F) m 0 c).arrAt_in (0 : Fin 2) rfl _

/-- The one block of the input is the whole array. -/
private theorem xblk_eq (c : Dev nD) : xblk m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

/-- The result array after the run, read through its one block: what the body left at the one point. -/
private theorem final_out (c : Dev nD) :
    ((cfg0.win (1 : Fin 2)).blk t0_0).view.read (Elt F) ((dats (F := F) m 0 c).arrAt (1 : Fin 2) cfg0.N)
      = (dats (F := F) m 0 c).flushed (1 : Fin 2) t0_0 := by
  rw [show cfg0.N = (t0_0 : Fin cfg0.N).val + 1 from rfl, (dats (F := F) m 0 c).arrAt_succ (1 : Fin 2) t0_0, if_pos (flush0_1 _)]
  exact View.read_write_univ _ _

/-- The result array after the run holds the rescaled exponentials of the device's block. -/
theorem finalA_out (c : Dev nD) :
    (dats (F := F) m 0 c).arrAt (1 : Fin 2) cfg0.N = outAt (fun d : Dev nD => m ((d : Thread nD τ).loc main_arg0)) c := by
  have ho := final_out (F := F) m c
  have hz : (fun a => (win0_1.index t0_0) a * main_v1.ty.shape.size a) = fun _ => 0 := funext fun a => by fin_cases a <;> decide
  have hr := Memref.read_access_unit_zero (Elt F) main_v1 hz (fun a => by fin_cases a <;> decide) ((dats (F := F) m 0 c).arrAt (1 : Fin 2) cfg0.N)
  have hx : xblk m = fun d : Dev nD => m ((d : Thread nD τ).loc main_arg0) := funext fun d => xblk_eq m d
  rw [← hx]
  exact hr.symm.trans ho

theorem run_values (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c : Thread nD τ).loc main_v1) = outAt (fun d : Dev nD => m ((d : Thread nD τ).loc main_arg0)) c
      ∧ r.2.mem ((c : Thread nD τ).loc main_arg0) = m ((c : Thread nD τ).loc main_arg0)) :=
  (θ_run defs _ _).mono (fun r h c => ⟨(h c (1 : Fin 2)).trans (finalA_out m c), (h c (0 : Fin 2)).trans (finalA_x m c)⟩) (run_main m hbody ρ)

/-- info: 'Cert.KernelIdealProof.run_values' depends on axioms: [propext, Classical.choice, Quot.sound] -/
#guard_msgs in #print axioms run_values

end Cert.KernelIdealProof

end
-- ==== Proof.Value.lean ====
/-
  The value the kernel leaves, against the reference's.

  Sixteen devices each hold a block of 512 columns of a 1024 by 8192 array. Device `c` takes the maximum
  `m_c` of each row of its block and the sum `s_c` over the row of `exp (x - m_c)`; from every device's pair
  it forms `M = max_j m_j` and `S = Σ_j s_j · exp (m_j - M)`, and leaves `exp (x - m_c) · (exp (m_c - M) / S)`.
  The reference, on the whole array, leaves `exp (X - max) / Σ exp (X - max)` along each row. The entries are
  finite, so every quantity is a real number: `exp (a - m_c) · exp (m_c - M) = exp (a - M)`, the maximum over
  the 8192 columns is the maximum of the sixteen block maxima, the sum over the 8192 columns regroups into the
  sixteen block sums, and `e₁ · (e₂ / S) = (e₁ · e₂) / S` for the positive real `S`.
-/
import proofs.«901056_g7700000000001057_dist_softmax_colshard_i_m1024_n512_v7x_i16_f32_1_alg».proof.Proof.KernelIdealSpec
import proofs.«901056_g7700000000001057_dist_softmax_colshard_i_m1024_n512_v7x_i16_f32_1_alg».proof.Proof.Gen.ReferenceIdeal.Read
import proofs.«901056_g7700000000001057_dist_softmax_colshard_i_m1024_n512_v7x_i16_f32_1_alg».proof.Proof.Gen.Pre_finite_inputs_Kernel
import Idealize.ShloMosaic.Lib.Layout
import Idealize.ShloMosaic.Lib.Pipeline.Value
import Idealize.ShloMosaic.Lib.ValueLayout
import Idealize.ShloMosaic.Lib.ValueIdx
import Idealize.ShloMosaic.Lib.ReduceAll
import Idealize.ShloMosaic.PureOps.Ideal.Laws

noncomputable section

namespace Cert.KernelIdealProof.Value

open Idealize.ShloMosaic Idealize.ShloMosaic.ValueIdx

/-! ## Extended reals: sums and maxima of finitely many reals -/

/-- The coercion of a finite sum of reals is the sum of the coercions. -/
theorem coe_sum' {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of minus infinity denotes the bottom of the extended reals. -/
theorem ofBits_neg_inf : Ideal.ofBits .f32 0xFF800000#32 = (⊥ : EReal) := by
  simp [Ideal.ofBits, Ideal.ieee]

/-- The maximum of finitely many reals (at least one) is one of them, so it is a real. -/
theorem sup_coe_real {ι : Type} [Fintype ι] [Nonempty ι] (f : ι → ℝ) :
    ∃ μ : ℝ, (Finset.univ.sup fun i => (f i : EReal)) = (μ : EReal) := by
  obtain ⟨i, _, hi⟩ := Finset.exists_mem_eq_sup Finset.univ Finset.univ_nonempty (fun i => (f i : EReal))
  exact ⟨f i, hi⟩

/-- A maximum over an index set equivalent to a product is the maximum of the maxima over the fibres. -/
theorem sup_equiv_prod {A B K : Type} [Fintype A] [Fintype B] [Fintype K] (e : A × B ≃ K)
    (g : A → B → EReal) (G : K → EReal) (hG : ∀ j l, G (e (j, l)) = g j l) :
    Finset.univ.sup G = Finset.univ.sup fun j => Finset.univ.sup (g j) := by
  apply le_antisymm
  · refine Finset.sup_le fun k _ => ?_
    obtain ⟨⟨j, l⟩, rfl⟩ := e.surjective k
    rw [hG]
    exact le_trans (Finset.le_sup (f := g j) (Finset.mem_univ l))
      (Finset.le_sup (f := fun j => Finset.univ.sup (g j)) (Finset.mem_univ j))
  · refine Finset.sup_le fun j _ => Finset.sup_le fun l _ => ?_
    rw [← hG]
    exact Finset.le_sup (Finset.mem_univ _)

/-! ## The real identity -/

/-- Regrouping by blocks: each block's sum of exponentials shifted by its own maximum, rescaled to the
    common maximum, adds up to the sum of all exponentials shifted by the common maximum. -/
theorem real_regroup {n w : ℕ} (a : Fin n → Fin w → ℝ) (μ : Fin n → ℝ) (μ0 : ℝ) :
    ∑ j, (∑ l, Real.exp (a j l - μ j)) * Real.exp (μ j - μ0) = ∑ j, ∑ l, Real.exp (a j l - μ0) := by
  refine Finset.sum_congr rfl fun j _ => ?_
  rw [Finset.sum_mul]
  refine Finset.sum_congr rfl fun l _ => ?_
  rw [← Real.exp_add, sub_add_sub_cancel]

/-! ## One row of the computation, over the extended reals -/

/-- One row. The entries are reals, arranged in `n` blocks of `w`; `G` lists the same entries over an index
    set equivalent to the pairs (block, position). The blockwise computation (each block's maximum and
    sum of shifted exponentials, then the common maximum, the rescaled total, and the rescaling of
    the block's exponentials) gives the quotient of the exponential shifted by the maximum of all
    entries by the sum of all such exponentials. -/
theorem softmax_blocks {n w : ℕ} [NeZero n] [NeZero w] {K : Type} [Fintype K] (e : Fin n × Fin w ≃ K)
    (g : Fin n → Fin w → EReal) (hg : ∀ j l, ∃ a : ℝ, g j l = (a : EReal))
    (G : K → EReal) (hG : ∀ j l, G (e (j, l)) = g j l) (c : Fin n) (l : Fin w) :
    Ideal.exp (g c l - Finset.univ.sup (g c))
        * Ideal.div (Ideal.exp (Finset.univ.sup (g c) - Finset.univ.sup fun j => Finset.univ.sup (g j)))
            (∑ j, (∑ l, Ideal.exp (g j l - Finset.univ.sup (g j)))
                * Ideal.exp (Finset.univ.sup (g j) - Finset.univ.sup fun j => Finset.univ.sup (g j)))
      = Ideal.div (Ideal.exp (G (e (c, l)) - Finset.univ.sup G))
          (0 + ∑ k, Ideal.exp (G k - Finset.univ.sup G)) := by
  choose a ha using hg
  have hμ : ∀ j, ∃ μ : ℝ, Finset.univ.sup (g j) = (μ : EReal) := fun j => by
    have : g j = fun l => (a j l : EReal) := funext (ha j)
    rw [this]; exact sup_coe_real (a j)
  choose μ hμ using hμ
  have hM : ∃ μ0 : ℝ, (Finset.univ.sup fun j => Finset.univ.sup (g j)) = (μ0 : EReal) := by
    simp only [hμ]; exact sup_coe_real μ
  obtain ⟨μ0, hM⟩ := hM
  have hMx : Finset.univ.sup G = (μ0 : EReal) := (sup_equiv_prod e g G hG).trans hM
  have hsumG : ∑ k, Ideal.exp (G k - Finset.univ.sup G) = ∑ j, ∑ l, Ideal.exp (g j l - (μ0 : EReal)) := by
    rw [hMx, ← Equiv.sum_comp e, Fintype.sum_prod_type]
    simp only [hG]
  rw [hsumG, hMx, hG, hM]
  simp only [hμ, ha]
  simp only [← EReal.coe_sub, Ideal.exp_coe, ← coe_sum', ← EReal.coe_mul, zero_add]
  rw [real_regroup]
  have hpos : (0 : ℝ) < ∑ j, ∑ l, Real.exp (a j l - μ0) :=
    Finset.sum_pos (fun j _ => Finset.sum_pos (fun l _ => Real.exp_pos _) Finset.univ_nonempty) Finset.univ_nonempty
  rw [Ideal.div_coe hpos.ne', Ideal.div_coe hpos.ne', ← EReal.coe_mul, ← EReal.coe_mul, ← EReal.coe_mul,
    ← mul_assoc, ← Real.exp_add, sub_add_sub_cancel]

/-! ## Finite inputs -/

/-- The word of plus infinity denotes the top of the extended reals. -/
theorem ofBits_pos_inf : Ideal.ofBits .f32 0x7F800000#32 = (⊤ : EReal) := by
  simp [Ideal.ofBits, Ideal.ieee]

/-- Where the precondition holds of a block, every entry of the block is a real number. -/
theorem finite_of_pre (v : FVec Ideal Cert.Pre_finite_inputs_Kernel.S1024x512 .f32)
    (h : Cert.Pre_finite_inputs_Kernel.fn (F := Ideal) v = fun _ => 1#1)
    (i : Cert.Pre_finite_inputs_Kernel.S1024x512.Idx) : ∃ a : ℝ, v i = (a : EReal) := by
  have h0 := congrFun h ix0
  dsimp only [Cert.Pre_finite_inputs_Kernel.fn] at h0
  haveI : Subsingleton Cert.Pre_finite_inputs_Kernel.S_.Idx := ⟨fun a b => funext fun d => d.elim0⟩
  have hi := Host.reduce_andi_all _ _ _ _ _ h0 i
  have hi' : Ideal.cmp .olt (max (v i) (-(v i))) (Ideal.ofBits .f32 0x7F800000#32) = 1#1 := hi
  rw [ofBits_pos_inf] at hi'
  induction hv : v i using EReal.rec with
  | bot => rw [hv] at hi'; simp [Ideal.cmp] at hi'
  | top => rw [hv] at hi'; simp [Ideal.cmp] at hi'
  | coe a => exact ⟨a, rfl⟩

/-! ## The kernel's payloads at an index -/

section Kernel

open Cert.KernelIdeal Cert.KernelIdeal.Gen Cert.KernelIdealProof

/-- Over a row index, the index with column `l` inserted is `(r, l)`. -/
theorem lift_row (h : S1024x512.Reduces [1] S1024) (r : Fin 1024) (l : Fin 512) :
    h.lift (ix1 r) l = ix2 r l := by
  funext a
  match a with
  | ⟨0, _⟩ => exact Fin.ext rfl
  | ⟨1, _⟩ => exact Fin.ext rfl

/-- Over a row index, the index with device `j` inserted in front is `(j, r)`. -/
theorem lift_dev (h : S16x1024.Reduces [0] S1024) (r : Fin 1024) (j : Fin 16) :
    h.lift (ix1 r) j = ix2 j r := by
  funext a
  match a with
  | ⟨0, _⟩ => exact Fin.ext rfl
  | ⟨1, _⟩ => exact Fin.ext rfl

/-- The row maxima of a block: at row `r`, the maximum over the columns. -/
theorem pay2_apply (v : Vec Ideal S1024x512 .f32) (r : Fin 1024) :
    k0_pay2 v (ix1 r) = Finset.univ.sup fun l : Fin 512 => v (ix2 r l) := by
  unfold k0_pay2 k0_pay1
  dsimp only
  rw [shapeCast_self]
  refine (Ideal.multiReduction_maximumf_single (φ := .f32) v _ reduces_S1024x512_S1024 _ _ (ix1 r)).trans ?_
  rw [Ideal.ofBits_def, ofBits_neg_inf]
  show Finset.univ.sup _ = _
  congr 1
  funext l
  exact congrArg v (lift_row _ r l)

/-- The exponential of a vector, at an index. -/
theorem exp_apply {s : Shape} {φ : FTy} (a : FVec Ideal s φ) (i : s.Idx) : exp a i = Ideal.exp (a i) := rfl

/-- A vector of one entry per row, spread along the columns, reads at `(r, l)` its entry `r`. -/
theorem bcast_col_apply (y : FVec Ideal S1024 .f32) (r : Fin 1024) (l : Fin 512) :
    broadcastTo S1024x512 (shapeCast S1024x1 y shapeCasts_S1024_S1024x1) broadcasts_S1024x1_S1024x512 (ix2 r l)
      = y (ix1 r) := by
  rw [broadcastTo_apply _ _ (ix2 r l) (ix2 r (0 : Fin 1)) (fun a => by
    match a with
    | ⟨0, _⟩ => show r.val = if (1024 : Nat) = 1 then 0 else r.val; rw [if_neg (by decide)]
    | ⟨1, _⟩ => show 0 = if (1 : Nat) = 1 then 0 else l.val; rw [if_pos rfl])]
  exact shapeCast_apply _ _ _ (ix1 r) (by
    rw [Shape.rowMajor_val_one, Shape.rowMajor_val_two]
    show r.val = r.val * 1 + 0
    omega)

/-- The shifted exponentials of a block. -/
theorem pay3_apply (v : Vec Ideal S1024x512 .f32) (r : Fin 1024) (l : Fin 512) :
    k0_pay3 v (ix2 r l) = Ideal.exp (v (ix2 r l) - k0_pay2 v (ix1 r)) := by
  unfold k0_pay3 k0_pay1
  dsimp only
  rw [exp_apply, subf_apply, shapeCast_self, bcast_col_apply]

/-- A vector of 1024 entries viewed as `[1, 1, 1024]` reads at `(0, 0, r)` its entry `r`. -/
theorem cast_111_apply (y : FVec Ideal S1024 .f32) (r : Fin 1024) :
    shapeCast S1x1x1024 y shapeCasts_S1024_S1x1x1024 (ix3 (0 : Fin 1) (0 : Fin 1) r) = y (ix1 r) :=
  shapeCast_apply _ _ _ (ix1 r) (by
    rw [Shape.rowMajor_val_one, Shape.rowMajor_val_three]
    show r.val = (0 * 1 + 0) * 1024 + r.val
    omega)

/-- The gathered statistics: entry `(j, 0, r)` is the maximum of row `r` of block `j`. -/
theorem gath_max (x : Dev nD → Vec Ideal S1024x512 .f32) (j : Fin 16) (r : Fin 1024) :
    gath x (ix3 j (0 : Fin 2) r) = k0_pay2 (x j) (ix1 r) := by
  show k0_pay4 (x j) (ix3 (0 : Fin 1) (0 : Fin 1) r) = _
  unfold k0_pay4
  exact cast_111_apply _ r

/-- The gathered statistics: entry `(j, 1, r)` is the sum over row `r` of block `j`'s shifted exponentials. -/
theorem gath_sum (x : Dev nD → Vec Ideal S1024x512 .f32) (j : Fin 16) (r : Fin 1024) :
    gath x (ix3 j (1 : Fin 2) r) = ∑ l : Fin 512, k0_pay3 (x j) (ix2 r l) := by
  show k0_pay5 (x j) (ix3 (0 : Fin 1) (0 : Fin 1) r) = _
  unfold k0_pay5
  rw [cast_111_apply]
  refine (Ideal.multiReduction_add_single (φ := .f32) (k0_pay3 (x j)) _ reduces_S1024x512_S1024 _ _ (ix1 r)).trans ?_
  refine Finset.sum_congr rfl fun l _ => ?_
  exact congrArg (k0_pay3 (x j)) (lift_row _ r l)

/-- The first statistic of every device, as a `[16, 1024]` array: at `(j, r)` the gathered entry `(j, 0, r)`. -/
theorem stat0_apply (g : Vec Ideal S16x2x1024 .f32) (j : Fin 16) (r : Fin 1024) :
    shapeCast S16x1024 (extractStridedSlice S16x1x1024 ![0, 0, 0] g slices_S16x2x1024_o0_0_0_S16x1x1024)
        shapeCasts_S16x1x1024_S16x1024 (ix2 j r) = g (ix3 j (0 : Fin 2) r) := by
  rw [shapeCast_apply _ _ (ix2 j r) (ix3 j (0 : Fin 1) r) (by
    rw [Shape.rowMajor_val_three, Shape.rowMajor_val_two]
    show (j.val * 1 + 0) * 1024 + r.val = j.val * 1024 + r.val
    omega)]
  exact extractStridedSlice_apply _ _ _ _ (ix3 j (0 : Fin 2) r) (fun a => by
    match a with
    | ⟨0, _⟩ => show j.val = 0 + j.val; omega
    | ⟨1, _⟩ => show 0 = 0 + 0; rfl
    | ⟨2, _⟩ => show r.val = 0 + r.val; omega)

/-- The second statistic of every device likewise: at `(j, r)` the gathered entry `(j, 1, r)`. -/
theorem stat1_apply (g : Vec Ideal S16x2x1024 .f32) (j : Fin 16) (r : Fin 1024) :
    shapeCast S16x1024 (extractStridedSlice S16x1x1024 ![0, 1, 0] g slices_S16x2x1024_o0_1_0_S16x1x1024)
        shapeCasts_S16x1x1024_S16x1024 (ix2 j r) = g (ix3 j (1 : Fin 2) r) := by
  rw [shapeCast_apply _ _ (ix2 j r) (ix3 j (0 : Fin 1) r) (by
    rw [Shape.rowMajor_val_three, Shape.rowMajor_val_two]
    show (j.val * 1 + 0) * 1024 + r.val = j.val * 1024 + r.val
    omega)]
  exact extractStridedSlice_apply _ _ _ _ (ix3 j (1 : Fin 2) r) (fun a => by
    match a with
    | ⟨0, _⟩ => show j.val = 0 + j.val; omega
    | ⟨1, _⟩ => show 1 = 1 + 0; rfl
    | ⟨2, _⟩ => show r.val = 0 + r.val; omega)

/-- The maximum over the sixteen devices of a `[16, 1024]` array, at row `r`. -/
theorem colmax_apply (y : FVec Ideal S16x1024 .f32) (r : Fin 1024) :
    multiReduction .maximumf [0] S1024 y 0xFF800000#32 reduces_S16x1024_S1024 (.inl rfl) rfl (ix1 r)
      = Finset.univ.sup fun j : Fin 16 => y (ix2 j r) := by
  refine (Ideal.multiReduction_maximumf_single (φ := .f32) y _ reduces_S16x1024_S1024 _ _ (ix1 r)).trans ?_
  rw [Ideal.ofBits_def, ofBits_neg_inf]
  show Finset.univ.sup _ = _
  congr 1
  funext j
  exact congrArg y (lift_dev _ r j)

/-- The sum over the sixteen devices of a `[16, 1024]` array, at row `r`. -/
theorem colsum_apply (y : FVec Ideal S16x1024 .f32) (r : Fin 1024) :
    multiReduction .add [0] S1024 y 0x00000000#32 reduces_S16x1024_S1024 (.inl rfl) rfl (ix1 r)
      = ∑ j : Fin 16, y (ix2 j r) := by
  refine (Ideal.multiReduction_add_single (φ := .f32) y _ reduces_S16x1024_S1024 _ _ (ix1 r)).trans ?_
  refine Finset.sum_congr rfl fun j _ => ?_
  exact congrArg y (lift_dev _ r j)

/-- A vector of one entry per row, spread over the sixteen devices, reads at `(j, r)` its entry `r`. -/
theorem bcast_dev_apply (y : FVec Ideal S1024 .f32) (j : Fin 16) (r : Fin 1024) :
    broadcastTo S16x1024 (shapeCast S1x1024 y shapeCasts_S1024_S1x1024) broadcasts_S1x1024_S16x1024 (ix2 j r)
      = y (ix1 r) := by
  rw [broadcastTo_1b_ab_apply, shapeCast_a_1a_apply]

/-- The rescaling: the block's shifted exponentials times `exp (m - M) / S`, with `M` the maximum over the
    devices of the first statistic and `S` the sum over the devices of the second times `exp` of the first
    minus `M`. -/
theorem pay6_apply (m : FVec Ideal S1024 .f32) (g : Vec Ideal S16x2x1024 .f32) (ex : Vec Ideal S1024x512 .f32)
    (r : Fin 1024) (l : Fin 512) :
    k0_pay6 m g ex (ix2 r l)
      = ex (ix2 r l) * Ideal.div
          (Ideal.exp (m (ix1 r) - Finset.univ.sup fun j : Fin 16 => g (ix3 j (0 : Fin 2) r)))
          (∑ j : Fin 16, g (ix3 j (1 : Fin 2) r)
            * Ideal.exp (g (ix3 j (0 : Fin 2) r) - Finset.univ.sup fun j : Fin 16 => g (ix3 j (0 : Fin 2) r))) := by
  unfold k0_pay6
  dsimp only
  rw [mulf_apply, shapeCast_self, bcast_col_apply, divf_apply, exp_apply, subf_apply, colmax_apply, colsum_apply]
  have hM : (Finset.univ.sup fun j : Fin 16 =>
        shapeCast S16x1024 (extractStridedSlice S16x1x1024 ![0, 0, 0] g slices_S16x2x1024_o0_0_0_S16x1x1024)
          shapeCasts_S16x1x1024_S16x1024 (ix2 j r))
      = Finset.univ.sup fun j : Fin 16 => g (ix3 j (0 : Fin 2) r) := by
    congr 1
    funext j
    exact stat0_apply g j r
  rw [hM]
  congr 2
  refine Finset.sum_congr rfl fun j _ => ?_
  rw [mulf_apply, exp_apply, subf_apply, bcast_dev_apply, colmax_apply, hM, stat0_apply, stat1_apply]

end Kernel

/-! ## The reference at an index -/

section Reference

open Cert.ReferenceIdeal Cert.ReferenceIdeal.Gen Cert.ReferenceIdeal.Read

/-- The reference's row maxima: at row `r`, the maximum over all 8192 columns. -/
theorem ref_max_apply (X : (⟨Cert.ReferenceIdeal.S1024x8192, .f32⟩ : BufTy).Contents (Elt Ideal)) (r : Fin 1024) :
    val_main_v0 (F := Ideal) X (ix1 r) = Finset.univ.sup fun k : Fin 8192 => X (ix2 r k) := by
  unfold val_main_v0
  have hred : Cert.ReferenceIdeal.S1024x8192.Reduces [1] Cert.ReferenceIdeal.S1024 := by decide
  rw [Host.reduce_eq_fold_single (FloatOps.maximumf (F := Ideal) (φ := .f32)) X _ reducesTo_S1024x8192_S1024_d1 hred h_S_]
  rw [val_main_cst_apply, Ideal.ofBits_def, ofBits_neg_inf]
  show Finset.univ.sup _ = _
  congr 1
  funext k
  exact congrArg X (funext fun a => match a with | ⟨0, _⟩ => Fin.ext rfl | ⟨1, _⟩ => Fin.ext rfl)

theorem idx_v1_v2 (r : Fin 1024) (k : Fin 8192) : idx_main_v1 (idx_main_v2 (ix2 r k)) = ix1 r := by
  funext a
  match a with
  | ⟨0, _⟩ => rfl

theorem idx_v5_v6_v7 (r : Fin 1024) (k k' : Fin 8192) :
    idx_main_v5 (idx_main_v6 (idx_main_v7 (ix2 r k))) k' = ix2 r k' := by
  funext a
  match a with
  | ⟨0, _⟩ => rfl
  | ⟨1, _⟩ => rfl

/-- The reference's shifted exponentials. -/
theorem ref_exp_apply (X : (⟨Cert.ReferenceIdeal.S1024x8192, .f32⟩ : BufTy).Contents (Elt Ideal)) (r : Fin 1024) (k : Fin 8192) :
    val_main_v4 (F := Ideal) X (ix2 r k)
      = Ideal.exp (X (ix2 r k) - Finset.univ.sup fun k' : Fin 8192 => X (ix2 r k')) := by
  rw [val_main_v4_apply, val_main_v3_apply, val_main_v2_apply, val_main_v1_apply, idx_v1_v2, ref_max_apply,
    Ideal.hostUnary_exp_def, Ideal.subf_def]

/-- The reference at `(r, k)`. -/
theorem ref_apply (X : (⟨Cert.ReferenceIdeal.S1024x8192, .f32⟩ : BufTy).Contents (Elt Ideal)) (r : Fin 1024) (k : Fin 8192) :
    val_main_v8 (F := Ideal) X (ix2 r k)
      = Ideal.div (Ideal.exp (X (ix2 r k) - Finset.univ.sup fun k' : Fin 8192 => X (ix2 r k')))
          (0 + ∑ k' : Fin 8192, Ideal.exp (X (ix2 r k') - Finset.univ.sup fun k'' : Fin 8192 => X (ix2 r k''))) := by
  rw [val_main_v8_apply, val_main_v7_apply, val_main_v6_apply, val_main_v5_apply, val_main_cst_0_apply,
    Ideal.hostDivf_def, Ideal.ofBits_def, Ideal.ofBits_zero_f32, ref_exp_apply]
  congr 2
  refine Finset.sum_congr rfl fun k' _ => ?_
  rw [idx_v5_v6_v7, ref_exp_apply]

end Reference

open Cert.KernelIdealProof

/-! ## The kernel's block is the reference's block -/

/-- Column `l` of block `c` is column `c * 512 + l` of the whole array: the pairs (block, position) are the
    8192 columns. -/
def colEquiv : Fin 16 × Fin 512 ≃ Fin 8192 := finProdFinEquiv

theorem colEquiv_val (c : Fin 16) (l : Fin 512) : (colEquiv (c, l)).val = c.val * 512 + l.val := by
  show (finProdFinEquiv (c, l)).val = _
  rw [finProdFinEquiv_apply_val]
  show l.val + 512 * c.val = _
  omega

/-- Where block `c`'s entry `(r, l)` sits in the whole array. -/
theorem tiles_idx (h : Layout.Tiles ⟨2, ![1024, 512]⟩ ⟨2, ![1024, 8192]⟩ 1 16) (c : Fin 16) (r : Fin 1024) (l : Fin 512) :
    h.idx c (ix2 r l) = ix2 r (colEquiv (c, l)) := by
  funext a
  match a with
  | ⟨0, _⟩ => exact Fin.ext (Layout.idx_cols_val h c (ix2 r l)).1
  | ⟨1, _⟩ => exact Fin.ext ((Layout.idx_cols_val h c (ix2 r l)).2.trans (colEquiv_val c l).symm)

theorem out_eq_block
    (x : Dev Cert.KernelIdeal.nD → Vec Ideal Cert.KernelIdeal.S1024x512 .f32)
    (X : (⟨Cert.ReferenceIdeal.S1024x8192, .f32⟩ : BufTy).Contents (Elt Ideal))
    (hx : ∀ c : Dev Cert.KernelIdeal.nD, x c = Layout.block ⟨2, ![1024, 512]⟩ ⟨2, ![1024, 8192]⟩ 1 16 c X)
    (hfin : ∀ c : Dev Cert.KernelIdeal.nD, Cert.Pre_finite_inputs_Kernel.fn (F := Ideal) (x c) = fun _ => 1#1)
    (c : Dev Cert.KernelIdeal.nD) :
    outAt (F := Ideal) x c = Layout.block ⟨2, ![1024, 512]⟩ ⟨2, ![1024, 8192]⟩ 1 16 c (Cert.ReferenceIdeal.Read.val_main_v8 (F := Ideal) X) := by
  funext i
  obtain ⟨r, l, rfl⟩ : ∃ (r : Fin 1024) (l : Fin 512), i = ix2 r l := ⟨i 0, i 1, eq_ix2 i⟩
  rw [Layout.block_apply, tiles_idx, ref_apply]
  unfold outAt
  rw [pay6_apply]
  simp only [gath_max, gath_sum, pay3_apply, pay2_apply]
  refine softmax_blocks colEquiv (fun j l => x j (ix2 r l)) (fun j l => finite_of_pre (x j) (hfin j) (ix2 r l))
    (fun k => X (ix2 r k)) (fun j l => ?_) c l
  show X (ix2 r (colEquiv (j, l))) = x j (ix2 r l)
  rw [hx j, Layout.block_apply, tiles_idx]

end Cert.KernelIdealProof.Value

end
-- ==== Proof.RefValue.lean ====
/-
  The reference on one device: what its run leaves in the result array, as one function of the
  whole input array.
-/
import proofs.«901056_g7700000000001057_dist_softmax_colshard_i_m1024_n512_v7x_i16_f32_1_alg».proof.Defs
import proofs.«901056_g7700000000001057_dist_softmax_colshard_i_m1024_n512_v7x_i16_f32_1_alg».proof.Proof.Gen.ReferenceIdeal
import proofs.«901056_g7700000000001057_dist_softmax_colshard_i_m1024_n512_v7x_i16_f32_1_alg».proof.Proof.Gen.Pre_finite_inputs_ReferenceIdeal
import proofs.«901056_g7700000000001057_dist_softmax_colshard_i_m1024_n512_v7x_i16_f32_1_alg».proof.Proof.Gen.ReferenceIdeal.Run
import proofs.«901056_g7700000000001057_dist_softmax_colshard_i_m1024_n512_v7x_i16_f32_1_alg».proof.Proof.Gen.ReferenceIdeal.Read

noncomputable section

namespace Cert.ReferenceIdealProof

open Idealize.ShloMosaic Idealize.ShloMosaic.TcCoe Idealize.SL.Sem

/-- Every run of the reference ends with the result array at the softmax of the input array, stage by
    stage the composed function `val_main_v8`, and the input array unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v8) = Cert.ReferenceIdeal.Read.val_main_v8 (F := Ideal) (m' ((c.tc : Thread _ Cert.ReferenceIdeal.τ).loc Cert.ReferenceIdeal.main_arg0))
      ∧ r.2.mem ((c.tc : Thread Cert.ReferenceIdeal.nD Cert.ReferenceIdeal.τ).loc Cert.ReferenceIdeal.main_arg0) = m' ((c.tc : Thread _ Cert.ReferenceIdeal.τ).loc Cert.ReferenceIdeal.main_arg0)) :=
  (θ_run Cert.ReferenceIdeal.defs _ _).mono
    (fun _ h c => ⟨(h c).1.trans (Cert.ReferenceIdeal.Read.val_main_v8_eq (F := Ideal) _), (h c).2⟩)
    (Cert.ReferenceIdeal.Value.run (F := Ideal) m' ρ')

/-- The reference runs and leaves its argument array unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdealProof

end
-- ==== Proof.lean ====
/-
  The certificate's claim: softmax along the rows of a 1024 by 8192 array, the columns cut into sixteen
  blocks of 512, one per device.

  Each device takes its block's row maxima and row sums of shifted exponentials, sends the pair to
  every other device, and rescales its exponentials by the gathered statistics. Both the kernel as
  printed and the kernel read over the extended reals run to the end and leave their argument blocks
  unchanged; so does the reference on one device. Over the extended reals, from finite blocks of one
  array, each device ends holding its block of what the reference ends holding: the statistics every
  device gathers are the same, the common maximum is the maximum of the whole row, the rescaled sum is
  the sum of the whole row's shifted exponentials, and the quotient is the reference's.
-/
import proofs.«901056_g7700000000001057_dist_softmax_colshard_i_m1024_n512_v7x_i16_f32_1_alg».proof.Defs
import proofs.«901056_g7700000000001057_dist_softmax_colshard_i_m1024_n512_v7x_i16_f32_1_alg».proof.Proof.Gen.Kernel
import proofs.«901056_g7700000000001057_dist_softmax_colshard_i_m1024_n512_v7x_i16_f32_1_alg».proof.Proof.Gen.Kernel.Skeleton
import proofs.«901056_g7700000000001057_dist_softmax_colshard_i_m1024_n512_v7x_i16_f32_1_alg».proof.Proof.Gen.Kernel.Launch
import proofs.«901056_g7700000000001057_dist_softmax_colshard_i_m1024_n512_v7x_i16_f32_1_alg».proof.Proof.Gen.Kernel.Points
import proofs.«901056_g7700000000001057_dist_softmax_colshard_i_m1024_n512_v7x_i16_f32_1_alg».proof.Proof.Gen.Kernel.Frame
import proofs.«901056_g7700000000001057_dist_softmax_colshard_i_m1024_n512_v7x_i16_f32_1_alg».proof.Proof.Gen.KernelIdeal
import proofs.«901056_g7700000000001057_dist_softmax_colshard_i_m1024_n512_v7x_i16_f32_1_alg».proof.Proof.Gen.KernelIdeal.Skeleton
import proofs.«901056_g7700000000001057_dist_softmax_colshard_i_m1024_n512_v7x_i16_f32_1_alg».proof.Proof.Gen.KernelIdeal.Launch
import proofs.«901056_g7700000000001057_dist_softmax_colshard_i_m1024_n512_v7x_i16_f32_1_alg».proof.Proof.Gen.KernelIdeal.Points
import proofs.«901056_g7700000000001057_dist_softmax_colshard_i_m1024_n512_v7x_i16_f32_1_alg».proof.Proof.Gen.KernelIdeal.Frame
import proofs.«901056_g7700000000001057_dist_softmax_colshard_i_m1024_n512_v7x_i16_f32_1_alg».proof.Proof.Gen.ReferenceIdeal
import proofs.«901056_g7700000000001057_dist_softmax_colshard_i_m1024_n512_v7x_i16_f32_1_alg».proof.Proof.Gen.Pre_finite_inputs_Kernel
import proofs.«901056_g7700000000001057_dist_softmax_colshard_i_m1024_n512_v7x_i16_f32_1_alg».proof.Proof.Gen.Pre_finite_inputs_ReferenceIdeal
import Idealize.ShloMosaic.Adequacy
import Idealize.ShloMosaic.Init
import proofs.«901056_g7700000000001057_dist_softmax_colshard_i_m1024_n512_v7x_i16_f32_1_alg».proof.Proof.KernelBody
import proofs.«901056_g7700000000001057_dist_softmax_colshard_i_m1024_n512_v7x_i16_f32_1_alg».proof.Proof.KernelLaunch
import proofs.«901056_g7700000000001057_dist_softmax_colshard_i_m1024_n512_v7x_i16_f32_1_alg».proof.Proof.KernelIdealBody
import proofs.«901056_g7700000000001057_dist_softmax_colshard_i_m1024_n512_v7x_i16_f32_1_alg».proof.Proof.KernelIdealLaunch
import proofs.«901056_g7700000000001057_dist_softmax_colshard_i_m1024_n512_v7x_i16_f32_1_alg».proof.Proof.Value
import proofs.«901056_g7700000000001057_dist_softmax_colshard_i_m1024_n512_v7x_i16_f32_1_alg».proof.Proof.RefValue

noncomputable section

namespace Cert.Proof

open Idealize.ShloMosaic Idealize.SL.Sem

/-- The kernel as printed runs and leaves its argument blocks unchanged: its run with the result dropped. -/
theorem frame_k : Cert.frame_Kernel := fun m g _ =>
  (θ_run (Cert.Kernel.defs (F := Bits)) _ _).mono (fun _ h c => (h c).2)
    (Cert.KernelProof.run_values (F := Bits) m (Cert.KernelProof.body_obligation m) g)

/-- The same of the kernel read over the extended reals. -/
theorem frame_ki : Cert.frame_KernelIdeal := fun m g _ =>
  (θ_run (Cert.KernelIdeal.defs (F := Ideal)) _ _).mono (fun _ h c => (h c).2)
    (Cert.KernelIdealProof.run_values (F := Ideal) m (Cert.KernelIdealProof.body_obligation m) g)

/-- Over the extended reals, from finite blocks of one array: the sixteen devices end holding the blocks of the
    array the reference ends holding, the softmax along the rows of the whole array. -/
theorem algebraic : Cert.algebraic_KernelIdeal_ReferenceIdeal := by
  intro m g m' g' hpre hagree
  refine ⟨Cert.ReferenceIdeal.Read.val_main_v8 (F := Ideal)
      (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨?_, (h c).2⟩)
      (Cert.KernelIdealProof.run_values (F := Ideal) m (Cert.KernelIdealProof.body_obligation m) g)
    exact (h c).1.trans (Cert.KernelIdealProof.Value.out_eq_block
      (fun d : Dev Cert.KernelIdeal.nD => m ((d.tc : Thread Cert.KernelIdeal.nD Cert.KernelIdeal.τ).loc Cert.KernelIdeal.main_arg0))
      (m' (((0 : Dev Cert.ReferenceIdeal.nD).tc : Thread Cert.ReferenceIdeal.nD Cert.ReferenceIdeal.τ).loc Cert.ReferenceIdeal.main_arg0))
      hagree hpre c)
  · exact (θ_run (Cert.ReferenceIdeal.defs (F := Ideal)) _ _).mono (fun _ h => h 0)
      (Cert.ReferenceIdealProof.ref_run m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceIdealProof.frame_ri, trivial, algebraic⟩

end Cert.Proof

end
